-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "c_eps_sq" .f32 0x2F8CBCCC#32 ((77371252064649 / 302231454903657293676544 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S1024 : Shape := ⟨1, ![1024]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel

variable [Facts]

def fn {F : FTy → Type} [FloatOps F] (main_arg0 : FVec F S1024x256 .f32) (main_arg1 : IVec S1024 32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  main_v3
-- ==== Kernel.lean ====
abbrev S1024x256 : Shape := ⟨2, ![1024, 256]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1x1 : Shape := ⟨2, ![1, 1]⟩
abbrev S128x256 : Shape := ⟨2, ![128, 256]⟩
abbrev S128 : Shape := ⟨1, ![128]⟩
abbrev S128x1 : Shape := ⟨2, ![128, 1]⟩
abbrev S128x1024 : Shape := ⟨2, ![128, 1024]⟩
abbrev S1 : Shape := ⟨1, ![1]⟩

abbrev nBuf : Space → Nat
  | .hbm => 15
  | .vmem => 9
  | .smem => 0
  | _ => 0

abbrev bufTy : (tb : Table) → Fin (tcTables nBuf tb) → BufTy
  | .hbm, ⟨0, _⟩ => ⟨S1024x256, .f32⟩
  | .hbm, ⟨1, _⟩ => ⟨S1024, .i32⟩
  | .hbm, ⟨2, _⟩ => ⟨S1024x256, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S1024x1, .i32⟩
  | .hbm, ⟨8, _⟩ => ⟨S1x1024, .i32⟩
  | .hbm, ⟨9, _⟩ => ⟨S1x1024, .f32⟩
  | .hbm, ⟨10, _⟩ => ⟨S1x1024, .f32⟩
  | .hbm, ⟨11, _⟩ => ⟨S1x1, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S128x256, .f32⟩
  | .local _ .vmem, ⟨1, _⟩ => ⟨S128x256, .f32⟩
  | .local _ .vmem, ⟨2, _⟩ => ⟨S1024x256, .f32⟩
  | .local _ .vmem, ⟨3, _⟩ => ⟨S1024x1, .i32⟩
  | .local _ .vmem, ⟨4, _⟩ => ⟨S1x1024, .i32⟩
  | .local _ .vmem, ⟨5, _⟩ => ⟨S1x1024, .f32⟩
  | .local _ .vmem, ⟨6, _⟩ => ⟨S1x1024, .f32⟩
  | .local _ .vmem, ⟨7, _⟩ => ⟨S1x1, .f32⟩
  | .local _ .vmem, ⟨8, _⟩ => ⟨S1x1, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c128_i32 : BitVec 32 := 128#32
  let v0 : BitVec 32 := Scalar.muli arg0 c128_i32
  v0
def k0_off1 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v40 : Index := Scalar.indexCast v1
  let c0_16 : Index := 0#32
  ![v40.toNat, 0]
def k0_cond2 (i : grid0.Coords) : BitVec 1 :=
  let arg0 : BitVec 32 := BitVec.ofNat 32 (i 0).val
  let c7_i32 : BitVec 32 := 7#32
  let v75 : BitVec 1 := Scalar.cmpi .eq arg0 c7_i32
  let v76 : BitVec 32 := Scalar.extui v75
  let c0_i32_30 : BitVec 32 := 0#32
  let v77 : BitVec 1 := Scalar.cmpi .ne v76 c0_i32_30
  v77

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  reducesTo_S1024x256_S1024_d1 : S1024x256.ReducesTo [1] S1024
  h_S_ : 0 < S_.numel
  shapeCasts_S1024_S1024x1 : S1024.ShapeCasts S1024x1
  shapeCasts_S1024_S1x1024 : S1024.ShapeCasts S1x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x256_S128x256_0_0 : ∀ a, (![0, 0] : Fin 2 → Nat) a + S128x256.size a ≤ S128x256.size a
  h_S128x256 : 0 < S128x256.numel
  inb_S1024x256_S1024x256_0_0 : ∀ a, (![0, 0] : Fin 2 → Nat) a + S1024x256.size a ≤ S1024x256.size a
  h_S1024x256 : 0 < S1024x256.numel
  reduces_S128x256_S128 : S128x256.Reduces [1] S128
  shapeCasts_S128_S128x1 : S128.ShapeCasts S128x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  broadcasts_S128x1_S128x1024 : S128x1.Broadcasts S128x1024
  broadcasts_S1x1024_S128x1024 : S1x1024.Broadcasts S128x1024
  h_S128x1 : 0 < S128x1.numel
  shapeCasts_S128x1_S128x1 : S128x1.ShapeCasts S128x1
  iota_S128x1024_d0_w32 : S128x1024.Iotas .tc 32 [0]
  iota_S128x1024_d1_w32 : S128x1024.Iotas .tc 32 [1]
  reduces_S128x1024_S128 : S128x1024.Reduces [1] S128
  reduces_S128x1_S1 : S128x1.Reduces [0] S1
  shapeCasts_S1_S1x1 : S1.ShapeCasts S1x1
  shapeCasts_S1x1_S_ : S1x1.ShapeCasts S_
  dot_S128x256_S1024x256_S128x1024_1_1_0_0_n_n_wf : DotDims.WF S128x256 S1024x256 S128x1024 [1] [1] [0] [0] [] []
  hrank0 : 0 < grid0.rank
  k0_mult1_dvd : ∀ i : grid0.Coords, 128 ∣ (k0_mult1 i).toNat
  k0_off1_inb : ∀ i : grid0.Coords, ∀ a, (k0_off1 i) a + S128x1.size a ≤ S1024x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S1024x256.size a
  hwx0_0 : ∀ i : grid0.Coords, EltTy.bits .f32 = 32 ∨ (Rect.block (s := S1024x256) S128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1024x1.size a
  hwx0_2 : ∀ i : grid0.Coords, EltTy.bits .i32 = 32 ∨ (Rect.block (s := S1024x1) S1024x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .i32 = 32 ∨ (Rect.block (s := S1x1024) S1x1024.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

def dot_S128x256_S1024x256_S128x1024_1_1_0_0_n_n : DotDims S128x256 S1024x256 S128x1024 where
  lhsContracting := [1]
  rhsContracting := [1]
  lhsNonContracting := [0]
  rhsNonContracting := [0]
  lhsBatch := []
  rhsBatch := []
  wf := dot_S128x256_S1024x256_S128x1024_1_1_0_0_n_n_wf

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S1024x256 : Shape := ⟨2, ![1024, 256]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S1x1024x256 : Shape := ⟨3, ![1, 1024, 256]⟩
abbrev S1024x1x256 : Shape := ⟨3, ![1024, 1, 256]⟩
abbrev S1024x1024x256 : Shape := ⟨3, ![1024, 1024, 256]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024, .i32⟩
  | .hbm, ⟨2, _⟩ => ⟨S1024, .i32⟩
  | .hbm, ⟨3, _⟩ => ⟨S1x1024, .i32⟩
  | .hbm, ⟨4, _⟩ => ⟨S1024x1, .i32⟩
  | .hbm, ⟨5, _⟩ => ⟨S1024x1024, .i32⟩
  | .hbm, ⟨6, _⟩ => ⟨S1024x1024, .i32⟩
  | .hbm, ⟨7, _⟩ => ⟨S1024x1024, .i1⟩
  | .hbm, ⟨8, _⟩ => ⟨S1x1024, .i32⟩
  | .hbm, ⟨9, _⟩ => ⟨S1024x1, .i32⟩
  | .hbm, ⟨10, _⟩ => ⟨S1024x1024, .i32⟩
  | .hbm, ⟨11, _⟩ => ⟨S1024x1024, .i32⟩
  | .hbm, ⟨12, _⟩ => ⟨S1024x1024, .i1⟩
  | .hbm, ⟨13, _⟩ => ⟨S1024x1024, .i1⟩
  | .hbm, ⟨14, _⟩ => ⟨S1024x1024, .f32⟩
  | .hbm, ⟨15, _⟩ => ⟨S1024x1024, .i1⟩
  | .hbm, ⟨16, _⟩ => ⟨S1024x1024, .i1⟩
  | .hbm, ⟨17, _⟩ => ⟨S1024x1024, .f32⟩
  | .hbm, ⟨18, _⟩ => ⟨S1x1024x256, .f32⟩
  | .hbm, ⟨19, _⟩ => ⟨S1024x1x256, .f32⟩
  | .hbm, ⟨20, _⟩ => ⟨S1024x1024x256, .f32⟩
  | .hbm, ⟨21, _⟩ => ⟨S1024x1024x256, .f32⟩
  | .hbm, ⟨22, _⟩ => ⟨S1024x1024x256, .f32⟩
  | .hbm, ⟨23, _⟩ => ⟨S_, .f32⟩
  | .hbm, ⟨24, _⟩ => ⟨S1024x1024x256, .f32⟩
  | .hbm, ⟨25, _⟩ => ⟨S1024x1024x256, .f32⟩
  | .hbm, ⟨26, _⟩ => ⟨S1024x1024x256, .f32⟩
  | .hbm, ⟨27, _⟩ => ⟨S_, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S1024x1024, .f32⟩
  | .hbm, ⟨39, _⟩ => ⟨S1024x1024, .f32⟩
  | .hbm, ⟨40, _⟩ => ⟨S1024x1024, .f32⟩
  | .hbm, ⟨41, _⟩ => ⟨S_, .f32⟩
  | .hbm, ⟨42, _⟩ => ⟨S_, .f32⟩
  | .hbm, ⟨43, _⟩ => ⟨S1024x1024, .i32⟩
  | .hbm, ⟨44, _⟩ => ⟨S_, .i32⟩
  | .hbm, ⟨45, _⟩ => ⟨S_, .i32⟩
  | .hbm, ⟨46, _⟩ => ⟨S_, .f32⟩
  | .hbm, ⟨47, _⟩ => ⟨S_, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_cst : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_v24 : Ref sig .tc := ⟨.hbm, 28, rfl⟩
abbrev main_v25 : Ref sig .tc := ⟨.hbm, 29, rfl⟩
abbrev main_cst_1 : Ref sig .tc := ⟨.hbm, 30, rfl⟩
abbrev main_v26 : Ref sig .tc := ⟨.hbm, 31, rfl⟩
abbrev main_v27 : Ref sig .tc := ⟨.hbm, 32, rfl⟩
abbrev main_cst_2 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_3 : Ref sig .tc := ⟨.hbm, 41, rfl⟩
abbrev main_v35 : Ref sig .tc := ⟨.hbm, 42, rfl⟩
abbrev main_v36 : Ref sig .tc := ⟨.hbm, 43, rfl⟩
abbrev main_c : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1024_S1024x1_0 : S1024.BroadcastsInDim S1024x1 (![0] : Fin 1 → Fin S1024x1.rank)
  bcast_S1x1024_S1024x1024_0_1 : S1x1024.BroadcastsInDim S1024x1024 (![0, 1] : Fin 2 → Fin S1024x1024.rank)
  bcast_S1024x1_S1024x1024_0_1 : S1024x1.BroadcastsInDim S1024x1024 (![0, 1] : Fin 2 → Fin S1024x1024.rank)
  bcast_S1024x256_S1x1024x256_1_2 : S1024x256.BroadcastsInDim S1x1024x256 (![1, 2] : Fin 2 → Fin S1x1024x256.rank)
  bcast_S1024x256_S1024x1x256_0_2 : S1024x256.BroadcastsInDim S1024x1x256 (![0, 2] : Fin 2 → Fin S1024x1x256.rank)
  bcast_S1x1024x256_S1024x1024x256_0_1_2 : S1x1024x256.BroadcastsInDim S1024x1024x256 (![0, 1, 2] : Fin 3 → Fin S1024x1024x256.rank)
  bcast_S1024x1x256_S1024x1024x256_0_1_2 : S1024x1x256.BroadcastsInDim S1024x1024x256 (![0, 1, 2] : Fin 3 → Fin S1024x1024x256.rank)
  bcast_S_S1024x1024x256 : S_.BroadcastsInDim S1024x1024x256 (![] : Fin 0 → Fin S1024x1024x256.rank)
  reducesTo_S1024x1024x256_S1024x1024_d2 : S1024x1024x256.ReducesTo [2] S1024x1024
  h_S_ : 0 < S_.numel
  bcast_S_S1024x1024 : S_.BroadcastsInDim S1024x1024 (![] : Fin 0 → Fin S1024x1024.rank)
  reducesTo_S1024x1024_S_d0_1 : S1024x1024.ReducesTo [0, 1] S_
  natLt_1_32 : 1 < 32

variable [Facts₀]

class Facts : Prop extends Facts₀ where

variable [Facts]
-- ==== Proof.Word.Entry.lean ====
/-
  What the kernel region finds and what surrounds it: the contents of every buffer of a core when the region is
  entered (the nine host operations before it applied to the launch memory), and the program as those operations,
  the region, and the three host operations after it.
-/
import proofs.«175114_j50955491999905_1_alg».proof.Proof.Gen.Kernel.Launch
import proofs.«175114_j50955491999905_1_alg».proof.Proof.Gen.Kernel.Skeleton
import proofs.«175114_j50955491999905_1_alg».proof.Proof.Gen.Kernel.Points
import Idealize.ShloMosaic.Lib.Pipeline.FrameBody
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

/-- Core c's buffer contents when the region is entered: the launch memory after the host operations before it. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program reduces to the region continued by the three later host operations, entered at V. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The first argument is no host operation's result: the region finds it as launched. -/
theorem V_main_arg0 (c : Dev nD) : V m c main_arg0 = m ((c : Thread nD τ).loc main_arg0) := by
  dsimp only [V, V0]; simp only [hostOps0, List.flatten_cons, List.flatten_nil, List.append_nil]; after_results

/-- Neither is the second. -/
theorem V_main_arg1 (c : Dev nD) : V m c main_arg1 = m ((c : Thread nD τ).loc main_arg1) := by
  dsimp only [V, V0]; simp only [hostOps0, List.flatten_cons, List.flatten_nil, List.append_nil]; after_results

end Cert.Kernel.Hand

end
-- ==== Proof.Word.Cases.lean ====
/-
  What the three cases of the kernel body share. The grid has eight points; the body resets its 1x1 accumulator at
  point 0, adds the point's partial sum to it at every point, and copies it to the 1x1 output block at point 7. Here:
  the blocks of the six inputs, the two conditions decided over the grid, where the output window is idle, the
  staging memrefs by name, and the region invariant with the accumulator as an owned memref.
-/
import proofs.«175114_j50955491999905_1_alg».proof.Proof.Word.Entry
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block at every point, fetched there or not: where it
    is not fetched its block index has not moved, and the body leaves the block in place. -/
theorem found_in_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds the window's block at every point, fetched there or not: where it
    is not fetched its block index has not moved, and the body leaves the block in place. -/
theorem found_in_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds the window's block at every point, fetched there or not: where it
    is not fetched its block index has not moved, and the body leaves the block in place. -/
theorem found_in_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds the window's block at every point, fetched there or not: where it
    is not fetched its block index has not moved, and the body leaves the block in place. -/
theorem found_in_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds the window's block at every point, fetched there or not: where it
    is not fetched its block index has not moved, and the body leaves the block in place. -/
theorem found_in_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds the window's block at every point, fetched there or not: where it
    is not fetched its block index has not moved, and the body leaves the block in place. -/
theorem found_in_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The two conditions on the grid coordinate -/

/-- The reset's condition: the coordinate is 0. -/
abbrev atFirst (i : grid0.Coords) : Prop := (Scalar.cmpi .ne (Scalar.extui (Scalar.cmpi .eq (BitVec.ofNat 32 (i 0).val) 0#32)) 0#32) = 1#1
/-- It holds at point 0 only. -/
theorem atFirst_iff : ∀ t : Fin cfg0.N, atFirst (grid0.coords t) ↔ t.val = 0 :=
  (by decide +kernel : ∀ t : Fin grid0.N, atFirst (grid0.coords t) ↔ t.val = 0)

/-- The write-out's condition: the coordinate is 7. -/
abbrev atLast (i : grid0.Coords) : Prop := k0_cond2 i = 1#1
/-- It holds at point 7 only. -/
theorem atLast_iff : ∀ t : Fin cfg0.N, atLast (grid0.coords t) ↔ t.val = 7 :=
  (by decide +kernel : ∀ t : Fin grid0.N, atLast (grid0.coords t) ↔ t.val = 7)

/-! ## Where the output window is idle -/

/-- Away from the last point the output window is idle: the body stores nothing into it there, -/
theorem out_idle : ∀ t : Fin cfg0.N, ¬atLast (grid0.coords t) → cfg0.idle 6 (grid0.coords t) = true := by decide +kernel
/-- and the pipeline does not write its block back there. -/
theorem out_noFlush : ∀ t : Fin cfg0.N, ¬atLast (grid0.coords t) → (cfg0.win 6).flush t = false := by decide +kernel
/-- At the last point it is live. -/
theorem out_live : ∀ t : Fin cfg0.N, atLast (grid0.coords t) → cfg0.idle 6 (grid0.coords t) = false := by decide +kernel
/-- The inputs are live everywhere. -/
theorem in_live (w : Fin cfg0.W) (hw : w.val < 6) (i : grid0.Coords) : cfg0.idle w i = false := by
  obtain ⟨w, h⟩ := w
  match w, h, hw with
  | 0, _, _ => rfl | 1, _, _ => rfl | 2, _, _ => rfl | 3, _, _ => rfl | 4, _, _ => rfl | 5, _, _ => rfl

/-! ## The staging memrefs, the accumulator and the invariant -/

abbrev ms0 (t : Fin cfg0.N) : Memref sig .tc .vmem S128x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1 .f32 := win0_6.stage (cfg0.slots t 6)
abbrev hs6 (t : Fin cfg0.N) : (ms6 t).IsWhole := hstage0_6 ((cfg0.slots t 6).cast nbuf0_6)
/-- The 1x1 accumulator the kernel carries between points: a whole scoped buffer of its own. -/
abbrev accM : Memref sig .tc .vmem S1x1 .f32 := Memref.whole cc0_scratch0
/-- The accumulator as a view: what it holds is stated through it. -/
abbrev accV : View sig .tc .vmem S1x1 .f32 := accM.view
/-- The output window's staging buffer as a view: what it holds is stated through it. -/
abbrev outV : View sig .tc .vmem S1x1 .f32 := (Memref.whole cc0_stg6_0 : Memref sig .tc .vmem S1x1 .f32).view

/-- What the launch hands the region: the accumulator owned at some contents, and the generator register at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Hand

end
-- ==== Proof.Word.RunFirst.lean ====
/-
  The kernel body run whole at the FIRST point (the reset taken, the write-out not): the accumulator is found at anything, is set to zero and then to zero plus the point's partial sum; the output buffer is handed back as found.
  The six input buffers hold their blocks before and after.
-/
import proofs.«175114_j50955491999905_1_alg».proof.Proof.Word.Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The pieces the body's stores leave in the output buffer (`LO`) and in the accumulator (`LS`), last store first, with the
    proof that from the eight whole memrefs — the inputs at `x1 … x6` — the body runs to any continuation that takes the
    inputs back as they were, the accumulator with `LS` written and the output buffer untouched. -/
noncomputable def runFirst (c : Dev nD) (i : grid0.Coords) (arg1 : Memref sig .tc .vmem S128x256 .f32) (harg1 : arg1.IsWhole) (arg2 : Memref sig .tc .vmem S1024x256 .f32) (harg2 : arg2.IsWhole) (arg3 : Memref sig .tc .vmem S1024x1 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1 .f32) (harg8 : arg8.IsWhole) (hF : atFirst i) (hL : ¬atLast i)
    (x1 : Vec F S128x256 .f32) (x2 : Vec F S1024x256 .f32) (x3 : Vec F S1024x1 .i32) (x4 : Vec F S1x1024 .i32) (x5 : Vec F S1x1024 .f32) (x6 : Vec F S1x1024 .f32) :
    Σ' (LO : List (View.Piece (Elt F) S1x1 .f32)), { LS : List (View.Piece (Elt F) S1x1 .f32) //
      ∀ (xo : Vec F S1x1 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare xo ∗ (∃ d, owns (c : Thread nD τ) arg8 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc0__contrastive_kernel i arg1 harg1 arg2 harg2 arg3 harg3 arg4 harg4 arg5 harg5 arg6 harg6 arg7 harg7 arg8 harg8) K } := by
  refine ⟨[], ?_, fun xo E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_unfold [cc0__contrastive_kernel]
    sl_exec (disch := first | exact hF | exact hL)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; iexact H8

end Cert.Kernel.Hand

end
-- ==== Proof.Word.RunMid.lean ====
/-
  The kernel body run whole at a MIDDLE point (neither the reset nor the write-out taken): the accumulator is found at what the point before left and the point's partial sum is added to it; the output buffer is handed back as found.
  The six input buffers hold their blocks before and after.
-/
import proofs.«175114_j50955491999905_1_alg».proof.Proof.Word.RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The pieces the body's stores leave in the output buffer (`LO`) and in the accumulator (`LS`), last store first, with the
    proof that from the eight whole memrefs — the inputs at `x1 … x6` — the body runs to any continuation that takes the
    inputs back as they were, the accumulator with `LS` written and the output buffer untouched. -/
noncomputable def runMid (c : Dev nD) (i : grid0.Coords) (arg1 : Memref sig .tc .vmem S128x256 .f32) (harg1 : arg1.IsWhole) (arg2 : Memref sig .tc .vmem S1024x256 .f32) (harg2 : arg2.IsWhole) (arg3 : Memref sig .tc .vmem S1024x1 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1 .f32) (harg8 : arg8.IsWhole) (hF : ¬atFirst i) (hL : ¬atLast i)
    (x1 : Vec F S128x256 .f32) (x2 : Vec F S1024x256 .f32) (x3 : Vec F S1024x1 .i32) (x4 : Vec F S1x1024 .i32) (x5 : Vec F S1x1024 .f32) (x6 : Vec F S1x1024 .f32) (xs : Vec F S1x1 .f32) :
    Σ' (LO : List (View.Piece (Elt F) S1x1 .f32)), { LS : List (View.Piece (Elt F) S1x1 .f32) //
      ∀ (xo : Vec F S1x1 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare xo ∗ owns (c : Thread nD τ) arg8 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc0__contrastive_kernel i arg1 harg1 arg2 harg2 arg3 harg3 arg4 harg4 arg5 harg5 arg6 harg6 arg7 harg7 arg8 harg8) K } := by
  refine ⟨[], ?_, fun xo E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_unfold [cc0__contrastive_kernel]
    sl_exec (disch := first | exact hF | exact hL)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; iexact H8

end Cert.Kernel.Hand

end
-- ==== Proof.Word.RunLast.lean ====
/-
  The kernel body run whole at the LAST point (the reset not taken, the write-out taken): the accumulator is found at what the point before left, the point's partial sum is added to it, and the sum is stored into the output buffer, found at anything.
  The six input buffers hold their blocks before and after.
-/
import proofs.«175114_j50955491999905_1_alg».proof.Proof.Word.RunMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The pieces the body's stores leave in the output buffer (`LO`) and in the accumulator (`LS`), last store first, with the
    proof that from the eight whole memrefs — the inputs at `x1 … x6` — the body runs to any continuation that takes the
    inputs back as they were, the accumulator with `LS` written and the output buffer with `LO` written. -/
noncomputable def runLast (c : Dev nD) (i : grid0.Coords) (arg1 : Memref sig .tc .vmem S128x256 .f32) (harg1 : arg1.IsWhole) (arg2 : Memref sig .tc .vmem S1024x256 .f32) (harg2 : arg2.IsWhole) (arg3 : Memref sig .tc .vmem S1024x1 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1 .f32) (harg8 : arg8.IsWhole) (hF : ¬atFirst i) (hL : atLast i)
    (x1 : Vec F S128x256 .f32) (x2 : Vec F S1024x256 .f32) (x3 : Vec F S1024x1 .i32) (x4 : Vec F S1x1024 .i32) (x5 : Vec F S1x1024 .f32) (x6 : Vec F S1x1024 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc0__contrastive_kernel i arg1 harg1 arg2 harg2 arg3 harg3 arg4 harg4 arg5 harg5 arg6 harg6 arg7 harg7 arg8 harg8) K } := by
  refine ⟨?_, ?_, fun E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg8.eq_unread hf8
    sl_unfold [cc0__contrastive_kernel]
    sl_exec (disch := first | exact hF | exact hL)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    iexists _; iexact H8

end Cert.Kernel.Hand

end
-- ==== Proof.Word.Frame.lean ====
/-
  The body half of the frame proof. What each case leaves in the accumulator and in the output buffer; the
  accumulator after each point, by recursion on the point (point 0 starts it from zero, each later point adds its
  partial sum to what the point before left); the region invariant (before point 0 what the launch hands over,
  afterwards the accumulator owned at that recursion's value); the proof data; the body obligation, by cases on the
  point; and the two entailments at the region's ends.
-/
import proofs.«175114_j50955491999905_1_alg».proof.Proof.Word.RunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each case leaves -/

/-- The first point's stores into the accumulator (the zero, then the sum) cover it. -/
theorem accCover_first (c : Dev nD) (i : grid0.Coords) (arg1 : Memref sig .tc .vmem S128x256 .f32) (harg1 : arg1.IsWhole) (arg2 : Memref sig .tc .vmem S1024x256 .f32) (harg2 : arg2.IsWhole) (arg3 : Memref sig .tc .vmem S1024x1 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1 .f32) (harg8 : arg8.IsWhole) (hF : atFirst i) (hL : ¬atLast i)
    (x1 : Vec F S128x256 .f32) (x2 : Vec F S1024x256 .f32) (x3 : Vec F S1024x1 .i32) (x4 : Vec F S1x1024 .i32) (x5 : Vec F S1x1024 .f32) (x6 : Vec F S1x1024 .f32) (y : S1x1.Idx) :
    ∃ pc ∈ (runFirst c i arg1 harg1 arg2 harg2 arg3 harg3 arg4 harg4 arg5 harg5 arg6 harg6 arg7 harg7 arg8 harg8 hF hL x1 x2 x3 x4 x5 x6).2.1, y ∈ pc.1.set :=
  View.cover_of_tiledL (runFirst c i arg1 harg1 arg2 harg2 arg3 harg3 arg4 harg4 arg5 harg5 arg6 harg6 arg7 harg7 arg8 harg8 hF hL x1 x2 x3 x4 x5 x6).2.1 S1x1.size (by sl_kernel_rfl) y
/-- What the first point leaves in the accumulator: its stores read back. -/
def accFirst (c : Dev nD) (i : grid0.Coords) (arg1 : Memref sig .tc .vmem S128x256 .f32) (harg1 : arg1.IsWhole) (arg2 : Memref sig .tc .vmem S1024x256 .f32) (harg2 : arg2.IsWhole) (arg3 : Memref sig .tc .vmem S1024x1 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1 .f32) (harg8 : arg8.IsWhole) (hF : atFirst i) (hL : ¬atLast i)
    (x1 : Vec F S128x256 .f32) (x2 : Vec F S1024x256 .f32) (x3 : Vec F S1024x1 .i32) (x4 : Vec F S1x1024 .i32) (x5 : Vec F S1x1024 .f32) (x6 : Vec F S1x1024 .f32) : Vec F S1x1 .f32 :=
  accV.read (Elt F) (accV.writes (Elt F) accV.junk (runFirst c i arg1 harg1 arg2 harg2 arg3 harg3 arg4 harg4 arg5 harg5 arg6 harg6 arg7 harg7 arg8 harg8 hF hL x1 x2 x3 x4 x5 x6).2.1)

/-- A middle point's one store into the accumulator covers it. -/
theorem accCover_mid (c : Dev nD) (i : grid0.Coords) (arg1 : Memref sig .tc .vmem S128x256 .f32) (harg1 : arg1.IsWhole) (arg2 : Memref sig .tc .vmem S1024x256 .f32) (harg2 : arg2.IsWhole) (arg3 : Memref sig .tc .vmem S1024x1 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1 .f32) (harg8 : arg8.IsWhole) (hF : ¬atFirst i) (hL : ¬atLast i)
    (x1 : Vec F S128x256 .f32) (x2 : Vec F S1024x256 .f32) (x3 : Vec F S1024x1 .i32) (x4 : Vec F S1x1024 .i32) (x5 : Vec F S1x1024 .f32) (x6 : Vec F S1x1024 .f32) (xs : Vec F S1x1 .f32) (y : S1x1.Idx) :
    ∃ pc ∈ (runMid c i arg1 harg1 arg2 harg2 arg3 harg3 arg4 harg4 arg5 harg5 arg6 harg6 arg7 harg7 arg8 harg8 hF hL x1 x2 x3 x4 x5 x6 xs).2.1, y ∈ pc.1.set :=
  View.cover_of_tiledL (runMid c i arg1 harg1 arg2 harg2 arg3 harg3 arg4 harg4 arg5 harg5 arg6 harg6 arg7 harg7 arg8 harg8 hF hL x1 x2 x3 x4 x5 x6 xs).2.1 S1x1.size (by sl_kernel_rfl) y
/-- What a middle point leaves in the accumulator. -/
def accMid (c : Dev nD) (i : grid0.Coords) (arg1 : Memref sig .tc .vmem S128x256 .f32) (harg1 : arg1.IsWhole) (arg2 : Memref sig .tc .vmem S1024x256 .f32) (harg2 : arg2.IsWhole) (arg3 : Memref sig .tc .vmem S1024x1 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1 .f32) (harg8 : arg8.IsWhole) (hF : ¬atFirst i) (hL : ¬atLast i)
    (x1 : Vec F S128x256 .f32) (x2 : Vec F S1024x256 .f32) (x3 : Vec F S1024x1 .i32) (x4 : Vec F S1x1024 .i32) (x5 : Vec F S1x1024 .f32) (x6 : Vec F S1x1024 .f32) (xs : Vec F S1x1 .f32) : Vec F S1x1 .f32 :=
  accV.read (Elt F) (accV.writes (Elt F) accV.junk (runMid c i arg1 harg1 arg2 harg2 arg3 harg3 arg4 harg4 arg5 harg5 arg6 harg6 arg7 harg7 arg8 harg8 hF hL x1 x2 x3 x4 x5 x6 xs).2.1)

/-- The last point's one store into the accumulator covers it, -/
theorem accCover_last (c : Dev nD) (i : grid0.Coords) (arg1 : Memref sig .tc .vmem S128x256 .f32) (harg1 : arg1.IsWhole) (arg2 : Memref sig .tc .vmem S1024x256 .f32) (harg2 : arg2.IsWhole) (arg3 : Memref sig .tc .vmem S1024x1 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1 .f32) (harg8 : arg8.IsWhole) (hF : ¬atFirst i) (hL : atLast i)
    (x1 : Vec F S128x256 .f32) (x2 : Vec F S1024x256 .f32) (x3 : Vec F S1024x1 .i32) (x4 : Vec F S1x1024 .i32) (x5 : Vec F S1x1024 .f32) (x6 : Vec F S1x1024 .f32) (xs : Vec F S1x1 .f32) (y : S1x1.Idx) :
    ∃ pc ∈ (runLast c i arg1 harg1 arg2 harg2 arg3 harg3 arg4 harg4 arg5 harg5 arg6 harg6 arg7 harg7 arg8 harg8 hF hL x1 x2 x3 x4 x5 x6 xs).2.1, y ∈ pc.1.set :=
  View.cover_of_tiledL (runLast c i arg1 harg1 arg2 harg2 arg3 harg3 arg4 harg4 arg5 harg5 arg6 harg6 arg7 harg7 arg8 harg8 hF hL x1 x2 x3 x4 x5 x6 xs).2.1 S1x1.size (by sl_kernel_rfl) y
/-- What the last point leaves in the accumulator. -/
def accLast (c : Dev nD) (i : grid0.Coords) (arg1 : Memref sig .tc .vmem S128x256 .f32) (harg1 : arg1.IsWhole) (arg2 : Memref sig .tc .vmem S1024x256 .f32) (harg2 : arg2.IsWhole) (arg3 : Memref sig .tc .vmem S1024x1 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1 .f32) (harg8 : arg8.IsWhole) (hF : ¬atFirst i) (hL : atLast i)
    (x1 : Vec F S128x256 .f32) (x2 : Vec F S1024x256 .f32) (x3 : Vec F S1024x1 .i32) (x4 : Vec F S1x1024 .i32) (x5 : Vec F S1x1024 .f32) (x6 : Vec F S1x1024 .f32) (xs : Vec F S1x1 .f32) : Vec F S1x1 .f32 :=
  accV.read (Elt F) (accV.writes (Elt F) accV.junk (runLast c i arg1 harg1 arg2 harg2 arg3 harg3 arg4 harg4 arg5 harg5 arg6 harg6 arg7 harg7 arg8 harg8 hF hL x1 x2 x3 x4 x5 x6 xs).2.1)
/-- and its one store into the output buffer covers that. -/
theorem outCover_last (c : Dev nD) (i : grid0.Coords) (arg1 : Memref sig .tc .vmem S128x256 .f32) (harg1 : arg1.IsWhole) (arg2 : Memref sig .tc .vmem S1024x256 .f32) (harg2 : arg2.IsWhole) (arg3 : Memref sig .tc .vmem S1024x1 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1 .f32) (harg8 : arg8.IsWhole) (hF : ¬atFirst i) (hL : atLast i)
    (x1 : Vec F S128x256 .f32) (x2 : Vec F S1024x256 .f32) (x3 : Vec F S1024x1 .i32) (x4 : Vec F S1x1024 .i32) (x5 : Vec F S1x1024 .f32) (x6 : Vec F S1x1024 .f32) (xs : Vec F S1x1 .f32) (y : S1x1.Idx) :
    ∃ pc ∈ (runLast c i arg1 harg1 arg2 harg2 arg3 harg3 arg4 harg4 arg5 harg5 arg6 harg6 arg7 harg7 arg8 harg8 hF hL x1 x2 x3 x4 x5 x6 xs).1, y ∈ pc.1.set :=
  View.cover_of_tiledL (runLast c i arg1 harg1 arg2 harg2 arg3 harg3 arg4 harg4 arg5 harg5 arg6 harg6 arg7 harg7 arg8 harg8 hF hL x1 x2 x3 x4 x5 x6 xs).1 S1x1.size (by sl_kernel_rfl) y
/-- What the last point leaves in the output buffer. -/
def outLast (c : Dev nD) (i : grid0.Coords) (arg1 : Memref sig .tc .vmem S128x256 .f32) (harg1 : arg1.IsWhole) (arg2 : Memref sig .tc .vmem S1024x256 .f32) (harg2 : arg2.IsWhole) (arg3 : Memref sig .tc .vmem S1024x1 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1 .f32) (harg8 : arg8.IsWhole) (hF : ¬atFirst i) (hL : atLast i)
    (x1 : Vec F S128x256 .f32) (x2 : Vec F S1024x256 .f32) (x3 : Vec F S1024x1 .i32) (x4 : Vec F S1x1024 .i32) (x5 : Vec F S1x1024 .f32) (x6 : Vec F S1x1024 .f32) (xs : Vec F S1x1 .f32) : Vec F S1x1 .f32 :=
  outV.read (Elt F) (outV.writes (Elt F) outV.junk (runLast c i arg1 harg1 arg2 harg2 arg3 harg3 arg4 harg4 arg5 harg5 arg6 harg6 arg7 harg7 arg8 harg8 hF hL x1 x2 x3 x4 x5 x6 xs).1)

/-! ## The accumulator after each point -/

theorem notFirst_of_ne {t : Fin cfg0.N} (h : t.val ≠ 0) : ¬atFirst (grid0.coords t) := fun h' => h ((atFirst_iff t).mp h')
theorem notLast_of_ne {t : Fin cfg0.N} (h : t.val ≠ 7) : ¬atLast (grid0.coords t) := fun h' => h ((atLast_iff t).mp h')

/-- THE ACCUMULATION: what the accumulator holds after the body at point `n`. Point 0 is the first case, run on that
    point's blocks; point 7 the last case and points 1 to 6 the middle case, each over what point `n - 1` left. -/
def acc (c : Dev nD) : (n : ℕ) → n < cfg0.N → Vec F S1x1 .f32
  | 0, hn => accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) accM (Memref.isWhole_whole _) ((atFirst_iff ⟨0, hn⟩).mpr rfl) (notLast_of_ne (t := ⟨0, hn⟩) (by show (0 : ℕ) ≠ 7; omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h7 : n + 1 = 7 then
      accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (notFirst_of_ne (t := ⟨n + 1, hn⟩) (Nat.succ_ne_zero n)) ((atLast_iff ⟨n + 1, hn⟩).mpr h7) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (acc c n (Nat.lt_of_succ_lt hn))
    else
      accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (notFirst_of_ne (t := ⟨n + 1, hn⟩) (Nat.succ_ne_zero n)) (notLast_of_ne (t := ⟨n + 1, hn⟩) h7) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (acc c n (Nat.lt_of_succ_lt hn))

/-- At point 0: the first case's contents. -/
theorem acc_first (c : Dev nD) (t : Fin cfg0.N) (h0 : t.val = 0) (h7 : t.val ≠ 7) :
    acc m c t.val t.isLt = accFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) ((atFirst_iff t).mpr h0) (notLast_of_ne h7) (iblk m c 0 t) (iblk m c 1 t) (iblk m c 2 t) (iblk m c 3 t) (iblk m c 4 t) (iblk m c 5 t) := by
  obtain ⟨n, hn⟩ := t
  cases n with
  | zero => exact rfl
  | succ n => exact absurd h0 (Nat.succ_ne_zero n)

/-- At points 1 to 6: the middle case's contents, over what the point before left. -/
theorem acc_mid (c : Dev nD) (t : Fin cfg0.N) (h0 : t.val ≠ 0) (h7 : t.val ≠ 7) :
    acc m c t.val t.isLt = accMid c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (notFirst_of_ne h0) (notLast_of_ne h7) (iblk m c 0 t) (iblk m c 1 t) (iblk m c 2 t) (iblk m c 3 t) (iblk m c 4 t) (iblk m c 5 t) (acc m c (t.val - 1) (Nat.lt_of_le_of_lt (Nat.sub_le _ _) t.isLt)) := by
  obtain ⟨n, hn⟩ := t
  cases n with
  | zero => exact absurd rfl h0
  | succ n => exact (dif_neg h7).trans rfl

/-- At point 7: the last case's contents, over what point 6 left. -/
theorem acc_last (c : Dev nD) (t : Fin cfg0.N) (h0 : t.val ≠ 0) (h7 : t.val = 7) :
    acc m c t.val t.isLt = accLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (notFirst_of_ne h0) ((atLast_iff t).mpr h7) (iblk m c 0 t) (iblk m c 1 t) (iblk m c 2 t) (iblk m c 3 t) (iblk m c 4 t) (iblk m c 5 t) (acc m c (t.val - 1) (Nat.lt_of_le_of_lt (Nat.sub_le _ _) t.isLt)) := by
  obtain ⟨n, hn⟩ := t
  cases n with
  | zero => exact absurd rfl h0
  | succ n => exact (dif_pos h7).trans rfl

/-- What the output buffer holds after the body at point `t`: at point 7 what the last case stores into it; at the other
    points the window is idle and not written back, and this value is a placeholder nothing consults. -/
def outAt (c : Dev nD) (t : Fin cfg0.N) : Vec F S1x1 .f32 :=
  if h7 : t.val = 7 then
    outLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (notFirst_of_ne (by omega)) ((atLast_iff t).mpr h7) (iblk m c 0 t) (iblk m c 1 t) (iblk m c 2 t) (iblk m c 3 t) (iblk m c 4 t) (iblk m c 5 t) (acc m c (t.val - 1) (Nat.lt_of_le_of_lt (Nat.sub_le _ _) t.isLt))
  else outV.read (Elt F) outV.junk

theorem outAt_last (c : Dev nD) (t : Fin cfg0.N) (h0 : t.val ≠ 0) (h7 : t.val = 7) :
    outAt m c t = outLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (notFirst_of_ne h0) ((atLast_iff t).mpr h7) (iblk m c 0 t) (iblk m c 1 t) (iblk m c 2 t) (iblk m c 3 t) (iblk m c 4 t) (iblk m c 5 t) (acc m c (t.val - 1) (Nat.lt_of_le_of_lt (Nat.sub_le _ _) t.isLt)) := by
  unfold outAt; exact dif_pos h7

/-! ## The region invariant -/

/-- Before point `n`: at `n = 0` what the launch hands the region (the accumulator at anything); afterwards the accumulator
    owned at what point `n - 1` left in it, and the generator register at some state. -/
def Inv (c : Dev nD) : (n : ℕ) → n ≤ cfg0.N → sProp 𝕄
  | 0, _ => Pipeline.ΦA spec0 c
  | n + 1, hn => iprop(iprop(owns (c : Thread nD τ) accM fullShare (acc m c n hn)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(iprop(owns (c : Thread nD τ) accM fullShare (acc m c n hn)) ∗ (∃ r, prngReg c r)) := rfl

theorem Inv_pos (c : Dev nD) (n : ℕ) (h : n ≤ cfg0.N) (hz : n ≠ 0) :
    Inv m c n h = iprop(iprop(owns (c : Thread nD τ) accM fullShare (acc m c (n - 1) (by omega))) ∗ (∃ r, prngReg c r)) := by
  cases n with
  | zero => exact absurd rfl hz
  | succ n => rfl

/-! ## The proof data -/

/-- The proof data of the pipeline on core `c`: the arrays as the region finds them; after the body at point `t` each
    input's buffer at its block and the output's at `outAt`; the invariant `Inv`; nothing owed; of the array the first
    two windows share, half a share each, and a full share of every other. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := Inv m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem q_0 (c : Dev nD) : (dats m 0 c).q 0 = fullShare.left := by dsimp only [dats]
theorem q_1 (c : Dev nD) : (dats m 0 c).q 1 = fullShare.right := by dsimp only [dats]
theorem q_2 (c : Dev nD) : (dats m 0 c).q 2 = fullShare := by dsimp only [dats]
theorem q_3 (c : Dev nD) : (dats m 0 c).q 3 = fullShare := by dsimp only [dats]
theorem q_4 (c : Dev nD) : (dats m 0 c).q 4 = fullShare := by dsimp only [dats]
theorem q_5 (c : Dev nD) : (dats m 0 c).q 5 = fullShare := by dsimp only [dats]
theorem q_6 (c : Dev nD) : (dats m 0 c).q 6 = fullShare := by dsimp only [dats]

theorem Inv_castSucc (c : Dev nD) (t : Fin cfg0.N) :
    (dats m 0 c).Φ t.castSucc = Inv m c t.val (Nat.le_of_lt t.isLt) := by
  dsimp only [dats]; simp only [Fin.coe_castSucc]

theorem live_0 (i : grid0.Coords) : cfg0.idle 0 i = false := rfl
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  found_in_0 m (dats m 0 c) (A_eq m c 0) (after_0 m c) t d
theorem leaves_0 (c : Dev nD) (t : Fin cfg0.N) : (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [live_0 (grid0.coords t)], after_0]
theorem live_1 (i : grid0.Coords) : cfg0.idle 1 i = false := rfl
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  found_in_1 m (dats m 0 c) (A_eq m c 1) (after_1 m c) t d
theorem leaves_1 (c : Dev nD) (t : Fin cfg0.N) : (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [live_1 (grid0.coords t)], after_1]
theorem live_2 (i : grid0.Coords) : cfg0.idle 2 i = false := rfl
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  found_in_2 m (dats m 0 c) (A_eq m c 2) (after_2 m c) t d
theorem leaves_2 (c : Dev nD) (t : Fin cfg0.N) : (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [live_2 (grid0.coords t)], after_2]
theorem live_3 (i : grid0.Coords) : cfg0.idle 3 i = false := rfl
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  found_in_3 m (dats m 0 c) (A_eq m c 3) (after_3 m c) t d
theorem leaves_3 (c : Dev nD) (t : Fin cfg0.N) : (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [live_3 (grid0.coords t)], after_3]
theorem live_4 (i : grid0.Coords) : cfg0.idle 4 i = false := rfl
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  found_in_4 m (dats m 0 c) (A_eq m c 4) (after_4 m c) t d
theorem leaves_4 (c : Dev nD) (t : Fin cfg0.N) : (dats m 0 c).leavesExact 4 t = owns (c : Thread nD τ) (ms4 t) fullShare (iblk m c 4 t) := by
  rw [show (dats m 0 c).leavesExact 4 t = owns (c : Thread nD τ) (ms4 t) fullShare ((dats m 0 c).after 4 t) from by
    unfold Dat.leavesExact; rw [live_4 (grid0.coords t)], after_4]
theorem live_5 (i : grid0.Coords) : cfg0.idle 5 i = false := rfl
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  found_in_5 m (dats m 0 c) (A_eq m c 5) (after_5 m c) t d
theorem leaves_5 (c : Dev nD) (t : Fin cfg0.N) : (dats m 0 c).leavesExact 5 t = owns (c : Thread nD τ) (ms5 t) fullShare (iblk m c 5 t) := by
  rw [show (dats m 0 c).leavesExact 5 t = owns (c : Thread nD τ) (ms5 t) fullShare ((dats m 0 c).after 5 t) from by
    unfold Dat.leavesExact; rw [live_5 (grid0.coords t)], after_5]
theorem after_6 (c : Dev nD) (t : Fin cfg0.N) : (dats m 0 c).after 6 t = outAt m c t := by dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point. The inputs' buffers hold their blocks; the point is 0, 7 or between, and that case's run applies.
    The invariant hands the body the accumulator (at anything at point 0, else at what the point before left) and takes it
    back at this point's value, the stores covering it; away from point 7 the output buffer goes back as it came, at
    point 7 it goes back at what the body stored; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = Inv m c (t.val + 1) t.isLt from rfl, Inv_succ]
  rw [leaves_0, leaves_1, leaves_2, leaves_3, leaves_4, leaves_5]
  have hN : t.val < 8 := lt_of_lt_of_eq t.isLt (show cfg0.N = 8 from N_0)
  by_cases h0 : t.val = 0
  · have h7 : t.val ≠ 7 := by omega
    rw [Dat.leavesExact_idle (dats m 0 c) 6 t (out_idle t (notLast_of_ne h7)) (out_noFlush t (notLast_of_ne h7))]
    rw [acc_first m c t h0 h7]
    unfold accFirst
    rw [Inv_castSucc m c t, Inv_zero m c _ _ h0, PhiA_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply ((runFirst c (grid0.coords t) _ _ _ _ _ _ _ _ _ _ _ _ _ _ _ _ ((atFirst_iff t).mpr h0) (notLast_of_ne h7) (iblk m c 0 t) (iblk m c 1 t) (iblk m c 2 t) (iblk m c 3 t) (iblk m c 4 t) (iblk m c 5 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, ⟨%es, HS⟩⟩
    isplitl [HS Hg]
    · isplitl [HS]
      · unfold owns; iexists _; isplitr
        swap; · iexact HS
        ipureintro; exact View.read_writes_of_cover _ _ _ _ _ (accCover_first c _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h7 : t.val = 7
    · rw [show (dats m 0 c).leavesExact 6 t = owns (c : Thread nD τ) (ms6 t) fullShare ((dats m 0 c).after 6 t) from by
        unfold Dat.leavesExact; rw [out_live t ((atLast_iff t).mpr h7)], after_6]
      rw [outAt_last m c t h0 h7, acc_last m c t h0 h7]
      unfold outLast accLast
      rw [Inv_castSucc m c t, Inv_pos m c _ _ h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid0.coords t) _ _ _ _ _ _ _ _ _ _ _ _ _ _ _ _ (notFirst_of_ne h0) ((atLast_iff t).mpr h7) (iblk m c 0 t) (iblk m c 1 t) (iblk m c 2 t) (iblk m c 3 t) (iblk m c 4 t) (iblk m c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS Hg]
      · isplitl [HS]
        · unfold owns; iexists _; isplitr
          swap; · iexact HS
          ipureintro; exact View.read_writes_of_cover _ _ _ _ _ (accCover_last c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (outCover_last c _ _ _ _ _ _ _ _ _ _ _ _ _ _ _ _ _ _ _ _ _ _ _ _ _ _)
    · rw [Dat.leavesExact_idle (dats m 0 c) 6 t (out_idle t (notLast_of_ne h7)) (out_noFlush t (notLast_of_ne h7))]
      rw [acc_mid m c t h0 h7]
      unfold accMid
      rw [Inv_castSucc m c t, Inv_pos m c _ _ h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runMid c (grid0.coords t) _ _ _ _ _ _ _ _ _ _ _ _ _ _ _ _ (notFirst_of_ne h0) (notLast_of_ne h7) (iblk m c 0 t) (iblk m c 1 t) (iblk m c 2 t) (iblk m c 3 t) (iblk m c 4 t) (iblk m c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS Hg]
      · isplitl [HS]
        · unfold owns; iexists _; isplitr
          swap; · iexact HS
          ipureintro; exact View.read_writes_of_cover _ _ _ _ _ (accCover_mid c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The region's two ends -/

/-- What the launch hands the region is the invariant before point 0. -/
theorem hin (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

/-- After any point the invariant gives that back: the accumulator's value is forgotten. -/
theorem Inv_out (c : Dev nD) (t : Fin (cfg0.N + 1)) (ht : t.val ≠ 0) : (dats m 0 c).Φ t ⊢ Pipeline.ΦA spec0 c := by
  rw [show (dats m 0 c).Φ t = Inv m c t.val (Nat.le_of_lt_succ t.isLt) from rfl, Inv_pos m c _ _ ht, PhiA_eq]
  iintro ⟨HS, Hg⟩
  isplitl [HS]
  · iexists _; iexact HS
  iexact Hg

/-- So after the last. -/
theorem hout (c : Dev nD) : (dats m 0 c).Φ (Fin.last cfg0.N) ⊢ Pipeline.ΦA spec0 c :=
  Inv_out m c _ (by rw [Fin.val_last]; have : cfg0.N = 8 := N_0; omega)

end Cert.Kernel.Hand

end
-- ==== Proof.Word.Launch.lean ====
/-
  The run of the whole program from the body's proof data, when two input windows read one array.

  The launch hands the kernel region one buffer per DISTINCT array; the pipeline's rule wants one points-to per WINDOW.
  For the array that windows 0 and 1 both read, the whole buffer is split into its left and right half shares, one per
  window: both windows only read it, so either half is enough, and the array's contents never change. After the region
  the three remaining host operations (a reshape of the 1x1 result, a constant, a division) touch only the output
  window's array, which is held whole, and their own three results; every other buffer is framed off.
-/
import proofs.«175114_j50955491999905_1_alg».proof.Proof.Word.Entry

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (dats : (p : Fin 1) → (c : Dev nD) → Dat τ (Elt F) Unit ℕ (UR sig nD τ) ℕ (cfgs p) c)

/-- The six distinct buffers behind the seven windows, one by one. -/
theorem arrBufs_eq (c : Dev nD) (W : (b : Ref sig .tc) → Buf (Elt F) ((c.tc : Thread nD τ).loc b)) :
    (Pipeline.arrBufs spec0 c W : sProp 𝕄)
      = iprop((((c.tc : Thread nD τ).loc main_arg0) ↦{fullShare} W main_arg0) ∗ (((c.tc : Thread nD τ).loc main_v3) ↦{fullShare} W main_v3)
          ∗ (((c.tc : Thread nD τ).loc main_v4) ↦{fullShare} W main_v4) ∗ (((c.tc : Thread nD τ).loc main_v5) ↦{fullShare} W main_v5)
          ∗ (((c.tc : Thread nD τ).loc main_v6) ↦{fullShare} W main_v6) ∗ (((c.tc : Thread nD τ).loc main_v7) ↦{fullShare} W main_v7)) := by
  unfold Pipeline.arrBufs
  exact bigSep_eq_bigSepL_of_eq [main_arg0, main_v3, main_v4, main_v5, main_v6, main_v7] (by decide) (by decide) _

/-- Every window's array is a whole buffer: the windows' arrays are their buffers, each at its share. -/
theorem arrays_whole (c : Dev nD) (G : (w : Fin cfg0.W) → Buf (Elt F) ((cfg0.win w).arr.view.loc (c.tc : Thread nD τ))) :
    ((dats 0 c).arrays G : sProp 𝕄)
      = bigSep Finset.univ fun w : Fin cfg0.W => (((c.tc : Thread nD τ).loc (Pipeline.arrRef spec0 w)) ↦{(dats 0 c).share w} G w : sProp 𝕄) := by
  unfold Dat.arrays
  exact bigSep_congr fun w _ => by rw [(arr_whole0 w).set_eq_univ]

/-- The windows' arrays at the shares the proof data name, one by one: the first argument's two halves for the two
    windows that read it, every other array whole. -/
theorem arrays_eq_chain (c : Dev nD)
    (hq0 : (dats 0 c).q 0 = fullShare.left) (hq1 : (dats 0 c).q 1 = fullShare.right)
    (hq2 : (dats 0 c).q 2 = fullShare) (hq3 : (dats 0 c).q 3 = fullShare) (hq4 : (dats 0 c).q 4 = fullShare) (hq5 : (dats 0 c).q 5 = fullShare)
    (G : (w : Fin cfg0.W) → Buf (Elt F) ((cfg0.win w).arr.view.loc (c.tc : Thread nD τ))) :
    ((dats 0 c).arrays G : sProp 𝕄)
      = iprop((((c.tc : Thread nD τ).loc main_arg0) ↦{fullShare.left} G 0) ∗ (((c.tc : Thread nD τ).loc main_arg0) ↦{fullShare.right} G 1)
          ∗ (((c.tc : Thread nD τ).loc main_v3) ↦{fullShare} G 2) ∗ (((c.tc : Thread nD τ).loc main_v4) ↦{fullShare} G 3)
          ∗ (((c.tc : Thread nD τ).loc main_v5) ↦{fullShare} G 4) ∗ (((c.tc : Thread nD τ).loc main_v6) ↦{fullShare} G 5)
          ∗ (((c.tc : Thread nD τ).loc main_v7) ↦{fullShare} G 6)) := by
  have s0 : (dats 0 c).share 0 = fullShare.left := by unfold Dat.share; rw [hq0]; rfl
  have s1 : (dats 0 c).share 1 = fullShare.right := by unfold Dat.share; rw [hq1]; rfl
  have s2 : (dats 0 c).share 2 = fullShare := by unfold Dat.share; rw [hq2]; rfl
  have s3 : (dats 0 c).share 3 = fullShare := by unfold Dat.share; rw [hq3]; rfl
  have s4 : (dats 0 c).share 4 = fullShare := by unfold Dat.share; rw [hq4]; rfl
  have s5 : (dats 0 c).share 5 = fullShare := by unfold Dat.share; rw [hq5]; rfl
  have s6 : (dats 0 c).share 6 = fullShare := by unfold Dat.share; rfl
  rw [arrays_whole, bigSep_W0, s0, s1, s2, s3, s4, s5, s6]

/-- ENTRY. The six buffers, each whole, make the windows' arrays: the first argument is split into its two halves. -/
theorem arrays_of_buffers (c : Dev nD)
    (hq0 : (dats 0 c).q 0 = fullShare.left) (hq1 : (dats 0 c).q 1 = fullShare.right)
    (hq2 : (dats 0 c).q 2 = fullShare) (hq3 : (dats 0 c).q 3 = fullShare) (hq4 : (dats 0 c).q 4 = fullShare) (hq5 : (dats 0 c).q 5 = fullShare)
    (G : (w : Fin cfg0.W) → Buf (Elt F) ((cfg0.win w).arr.view.loc (c.tc : Thread nD τ)))
    (hG : ∀ w, G w = V m c (Pipeline.arrRef spec0 w)) :
    (Pipeline.arrBufs spec0 c (V m c) : sProp 𝕄) ⊢ (dats 0 c).arrays G := by
  rw [arrBufs_eq, arrays_eq_chain dats c hq0 hq1 hq2 hq3 hq4 hq5, hG 0, hG 1, hG 2, hG 3, hG 4, hG 5, hG 6]
  iintro ⟨H0, H3, H4, H5, H6, H7⟩
  ihave H0' := (pointsTo_share (PosShare.mem_left_op_right fullShare)).1 $$ H0
  icases H0' with ⟨Hl, Hr⟩
  isplitl [Hl]; · iexact Hl
  isplitl [Hr]; · iexact Hr
  isplitl [H3]; · iexact H3
  isplitl [H4]; · iexact H4
  isplitl [H5]; · iexact H5
  isplitl [H6]; · iexact H6
  iexact H7

/-- The buffers the three host operations after the region touch: the output window's array and their three results. -/
def tailSet : Finset (DevRef τ sig) :=
  ({main_v7, main_v8, main_cst_1, main_v9} : Finset (Ref sig .tc)).map ⟨Proc.devRef (sig := sig) (.tc : Proc τ), Proc.devRef_injective _⟩

/-- What those operations start from: the output window's array as the region left it, every other buffer as the region found it. -/
def exitVal (c : Dev nD) : Valuation τ sig (Elt F) :=
  Function.update (V0 m c) (Proc.devRef .tc main_v7) ((dats 0 c).arrAt 6 cfg0.N)

/-- What they leave. -/
def endVal (c : Dev nD) : Valuation τ sig (Elt F) := StableHlo.after hostOps1 (exitVal m dats c)

theorem exitVal_out (c : Dev nD) : exitVal m dats c (Proc.devRef .tc main_v7) = (dats 0 c).arrAt 6 cfg0.N := by
  unfold exitVal; exact Function.update_self ..

theorem exitVal_of_ne (c : Dev nD) (b : Ref sig .tc) (hb : b ≠ main_v7) : exitVal m dats c (Proc.devRef .tc b) = V m c b := by
  unfold exitVal; exact Function.update_of_ne (StableHlo.devRef_ne_of_ne hb) ..

theorem tail_sub : ∀ ops ∈ ([hostOps1] : List (List (HloOp τ sig (Elt F)))), ∀ op ∈ ops, op.bufs ⊆ tailSet := by
  intro ops hops op hop
  simp only [List.mem_cons, List.mem_nil_iff, _root_.or_false] at hops
  subst hops
  simp only [hostOps1, List.mem_cons, List.mem_nil_iff, _root_.or_false] at hop
  rcases hop with rfl | rfl | rfl
  · rw [StableHlo.reshape_bufs]; unfold tailSet; decide
  · rw [StableHlo.nullary_bufs]; unfold tailSet; decide
  · rw [StableHlo.binary_bufs]; unfold tailSet; decide

theorem tail_fresh : ∀ ops ∈ ([hostOps1] : List (List (HloOp τ sig (Elt F)))), ∀ op ∈ ops, op.fresh = ∅ := by
  intro ops hops op hop
  simp only [List.mem_cons, List.mem_nil_iff, _root_.or_false] at hops
  subst hops
  exact (List.forall_iff_forall_mem.mp hostOps1_fresh) op hop

/-- The three later host operations write their own results only. -/
theorem tail_writes : (hostOps1 : List (HloOp τ sig (Elt F))).Forall fun op =>
    op.writes ⊆ (([main_v8, main_cst_1, main_v9] : List (Ref sig .tc)).map (Proc.devRef (τ := τ) .tc)).toFinset := by
  simp only [hostOps1, List.Forall, StableHlo.reshape_writes, StableHlo.nullary_writes, StableHlo.binary_writes]
  refine ⟨?_, ?_, ?_⟩ <;> intro b hb <;> rw [Finset.mem_singleton] at hb <;> subst hb <;> simp

/-- A buffer that is neither the output window's array nor one of the three results ends as the region found it. -/
theorem endVal_keep (c : Dev nD) (b : Ref sig .tc) (hb : b ∉ ([main_v8, main_cst_1, main_v9] : List (Ref sig .tc))) (hb7 : b ≠ main_v7) :
    endVal m dats c (Proc.devRef .tc b) = V m c b := by
  unfold endVal
  rw [StableHlo.after_of_writes_sub hostOps1 _ tail_writes hb, exitVal_of_ne m dats c b hb7]

/-- The output window's array ends as the region left it. -/
theorem endVal_out (c : Dev nD) : endVal m dats c (Proc.devRef .tc main_v7) = (dats 0 c).arrAt 6 cfg0.N := by
  unfold endVal
  rw [StableHlo.after_of_writes_sub hostOps1 _ tail_writes (by decide), exitVal_out]

/-- The four buffers of the tail, held whole, one by one. -/
theorem held_tailSet (c : Dev nD) (W : Valuation τ sig (Elt F)) :
    (StableHlo.held (c.tc : Thread nD τ) tailSet W : sProp 𝕄)
      = iprop((((c.tc : Thread nD τ).loc main_v7) ↦{fullShare} W (Proc.devRef .tc main_v7)) ∗ (((c.tc : Thread nD τ).loc main_v8) ↦{fullShare} W (Proc.devRef .tc main_v8))
          ∗ (((c.tc : Thread nD τ).loc main_cst_1) ↦{fullShare} W (Proc.devRef .tc main_cst_1)) ∗ (((c.tc : Thread nD τ).loc main_v9) ↦{fullShare} W (Proc.devRef .tc main_v9))) := by
  unfold StableHlo.held tailSet
  rw [bigSep_map]
  exact bigSep_eq_bigSepL_of_eq [main_v7, main_v8, main_cst_1, main_v9] (by decide) (by decide) _

-- the rule for a line of host operations is stated for any thread; at the core's thread it unifies only when
-- unification may unfold plain definitions in a metavariable's type
set_option backward.isDefEq.respectTransparency.types false in
/-- EXIT. From the region's exit — the windows' arrays at their final contents and shares, the bypassing buffers as the
    region found them — the three later host operations run, holding only the output window's array and their own
    results, and hand back the arrays unchanged and the bypassing buffers at what the operations leave. -/
theorem tail_run (𝒱₀ : Variants) (c : Dev nD)
    (hq0 : (dats 0 c).q 0 = fullShare.left) (hq1 : (dats 0 c).q 1 = fullShare.right)
    (hq2 : (dats 0 c).q 2 = fullShare) (hq3 : (dats 0 c).q 3 = fullShare) (hq4 : (dats 0 c).q 4 = fullShare) (hq5 : (dats 0 c).q 5 = fullShare)
    (Q' : PUnit → sProp 𝕄) :
    iprop((iprop((dats 0 c).arrays ((dats 0 c).arrAt · cfg0.N)
              ∗ Pipeline.unscopedRestP Pipeline.Prefetch.none spec0 c (fun b => endVal m dats c (Proc.devRef .tc b))) -∗ Q' ⟨⟩)
        ∗ boundary (c.tc : Thread nD τ) ∗ (dats 0 c).arrays ((dats 0 c).arrAt · cfg0.N)
        ∗ Pipeline.unscopedRestP Pipeline.Prefetch.none spec0 c (V m c))
      ⊢ wp frame (wpE (defs (F := F)) (Variants.lift 𝒱₀) (c.tc : Thread nD τ) none) Set.univ (Pipeline.chain [StableHlo.seq hostOps1]) Q' := by
  rw [Pipeline.unscopedRestP_none, Pipeline.unscopedRestP_none, unscopedRest0_eq, unscopedRest0_eq,
    arrays_eq_chain dats c hq0 hq1 hq2 hq3 hq4 hq5]
  rw [endVal_keep m dats c main_arg1 (by decide) (by decide), endVal_keep m dats c main_v0 (by decide) (by decide),
    endVal_keep m dats c main_cst (by decide) (by decide), endVal_keep m dats c main_v1 (by decide) (by decide),
    endVal_keep m dats c main_cst_0 (by decide) (by decide), endVal_keep m dats c main_v2 (by decide) (by decide)]
  have hE : (StableHlo.held (c.tc : Thread nD τ) tailSet (StableHlo.after ([hostOps1] : List (List (HloOp τ sig (Elt F)))).flatten (exitVal m dats c)) : sProp 𝕄)
      = iprop((((c.tc : Thread nD τ).loc main_v7) ↦{fullShare} (dats 0 c).arrAt 6 cfg0.N) ∗ (((c.tc : Thread nD τ).loc main_v8) ↦{fullShare} endVal m dats c (Proc.devRef .tc main_v8))
          ∗ (((c.tc : Thread nD τ).loc main_cst_1) ↦{fullShare} endVal m dats c (Proc.devRef .tc main_cst_1)) ∗ (((c.tc : Thread nD τ).loc main_v9) ↦{fullShare} endVal m dats c (Proc.devRef .tc main_v9))) := by
    rw [show StableHlo.after ([hostOps1] : List (List (HloOp τ sig (Elt F)))).flatten (exitVal m dats c) = endVal m dats c from rfl,
      held_tailSet, endVal_out]
  iintro ⟨Hk, Hb, ⟨A0, A1, A2, A3, A4, A5, A6⟩, ⟨R1, R2, R3, R4, R5, R6, R8, Rc, R9⟩⟩
  rw [show ([StableHlo.seq hostOps1] : List (Prog (TpuEff nD τ sig (Elt F) (Pipeline.Sig Λ₀ (Fin 1) fun p => (pcfgs (F := F) p).Adm) .tc) PUnit))
      = ([hostOps1].map StableHlo.seq ++ []) from rfl]
  iapply (Pipeline.wp_seqs_then (pcfgs (F := F)) defs₀ 𝒱₀ c tailSet [] [hostOps1] tail_sub tail_fresh (exitVal m dats c)) $$ [Hb A6 R8 Rc R9]
  · rw [held_tailSet, exitVal_out, exitVal_of_ne m dats c main_v8 (by decide), exitVal_of_ne m dats c main_cst_1 (by decide),
      exitVal_of_ne m dats c main_v9 (by decide)]
    isplitl [Hb]; · iexact Hb
    isplitl [A6]; · iexact A6
    isplitl [R8]; · iexact R8
    isplitl [Rc]; · iexact Rc
    iexact R9
  iintro Hb
  rw [Pipeline.chain_nil, wp_pure, hE]
  imodintro
  iapply Hk
  icases Hb with ⟨-, A6, R8, Rc, R9⟩
  isplitl [A0 A1 A2 A3 A4 A5 A6]
  · isplitl [A0]; · iexact A0
    isplitl [A1]; · iexact A1
    isplitl [A2]; · iexact A2
    isplitl [A3]; · iexact A3
    isplitl [A4]; · iexact A4
    isplitl [A5]; · iexact A5
    iexact A6
  isplitl [R1]; · iexact R1
  isplitl [R2]; · iexact R2
  isplitl [R3]; · iexact R3
  isplitl [R4]; · iexact R4
  isplitl [R5]; · iexact R5
  isplitl [R6]; · iexact R6
  isplitl [R8]; · iexact R8
  isplitl [Rc]; · iexact Rc
  iexact R9

-- the launch theorem's implicit arguments are found by unifying its conclusion with this one, which takes unfolding
-- plain definitions in a metavariable's type
set_option backward.isDefEq.respectTransparency.types false in
/-- THE RUN. From any memory with zero counters every weakly fair execution of the program terminates without a fault;
    at the end every window's array holds what the pipeline's rule computes from the proof data, the second argument is
    as launched, and the result buffer holds what the three later host operations make of the output window's array. -/
theorem run_main
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (hq4 : ∀ c, (dats 0 c).q 4 = fullShare) (hq5 : ∀ c, (dats 0 c).q 5 = fullShare)
    (hbody : ∀ c, BodyObligationLoose (dats 0 c) (defs₀ (F := F)) Variants.none () Set.univ)
    (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run (defs (F := F)) (onTc (τ := τ) (main (F := F))) ⟨m, fun _ => 0, ρ⟩ (fun r => ∀ c : Dev nD,
      (∀ w, r.2.mem ((spec0 w).arr.view.loc (c.tc : Thread nD τ)) = (dats 0 c).arrAt w cfg0.N)
      ∧ r.2.mem ((c.tc : Thread nD τ).loc main_arg1) = m ((c.tc : Thread nD τ).loc main_arg1)
      ∧ r.2.mem ((c.tc : Thread nD τ).loc main_v9) = endVal m dats c (Proc.devRef .tc main_v9)) := by
  classical
  exact Pipeline.θ_run_region_pf_tail (pcfgs (F := F)) (fun q => (cfgs q).toPCfg_adm) dats () cellOf_inj (0 : Fin 1) winFacts₀0
    (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_buffers m dats c (hq0 c) (hq1 c) (hq2 c) (hq3 c) (hq4 c) (hq5 c) _ fun w => hA c w)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => endVal m dats c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_run m dats Variants.none c (hq0 c) (hq1 c) (hq2 c) (hq3 c) (hq4 c) (hq5 c) Q')
    (QY := fun c s => ∀ b ∈ Pipeline.restRefsP sig Pipeline.Prefetch.none spec0, s.mem ((c.tc : Thread nD τ).loc b) = endVal m dats c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => endVal m dats c (Proc.devRef .tc b)) s')
      isplitl [HU] <;> iassumption)
    (hQ := fun s h c => ⟨(h c).1,
      ((h c).2.2 main_arg1 (by decide)).trans ((endVal_keep m dats c main_arg1 (by decide) (by decide)).trans (V_main_arg1 m c)),
      (h c).2.2 main_v9 (by decide)⟩)

end Cert.Kernel.Hand

end
-- ==== Proof.Word.FrameRun.lean ====
/-
  The frame of the program: it runs to the end without a fault and leaves both arguments as launched. The first
  argument is an input window's array, which the pipeline never writes; the second is no window's array and no
  host operation's result.
-/
import proofs.«175114_j50955491999905_1_alg».proof.Proof.Word.Frame
import proofs.«175114_j50955491999905_1_alg».proof.Proof.Word.Launch

noncomputable section

namespace Cert.Kernel.Hand

open Cert.Kernel Cert.Kernel.Gen
open Idealize.ShloMosaic Idealize.ShloMosaic.TcCoe
open Idealize.SL Idealize.SL.Sem
open Idealize.ShloMosaic.Pipeline (Dat BodyObligation)

variable {F : FTy → Type} [FloatOps F]

variable (m : (ℓ : Loc nD τ sig) → Buf (Elt F) ℓ) (ρ : Dev nD → PrngReg)

/-- The run of the program from the body's proof data. -/
theorem run_all : θ_run (defs (F := F)) (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ r.2.mem ((c.tc : Thread nD τ).loc main_arg1) = m ((c.tc : Thread nD τ).loc main_arg1)
      ∧ r.2.mem ((c.tc : Thread nD τ).loc main_v9) = endVal m (dats m) c (Proc.devRef .tc main_v9)) :=
  run_main m ρ (dats m) (q_0 m) (q_1 m) (q_2 m) (q_3 m) (q_4 m) (q_5 m) (fun c => (body_obligation m c).loose)
    (fun _ _ => rfl) (A_eq m) (hin m) (hout m)

/-- The frame: both arguments end as launched. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))), (h c).2.1⟩) (run_all m ρ)

end Cert.Kernel.Hand

end
-- ==== Proof.Entry.lean ====
/-
  What the kernel region finds and what surrounds it: the contents of every buffer of a core when the region is
  entered (the nine host operations before it applied to the launch memory), and the program as those operations,
  the region, and the three host operations after it.
-/
import proofs.«175114_j50955491999905_1_alg».proof.Proof.Gen.KernelIdeal.Launch
import proofs.«175114_j50955491999905_1_alg».proof.Proof.Gen.KernelIdeal.Skeleton
import proofs.«175114_j50955491999905_1_alg».proof.Proof.Gen.KernelIdeal.Points
import Idealize.ShloMosaic.Lib.Pipeline.FrameBody
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (m : (ℓ : Loc nD τ sig) → Buf (Elt F) ℓ)

/-- Core c's buffer contents when the region is entered: the launch memory after the host operations before it. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program reduces to the region continued by the three later host operations, entered at V. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The first argument is no host operation's result: the region finds it as launched. -/
theorem V_main_arg0 (c : Dev nD) : V m c main_arg0 = m ((c : Thread nD τ).loc main_arg0) := by
  dsimp only [V, V0]; simp only [hostOps0, List.flatten_cons, List.flatten_nil, List.append_nil]; after_results

/-- Neither is the second. -/
theorem V_main_arg1 (c : Dev nD) : V m c main_arg1 = m ((c : Thread nD τ).loc main_arg1) := by
  dsimp only [V, V0]; simp only [hostOps0, List.flatten_cons, List.flatten_nil, List.append_nil]; after_results

end Cert.KernelIdeal.Hand

end
-- ==== Proof.Cases.lean ====
/-
  What the three cases of the kernel body share. The grid has eight points; the body resets its 1x1 accumulator at
  point 0, adds the point's partial sum to it at every point, and copies it to the 1x1 output block at point 7. Here:
  the blocks of the six inputs, the two conditions decided over the grid, where the output window is idle, the
  staging memrefs by name, and the region invariant with the accumulator as an owned memref.
-/
import proofs.«175114_j50955491999905_1_alg».proof.Proof.Entry
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block at every point, fetched there or not: where it
    is not fetched its block index has not moved, and the body leaves the block in place. -/
theorem found_in_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds the window's block at every point, fetched there or not: where it
    is not fetched its block index has not moved, and the body leaves the block in place. -/
theorem found_in_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds the window's block at every point, fetched there or not: where it
    is not fetched its block index has not moved, and the body leaves the block in place. -/
theorem found_in_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds the window's block at every point, fetched there or not: where it
    is not fetched its block index has not moved, and the body leaves the block in place. -/
theorem found_in_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds the window's block at every point, fetched there or not: where it
    is not fetched its block index has not moved, and the body leaves the block in place. -/
theorem found_in_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds the window's block at every point, fetched there or not: where it
    is not fetched its block index has not moved, and the body leaves the block in place. -/
theorem found_in_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The two conditions on the grid coordinate -/

/-- The reset's condition: the coordinate is 0. -/
abbrev atFirst (i : grid0.Coords) : Prop := (Scalar.cmpi .ne (Scalar.extui (Scalar.cmpi .eq (BitVec.ofNat 32 (i 0).val) 0#32)) 0#32) = 1#1
/-- It holds at point 0 only. -/
theorem atFirst_iff : ∀ t : Fin cfg0.N, atFirst (grid0.coords t) ↔ t.val = 0 :=
  (by decide +kernel : ∀ t : Fin grid0.N, atFirst (grid0.coords t) ↔ t.val = 0)

/-- The write-out's condition: the coordinate is 7. -/
abbrev atLast (i : grid0.Coords) : Prop := k0_cond2 i = 1#1
/-- It holds at point 7 only. -/
theorem atLast_iff : ∀ t : Fin cfg0.N, atLast (grid0.coords t) ↔ t.val = 7 :=
  (by decide +kernel : ∀ t : Fin grid0.N, atLast (grid0.coords t) ↔ t.val = 7)

/-! ## Where the output window is idle -/

/-- Away from the last point the output window is idle: the body stores nothing into it there, -/
theorem out_idle : ∀ t : Fin cfg0.N, ¬atLast (grid0.coords t) → cfg0.idle 6 (grid0.coords t) = true := by decide +kernel
/-- and the pipeline does not write its block back there. -/
theorem out_noFlush : ∀ t : Fin cfg0.N, ¬atLast (grid0.coords t) → (cfg0.win 6).flush t = false := by decide +kernel
/-- At the last point it is live. -/
theorem out_live : ∀ t : Fin cfg0.N, atLast (grid0.coords t) → cfg0.idle 6 (grid0.coords t) = false := by decide +kernel
/-- The inputs are live everywhere. -/
theorem in_live (w : Fin cfg0.W) (hw : w.val < 6) (i : grid0.Coords) : cfg0.idle w i = false := by
  obtain ⟨w, h⟩ := w
  match w, h, hw with
  | 0, _, _ => rfl | 1, _, _ => rfl | 2, _, _ => rfl | 3, _, _ => rfl | 4, _, _ => rfl | 5, _, _ => rfl

/-! ## The staging memrefs, the accumulator and the invariant -/

abbrev ms0 (t : Fin cfg0.N) : Memref sig .tc .vmem S128x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1 .f32 := win0_6.stage (cfg0.slots t 6)
abbrev hs6 (t : Fin cfg0.N) : (ms6 t).IsWhole := hstage0_6 ((cfg0.slots t 6).cast nbuf0_6)
/-- The 1x1 accumulator the kernel carries between points: a whole scoped buffer of its own. -/
abbrev accM : Memref sig .tc .vmem S1x1 .f32 := Memref.whole cc0_scratch0
/-- The accumulator as a view: what it holds is stated through it. -/
abbrev accV : View sig .tc .vmem S1x1 .f32 := accM.view
/-- The output window's staging buffer as a view: what it holds is stated through it. -/
abbrev outV : View sig .tc .vmem S1x1 .f32 := (Memref.whole cc0_stg6_0 : Memref sig .tc .vmem S1x1 .f32).view

/-- What the launch hands the region: the accumulator owned at some contents, and the generator register at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Hand

end
-- ==== Proof.RunFirst.lean ====
/-
  The kernel body run whole at the FIRST point (the reset taken, the write-out not): the accumulator is found at anything, is set to zero and then to zero plus the point's partial sum; the output buffer is handed back as found.
  The six input buffers hold their blocks before and after.
-/
import proofs.«175114_j50955491999905_1_alg».proof.Proof.Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

set_option maxHeartbeats 4000000 in
/-- The pieces the body's stores leave in the output buffer (`LO`) and in the accumulator (`LS`), last store first, with the
    proof that from the eight whole memrefs — the inputs at `x1 … x6` — the body runs to any continuation that takes the
    inputs back as they were, the accumulator with `LS` written and the output buffer untouched. -/
noncomputable def runFirst (c : Dev nD) (i : grid0.Coords) (arg1 : Memref sig .tc .vmem S128x256 .f32) (harg1 : arg1.IsWhole) (arg2 : Memref sig .tc .vmem S1024x256 .f32) (harg2 : arg2.IsWhole) (arg3 : Memref sig .tc .vmem S1024x1 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1 .f32) (harg8 : arg8.IsWhole) (hF : atFirst i) (hL : ¬atLast i)
    (x1 : Vec F S128x256 .f32) (x2 : Vec F S1024x256 .f32) (x3 : Vec F S1024x1 .i32) (x4 : Vec F S1x1024 .i32) (x5 : Vec F S1x1024 .f32) (x6 : Vec F S1x1024 .f32) :
    Σ' (LO : List (View.Piece (Elt F) S1x1 .f32)), { LS : List (View.Piece (Elt F) S1x1 .f32) //
      ∀ (xo : Vec F S1x1 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare xo ∗ (∃ d, owns (c : Thread nD τ) arg8 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc0__contrastive_kernel i arg1 harg1 arg2 harg2 arg3 harg3 arg4 harg4 arg5 harg5 arg6 harg6 arg7 harg7 arg8 harg8) K } := by
  refine ⟨[], ?_, fun xo E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_unfold [cc0__contrastive_kernel]
    sl_exec (disch := first | exact hF | exact hL)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; iexact H8

end Cert.KernelIdeal.Hand

end
-- ==== Proof.RunMid.lean ====
/-
  The kernel body run whole at a MIDDLE point (neither the reset nor the write-out taken): the accumulator is found at what the point before left and the point's partial sum is added to it; the output buffer is handed back as found.
  The six input buffers hold their blocks before and after.
-/
import proofs.«175114_j50955491999905_1_alg».proof.Proof.RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

set_option maxHeartbeats 4000000 in
/-- The pieces the body's stores leave in the output buffer (`LO`) and in the accumulator (`LS`), last store first, with the
    proof that from the eight whole memrefs — the inputs at `x1 … x6` — the body runs to any continuation that takes the
    inputs back as they were, the accumulator with `LS` written and the output buffer untouched. -/
noncomputable def runMid (c : Dev nD) (i : grid0.Coords) (arg1 : Memref sig .tc .vmem S128x256 .f32) (harg1 : arg1.IsWhole) (arg2 : Memref sig .tc .vmem S1024x256 .f32) (harg2 : arg2.IsWhole) (arg3 : Memref sig .tc .vmem S1024x1 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1 .f32) (harg8 : arg8.IsWhole) (hF : ¬atFirst i) (hL : ¬atLast i)
    (x1 : Vec F S128x256 .f32) (x2 : Vec F S1024x256 .f32) (x3 : Vec F S1024x1 .i32) (x4 : Vec F S1x1024 .i32) (x5 : Vec F S1x1024 .f32) (x6 : Vec F S1x1024 .f32) (xs : Vec F S1x1 .f32) :
    Σ' (LO : List (View.Piece (Elt F) S1x1 .f32)), { LS : List (View.Piece (Elt F) S1x1 .f32) //
      ∀ (xo : Vec F S1x1 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare xo ∗ owns (c : Thread nD τ) arg8 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc0__contrastive_kernel i arg1 harg1 arg2 harg2 arg3 harg3 arg4 harg4 arg5 harg5 arg6 harg6 arg7 harg7 arg8 harg8) K } := by
  refine ⟨[], ?_, fun xo E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_unfold [cc0__contrastive_kernel]
    sl_exec (disch := first | exact hF | exact hL)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; iexact H8

end Cert.KernelIdeal.Hand

end
-- ==== Proof.RunLast.lean ====
/-
  The kernel body run whole at the LAST point (the reset not taken, the write-out taken): the accumulator is found at what the point before left, the point's partial sum is added to it, and the sum is stored into the output buffer, found at anything.
  The six input buffers hold their blocks before and after.
-/
import proofs.«175114_j50955491999905_1_alg».proof.Proof.RunMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

set_option maxHeartbeats 4000000 in
/-- The pieces the body's stores leave in the output buffer (`LO`) and in the accumulator (`LS`), last store first, with the
    proof that from the eight whole memrefs — the inputs at `x1 … x6` — the body runs to any continuation that takes the
    inputs back as they were, the accumulator with `LS` written and the output buffer with `LO` written. -/
noncomputable def runLast (c : Dev nD) (i : grid0.Coords) (arg1 : Memref sig .tc .vmem S128x256 .f32) (harg1 : arg1.IsWhole) (arg2 : Memref sig .tc .vmem S1024x256 .f32) (harg2 : arg2.IsWhole) (arg3 : Memref sig .tc .vmem S1024x1 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1 .f32) (harg8 : arg8.IsWhole) (hF : ¬atFirst i) (hL : atLast i)
    (x1 : Vec F S128x256 .f32) (x2 : Vec F S1024x256 .f32) (x3 : Vec F S1024x1 .i32) (x4 : Vec F S1x1024 .i32) (x5 : Vec F S1x1024 .f32) (x6 : Vec F S1x1024 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc0__contrastive_kernel i arg1 harg1 arg2 harg2 arg3 harg3 arg4 harg4 arg5 harg5 arg6 harg6 arg7 harg7 arg8 harg8) K } := by
  refine ⟨?_, ?_, fun E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg8.eq_unread hf8
    sl_unfold [cc0__contrastive_kernel]
    sl_exec (disch := first | exact hF | exact hL)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    iexists _; iexact H8

end Cert.KernelIdeal.Hand

end
-- ==== Proof.Frame.lean ====
/-
  The body half of the frame proof. What each case leaves in the accumulator and in the output buffer; the
  accumulator after each point, by recursion on the point (point 0 starts it from zero, each later point adds its
  partial sum to what the point before left); the region invariant (before point 0 what the launch hands over,
  afterwards the accumulator owned at that recursion's value); the proof data; the body obligation, by cases on the
  point; and the two entailments at the region's ends.
-/
import proofs.«175114_j50955491999905_1_alg».proof.Proof.RunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## What each case leaves -/

/-- The first point's stores into the accumulator (the zero, then the sum) cover it. -/
theorem accCover_first (c : Dev nD) (i : grid0.Coords) (arg1 : Memref sig .tc .vmem S128x256 .f32) (harg1 : arg1.IsWhole) (arg2 : Memref sig .tc .vmem S1024x256 .f32) (harg2 : arg2.IsWhole) (arg3 : Memref sig .tc .vmem S1024x1 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1 .f32) (harg8 : arg8.IsWhole) (hF : atFirst i) (hL : ¬atLast i)
    (x1 : Vec F S128x256 .f32) (x2 : Vec F S1024x256 .f32) (x3 : Vec F S1024x1 .i32) (x4 : Vec F S1x1024 .i32) (x5 : Vec F S1x1024 .f32) (x6 : Vec F S1x1024 .f32) (y : S1x1.Idx) :
    ∃ pc ∈ (runFirst c i arg1 harg1 arg2 harg2 arg3 harg3 arg4 harg4 arg5 harg5 arg6 harg6 arg7 harg7 arg8 harg8 hF hL x1 x2 x3 x4 x5 x6).2.1, y ∈ pc.1.set :=
  View.cover_of_tiledL (runFirst c i arg1 harg1 arg2 harg2 arg3 harg3 arg4 harg4 arg5 harg5 arg6 harg6 arg7 harg7 arg8 harg8 hF hL x1 x2 x3 x4 x5 x6).2.1 S1x1.size (by sl_kernel_rfl) y
/-- What the first point leaves in the accumulator: its stores read back. -/
def accFirst (c : Dev nD) (i : grid0.Coords) (arg1 : Memref sig .tc .vmem S128x256 .f32) (harg1 : arg1.IsWhole) (arg2 : Memref sig .tc .vmem S1024x256 .f32) (harg2 : arg2.IsWhole) (arg3 : Memref sig .tc .vmem S1024x1 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1 .f32) (harg8 : arg8.IsWhole) (hF : atFirst i) (hL : ¬atLast i)
    (x1 : Vec F S128x256 .f32) (x2 : Vec F S1024x256 .f32) (x3 : Vec F S1024x1 .i32) (x4 : Vec F S1x1024 .i32) (x5 : Vec F S1x1024 .f32) (x6 : Vec F S1x1024 .f32) : Vec F S1x1 .f32 :=
  accV.read (Elt F) (accV.writes (Elt F) accV.junk (runFirst c i arg1 harg1 arg2 harg2 arg3 harg3 arg4 harg4 arg5 harg5 arg6 harg6 arg7 harg7 arg8 harg8 hF hL x1 x2 x3 x4 x5 x6).2.1)

/-- A middle point's one store into the accumulator covers it. -/
theorem accCover_mid (c : Dev nD) (i : grid0.Coords) (arg1 : Memref sig .tc .vmem S128x256 .f32) (harg1 : arg1.IsWhole) (arg2 : Memref sig .tc .vmem S1024x256 .f32) (harg2 : arg2.IsWhole) (arg3 : Memref sig .tc .vmem S1024x1 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1 .f32) (harg8 : arg8.IsWhole) (hF : ¬atFirst i) (hL : ¬atLast i)
    (x1 : Vec F S128x256 .f32) (x2 : Vec F S1024x256 .f32) (x3 : Vec F S1024x1 .i32) (x4 : Vec F S1x1024 .i32) (x5 : Vec F S1x1024 .f32) (x6 : Vec F S1x1024 .f32) (xs : Vec F S1x1 .f32) (y : S1x1.Idx) :
    ∃ pc ∈ (runMid c i arg1 harg1 arg2 harg2 arg3 harg3 arg4 harg4 arg5 harg5 arg6 harg6 arg7 harg7 arg8 harg8 hF hL x1 x2 x3 x4 x5 x6 xs).2.1, y ∈ pc.1.set :=
  View.cover_of_tiledL (runMid c i arg1 harg1 arg2 harg2 arg3 harg3 arg4 harg4 arg5 harg5 arg6 harg6 arg7 harg7 arg8 harg8 hF hL x1 x2 x3 x4 x5 x6 xs).2.1 S1x1.size (by sl_kernel_rfl) y
/-- What a middle point leaves in the accumulator. -/
def accMid (c : Dev nD) (i : grid0.Coords) (arg1 : Memref sig .tc .vmem S128x256 .f32) (harg1 : arg1.IsWhole) (arg2 : Memref sig .tc .vmem S1024x256 .f32) (harg2 : arg2.IsWhole) (arg3 : Memref sig .tc .vmem S1024x1 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1 .f32) (harg8 : arg8.IsWhole) (hF : ¬atFirst i) (hL : ¬atLast i)
    (x1 : Vec F S128x256 .f32) (x2 : Vec F S1024x256 .f32) (x3 : Vec F S1024x1 .i32) (x4 : Vec F S1x1024 .i32) (x5 : Vec F S1x1024 .f32) (x6 : Vec F S1x1024 .f32) (xs : Vec F S1x1 .f32) : Vec F S1x1 .f32 :=
  accV.read (Elt F) (accV.writes (Elt F) accV.junk (runMid c i arg1 harg1 arg2 harg2 arg3 harg3 arg4 harg4 arg5 harg5 arg6 harg6 arg7 harg7 arg8 harg8 hF hL x1 x2 x3 x4 x5 x6 xs).2.1)

/-- The last point's one store into the accumulator covers it, -/
theorem accCover_last (c : Dev nD) (i : grid0.Coords) (arg1 : Memref sig .tc .vmem S128x256 .f32) (harg1 : arg1.IsWhole) (arg2 : Memref sig .tc .vmem S1024x256 .f32) (harg2 : arg2.IsWhole) (arg3 : Memref sig .tc .vmem S1024x1 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1 .f32) (harg8 : arg8.IsWhole) (hF : ¬atFirst i) (hL : atLast i)
    (x1 : Vec F S128x256 .f32) (x2 : Vec F S1024x256 .f32) (x3 : Vec F S1024x1 .i32) (x4 : Vec F S1x1024 .i32) (x5 : Vec F S1x1024 .f32) (x6 : Vec F S1x1024 .f32) (xs : Vec F S1x1 .f32) (y : S1x1.Idx) :
    ∃ pc ∈ (runLast c i arg1 harg1 arg2 harg2 arg3 harg3 arg4 harg4 arg5 harg5 arg6 harg6 arg7 harg7 arg8 harg8 hF hL x1 x2 x3 x4 x5 x6 xs).2.1, y ∈ pc.1.set :=
  View.cover_of_tiledL (runLast c i arg1 harg1 arg2 harg2 arg3 harg3 arg4 harg4 arg5 harg5 arg6 harg6 arg7 harg7 arg8 harg8 hF hL x1 x2 x3 x4 x5 x6 xs).2.1 S1x1.size (by sl_kernel_rfl) y
/-- What the last point leaves in the accumulator. -/
def accLast (c : Dev nD) (i : grid0.Coords) (arg1 : Memref sig .tc .vmem S128x256 .f32) (harg1 : arg1.IsWhole) (arg2 : Memref sig .tc .vmem S1024x256 .f32) (harg2 : arg2.IsWhole) (arg3 : Memref sig .tc .vmem S1024x1 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1 .f32) (harg8 : arg8.IsWhole) (hF : ¬atFirst i) (hL : atLast i)
    (x1 : Vec F S128x256 .f32) (x2 : Vec F S1024x256 .f32) (x3 : Vec F S1024x1 .i32) (x4 : Vec F S1x1024 .i32) (x5 : Vec F S1x1024 .f32) (x6 : Vec F S1x1024 .f32) (xs : Vec F S1x1 .f32) : Vec F S1x1 .f32 :=
  accV.read (Elt F) (accV.writes (Elt F) accV.junk (runLast c i arg1 harg1 arg2 harg2 arg3 harg3 arg4 harg4 arg5 harg5 arg6 harg6 arg7 harg7 arg8 harg8 hF hL x1 x2 x3 x4 x5 x6 xs).2.1)
/-- and its one store into the output buffer covers that. -/
theorem outCover_last (c : Dev nD) (i : grid0.Coords) (arg1 : Memref sig .tc .vmem S128x256 .f32) (harg1 : arg1.IsWhole) (arg2 : Memref sig .tc .vmem S1024x256 .f32) (harg2 : arg2.IsWhole) (arg3 : Memref sig .tc .vmem S1024x1 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1 .f32) (harg8 : arg8.IsWhole) (hF : ¬atFirst i) (hL : atLast i)
    (x1 : Vec F S128x256 .f32) (x2 : Vec F S1024x256 .f32) (x3 : Vec F S1024x1 .i32) (x4 : Vec F S1x1024 .i32) (x5 : Vec F S1x1024 .f32) (x6 : Vec F S1x1024 .f32) (xs : Vec F S1x1 .f32) (y : S1x1.Idx) :
    ∃ pc ∈ (runLast c i arg1 harg1 arg2 harg2 arg3 harg3 arg4 harg4 arg5 harg5 arg6 harg6 arg7 harg7 arg8 harg8 hF hL x1 x2 x3 x4 x5 x6 xs).1, y ∈ pc.1.set :=
  View.cover_of_tiledL (runLast c i arg1 harg1 arg2 harg2 arg3 harg3 arg4 harg4 arg5 harg5 arg6 harg6 arg7 harg7 arg8 harg8 hF hL x1 x2 x3 x4 x5 x6 xs).1 S1x1.size (by sl_kernel_rfl) y
/-- What the last point leaves in the output buffer. -/
def outLast (c : Dev nD) (i : grid0.Coords) (arg1 : Memref sig .tc .vmem S128x256 .f32) (harg1 : arg1.IsWhole) (arg2 : Memref sig .tc .vmem S1024x256 .f32) (harg2 : arg2.IsWhole) (arg3 : Memref sig .tc .vmem S1024x1 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1 .f32) (harg8 : arg8.IsWhole) (hF : ¬atFirst i) (hL : atLast i)
    (x1 : Vec F S128x256 .f32) (x2 : Vec F S1024x256 .f32) (x3 : Vec F S1024x1 .i32) (x4 : Vec F S1x1024 .i32) (x5 : Vec F S1x1024 .f32) (x6 : Vec F S1x1024 .f32) (xs : Vec F S1x1 .f32) : Vec F S1x1 .f32 :=
  outV.read (Elt F) (outV.writes (Elt F) outV.junk (runLast c i arg1 harg1 arg2 harg2 arg3 harg3 arg4 harg4 arg5 harg5 arg6 harg6 arg7 harg7 arg8 harg8 hF hL x1 x2 x3 x4 x5 x6 xs).1)

/-! ## The accumulator after each point -/

theorem notFirst_of_ne {t : Fin cfg0.N} (h : t.val ≠ 0) : ¬atFirst (grid0.coords t) := fun h' => h ((atFirst_iff t).mp h')
theorem notLast_of_ne {t : Fin cfg0.N} (h : t.val ≠ 7) : ¬atLast (grid0.coords t) := fun h' => h ((atLast_iff t).mp h')

/-- THE ACCUMULATION: what the accumulator holds after the body at point `n`. Point 0 is the first case, run on that
    point's blocks; point 7 the last case and points 1 to 6 the middle case, each over what point `n - 1` left. -/
def acc (c : Dev nD) : (n : ℕ) → n < cfg0.N → Vec F S1x1 .f32
  | 0, hn => accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) accM (Memref.isWhole_whole _) ((atFirst_iff ⟨0, hn⟩).mpr rfl) (notLast_of_ne (t := ⟨0, hn⟩) (by show (0 : ℕ) ≠ 7; omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h7 : n + 1 = 7 then
      accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (notFirst_of_ne (t := ⟨n + 1, hn⟩) (Nat.succ_ne_zero n)) ((atLast_iff ⟨n + 1, hn⟩).mpr h7) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (acc c n (Nat.lt_of_succ_lt hn))
    else
      accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (notFirst_of_ne (t := ⟨n + 1, hn⟩) (Nat.succ_ne_zero n)) (notLast_of_ne (t := ⟨n + 1, hn⟩) h7) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (acc c n (Nat.lt_of_succ_lt hn))

/-- At point 0: the first case's contents. -/
theorem acc_first (c : Dev nD) (t : Fin cfg0.N) (h0 : t.val = 0) (h7 : t.val ≠ 7) :
    acc m c t.val t.isLt = accFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) ((atFirst_iff t).mpr h0) (notLast_of_ne h7) (iblk m c 0 t) (iblk m c 1 t) (iblk m c 2 t) (iblk m c 3 t) (iblk m c 4 t) (iblk m c 5 t) := by
  obtain ⟨n, hn⟩ := t
  cases n with
  | zero => exact rfl
  | succ n => exact absurd h0 (Nat.succ_ne_zero n)

/-- At points 1 to 6: the middle case's contents, over what the point before left. -/
theorem acc_mid (c : Dev nD) (t : Fin cfg0.N) (h0 : t.val ≠ 0) (h7 : t.val ≠ 7) :
    acc m c t.val t.isLt = accMid c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (notFirst_of_ne h0) (notLast_of_ne h7) (iblk m c 0 t) (iblk m c 1 t) (iblk m c 2 t) (iblk m c 3 t) (iblk m c 4 t) (iblk m c 5 t) (acc m c (t.val - 1) (Nat.lt_of_le_of_lt (Nat.sub_le _ _) t.isLt)) := by
  obtain ⟨n, hn⟩ := t
  cases n with
  | zero => exact absurd rfl h0
  | succ n => exact (dif_neg h7).trans rfl

/-- At point 7: the last case's contents, over what point 6 left. -/
theorem acc_last (c : Dev nD) (t : Fin cfg0.N) (h0 : t.val ≠ 0) (h7 : t.val = 7) :
    acc m c t.val t.isLt = accLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (notFirst_of_ne h0) ((atLast_iff t).mpr h7) (iblk m c 0 t) (iblk m c 1 t) (iblk m c 2 t) (iblk m c 3 t) (iblk m c 4 t) (iblk m c 5 t) (acc m c (t.val - 1) (Nat.lt_of_le_of_lt (Nat.sub_le _ _) t.isLt)) := by
  obtain ⟨n, hn⟩ := t
  cases n with
  | zero => exact absurd rfl h0
  | succ n => exact (dif_pos h7).trans rfl

/-- What the output buffer holds after the body at point `t`: at point 7 what the last case stores into it; at the other
    points the window is idle and not written back, and this value is a placeholder nothing consults. -/
def outAt (c : Dev nD) (t : Fin cfg0.N) : Vec F S1x1 .f32 :=
  if h7 : t.val = 7 then
    outLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (notFirst_of_ne (by omega)) ((atLast_iff t).mpr h7) (iblk m c 0 t) (iblk m c 1 t) (iblk m c 2 t) (iblk m c 3 t) (iblk m c 4 t) (iblk m c 5 t) (acc m c (t.val - 1) (Nat.lt_of_le_of_lt (Nat.sub_le _ _) t.isLt))
  else outV.read (Elt F) outV.junk

theorem outAt_last (c : Dev nD) (t : Fin cfg0.N) (h0 : t.val ≠ 0) (h7 : t.val = 7) :
    outAt m c t = outLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (notFirst_of_ne h0) ((atLast_iff t).mpr h7) (iblk m c 0 t) (iblk m c 1 t) (iblk m c 2 t) (iblk m c 3 t) (iblk m c 4 t) (iblk m c 5 t) (acc m c (t.val - 1) (Nat.lt_of_le_of_lt (Nat.sub_le _ _) t.isLt)) := by
  unfold outAt; exact dif_pos h7

/-! ## The region invariant -/

/-- Before point `n`: at `n = 0` what the launch hands the region (the accumulator at anything); afterwards the accumulator
    owned at what point `n - 1` left in it, and the generator register at some state. -/
def Inv (c : Dev nD) : (n : ℕ) → n ≤ cfg0.N → sProp 𝕄
  | 0, _ => Pipeline.ΦA spec0 c
  | n + 1, hn => iprop(iprop(owns (c : Thread nD τ) accM fullShare (acc m c n hn)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(iprop(owns (c : Thread nD τ) accM fullShare (acc m c n hn)) ∗ (∃ r, prngReg c r)) := rfl

theorem Inv_pos (c : Dev nD) (n : ℕ) (h : n ≤ cfg0.N) (hz : n ≠ 0) :
    Inv m c n h = iprop(iprop(owns (c : Thread nD τ) accM fullShare (acc m c (n - 1) (by omega))) ∗ (∃ r, prngReg c r)) := by
  cases n with
  | zero => exact absurd rfl hz
  | succ n => rfl

/-! ## The proof data -/

/-- The proof data of the pipeline on core `c`: the arrays as the region finds them; after the body at point `t` each
    input's buffer at its block and the output's at `outAt`; the invariant `Inv`; nothing owed; of the array the first
    two windows share, half a share each, and a full share of every other. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := Inv m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem q_0 (c : Dev nD) : (dats m 0 c).q 0 = fullShare.left := by dsimp only [dats]
theorem q_1 (c : Dev nD) : (dats m 0 c).q 1 = fullShare.right := by dsimp only [dats]
theorem q_2 (c : Dev nD) : (dats m 0 c).q 2 = fullShare := by dsimp only [dats]
theorem q_3 (c : Dev nD) : (dats m 0 c).q 3 = fullShare := by dsimp only [dats]
theorem q_4 (c : Dev nD) : (dats m 0 c).q 4 = fullShare := by dsimp only [dats]
theorem q_5 (c : Dev nD) : (dats m 0 c).q 5 = fullShare := by dsimp only [dats]
theorem q_6 (c : Dev nD) : (dats m 0 c).q 6 = fullShare := by dsimp only [dats]

theorem Inv_castSucc (c : Dev nD) (t : Fin cfg0.N) :
    (dats m 0 c).Φ t.castSucc = Inv m c t.val (Nat.le_of_lt t.isLt) := by
  dsimp only [dats]; simp only [Fin.coe_castSucc]

theorem live_0 (i : grid0.Coords) : cfg0.idle 0 i = false := rfl
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  found_in_0 m (dats m 0 c) (A_eq m c 0) (after_0 m c) t d
theorem leaves_0 (c : Dev nD) (t : Fin cfg0.N) : (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [live_0 (grid0.coords t)], after_0]
theorem live_1 (i : grid0.Coords) : cfg0.idle 1 i = false := rfl
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  found_in_1 m (dats m 0 c) (A_eq m c 1) (after_1 m c) t d
theorem leaves_1 (c : Dev nD) (t : Fin cfg0.N) : (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [live_1 (grid0.coords t)], after_1]
theorem live_2 (i : grid0.Coords) : cfg0.idle 2 i = false := rfl
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  found_in_2 m (dats m 0 c) (A_eq m c 2) (after_2 m c) t d
theorem leaves_2 (c : Dev nD) (t : Fin cfg0.N) : (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [live_2 (grid0.coords t)], after_2]
theorem live_3 (i : grid0.Coords) : cfg0.idle 3 i = false := rfl
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  found_in_3 m (dats m 0 c) (A_eq m c 3) (after_3 m c) t d
theorem leaves_3 (c : Dev nD) (t : Fin cfg0.N) : (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [live_3 (grid0.coords t)], after_3]
theorem live_4 (i : grid0.Coords) : cfg0.idle 4 i = false := rfl
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  found_in_4 m (dats m 0 c) (A_eq m c 4) (after_4 m c) t d
theorem leaves_4 (c : Dev nD) (t : Fin cfg0.N) : (dats m 0 c).leavesExact 4 t = owns (c : Thread nD τ) (ms4 t) fullShare (iblk m c 4 t) := by
  rw [show (dats m 0 c).leavesExact 4 t = owns (c : Thread nD τ) (ms4 t) fullShare ((dats m 0 c).after 4 t) from by
    unfold Dat.leavesExact; rw [live_4 (grid0.coords t)], after_4]
theorem live_5 (i : grid0.Coords) : cfg0.idle 5 i = false := rfl
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  found_in_5 m (dats m 0 c) (A_eq m c 5) (after_5 m c) t d
theorem leaves_5 (c : Dev nD) (t : Fin cfg0.N) : (dats m 0 c).leavesExact 5 t = owns (c : Thread nD τ) (ms5 t) fullShare (iblk m c 5 t) := by
  rw [show (dats m 0 c).leavesExact 5 t = owns (c : Thread nD τ) (ms5 t) fullShare ((dats m 0 c).after 5 t) from by
    unfold Dat.leavesExact; rw [live_5 (grid0.coords t)], after_5]
theorem after_6 (c : Dev nD) (t : Fin cfg0.N) : (dats m 0 c).after 6 t = outAt m c t := by dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point. The inputs' buffers hold their blocks; the point is 0, 7 or between, and that case's run applies.
    The invariant hands the body the accumulator (at anything at point 0, else at what the point before left) and takes it
    back at this point's value, the stores covering it; away from point 7 the output buffer goes back as it came, at
    point 7 it goes back at what the body stored; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = Inv m c (t.val + 1) t.isLt from rfl, Inv_succ]
  rw [leaves_0, leaves_1, leaves_2, leaves_3, leaves_4, leaves_5]
  have hN : t.val < 8 := lt_of_lt_of_eq t.isLt (show cfg0.N = 8 from N_0)
  by_cases h0 : t.val = 0
  · have h7 : t.val ≠ 7 := by omega
    rw [Dat.leavesExact_idle (dats m 0 c) 6 t (out_idle t (notLast_of_ne h7)) (out_noFlush t (notLast_of_ne h7))]
    rw [acc_first m c t h0 h7]
    unfold accFirst
    rw [Inv_castSucc m c t, Inv_zero m c _ _ h0, PhiA_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply ((runFirst c (grid0.coords t) _ _ _ _ _ _ _ _ _ _ _ _ _ _ _ _ ((atFirst_iff t).mpr h0) (notLast_of_ne h7) (iblk m c 0 t) (iblk m c 1 t) (iblk m c 2 t) (iblk m c 3 t) (iblk m c 4 t) (iblk m c 5 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, ⟨%es, HS⟩⟩
    isplitl [HS Hg]
    · isplitl [HS]
      · unfold owns; iexists _; isplitr
        swap; · iexact HS
        ipureintro; exact View.read_writes_of_cover _ _ _ _ _ (accCover_first c _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h7 : t.val = 7
    · rw [show (dats m 0 c).leavesExact 6 t = owns (c : Thread nD τ) (ms6 t) fullShare ((dats m 0 c).after 6 t) from by
        unfold Dat.leavesExact; rw [out_live t ((atLast_iff t).mpr h7)], after_6]
      rw [outAt_last m c t h0 h7, acc_last m c t h0 h7]
      unfold outLast accLast
      rw [Inv_castSucc m c t, Inv_pos m c _ _ h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid0.coords t) _ _ _ _ _ _ _ _ _ _ _ _ _ _ _ _ (notFirst_of_ne h0) ((atLast_iff t).mpr h7) (iblk m c 0 t) (iblk m c 1 t) (iblk m c 2 t) (iblk m c 3 t) (iblk m c 4 t) (iblk m c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS Hg]
      · isplitl [HS]
        · unfold owns; iexists _; isplitr
          swap; · iexact HS
          ipureintro; exact View.read_writes_of_cover _ _ _ _ _ (accCover_last c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (outCover_last c _ _ _ _ _ _ _ _ _ _ _ _ _ _ _ _ _ _ _ _ _ _ _ _ _ _)
    · rw [Dat.leavesExact_idle (dats m 0 c) 6 t (out_idle t (notLast_of_ne h7)) (out_noFlush t (notLast_of_ne h7))]
      rw [acc_mid m c t h0 h7]
      unfold accMid
      rw [Inv_castSucc m c t, Inv_pos m c _ _ h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runMid c (grid0.coords t) _ _ _ _ _ _ _ _ _ _ _ _ _ _ _ _ (notFirst_of_ne h0) (notLast_of_ne h7) (iblk m c 0 t) (iblk m c 1 t) (iblk m c 2 t) (iblk m c 3 t) (iblk m c 4 t) (iblk m c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS Hg]
      · isplitl [HS]
        · unfold owns; iexists _; isplitr
          swap; · iexact HS
          ipureintro; exact View.read_writes_of_cover _ _ _ _ _ (accCover_mid c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The region's two ends -/

/-- What the launch hands the region is the invariant before point 0. -/
theorem hin (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

/-- After any point the invariant gives that back: the accumulator's value is forgotten. -/
theorem Inv_out (c : Dev nD) (t : Fin (cfg0.N + 1)) (ht : t.val ≠ 0) : (dats m 0 c).Φ t ⊢ Pipeline.ΦA spec0 c := by
  rw [show (dats m 0 c).Φ t = Inv m c t.val (Nat.le_of_lt_succ t.isLt) from rfl, Inv_pos m c _ _ ht, PhiA_eq]
  iintro ⟨HS, Hg⟩
  isplitl [HS]
  · iexists _; iexact HS
  iexact Hg

/-- So after the last. -/
theorem hout (c : Dev nD) : (dats m 0 c).Φ (Fin.last cfg0.N) ⊢ Pipeline.ΦA spec0 c :=
  Inv_out m c _ (by rw [Fin.val_last]; have : cfg0.N = 8 := N_0; omega)

end Cert.KernelIdeal.Hand

end
-- ==== Proof.Launch.lean ====
/-
  The run of the whole program from the body's proof data, when two input windows read one array.

  The launch hands the kernel region one buffer per DISTINCT array; the pipeline's rule wants one points-to per WINDOW.
  For the array that windows 0 and 1 both read, the whole buffer is split into its left and right half shares, one per
  window: both windows only read it, so either half is enough, and the array's contents never change. After the region
  the three remaining host operations (a reshape of the 1x1 result, a constant, a division) touch only the output
  window's array, which is held whole, and their own three results; every other buffer is framed off.
-/
import proofs.«175114_j50955491999905_1_alg».proof.Proof.Entry

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
variable (dats : (p : Fin 1) → (c : Dev nD) → Dat τ (Elt F) Unit ℕ (UR sig nD τ) ℕ (cfgs p) c)

/-- The six distinct buffers behind the seven windows, one by one. -/
theorem arrBufs_eq (c : Dev nD) (W : (b : Ref sig .tc) → Buf (Elt F) ((c.tc : Thread nD τ).loc b)) :
    (Pipeline.arrBufs spec0 c W : sProp 𝕄)
      = iprop((((c.tc : Thread nD τ).loc main_arg0) ↦{fullShare} W main_arg0) ∗ (((c.tc : Thread nD τ).loc main_v3) ↦{fullShare} W main_v3)
          ∗ (((c.tc : Thread nD τ).loc main_v4) ↦{fullShare} W main_v4) ∗ (((c.tc : Thread nD τ).loc main_v5) ↦{fullShare} W main_v5)
          ∗ (((c.tc : Thread nD τ).loc main_v6) ↦{fullShare} W main_v6) ∗ (((c.tc : Thread nD τ).loc main_v7) ↦{fullShare} W main_v7)) := by
  unfold Pipeline.arrBufs
  exact bigSep_eq_bigSepL_of_eq [main_arg0, main_v3, main_v4, main_v5, main_v6, main_v7] (by decide) (by decide) _

/-- Every window's array is a whole buffer: the windows' arrays are their buffers, each at its share. -/
theorem arrays_whole (c : Dev nD) (G : (w : Fin cfg0.W) → Buf (Elt F) ((cfg0.win w).arr.view.loc (c.tc : Thread nD τ))) :
    ((dats 0 c).arrays G : sProp 𝕄)
      = bigSep Finset.univ fun w : Fin cfg0.W => (((c.tc : Thread nD τ).loc (Pipeline.arrRef spec0 w)) ↦{(dats 0 c).share w} G w : sProp 𝕄) := by
  unfold Dat.arrays
  exact bigSep_congr fun w _ => by rw [(arr_whole0 w).set_eq_univ]

/-- The windows' arrays at the shares the proof data name, one by one: the first argument's two halves for the two
    windows that read it, every other array whole. -/
theorem arrays_eq_chain (c : Dev nD)
    (hq0 : (dats 0 c).q 0 = fullShare.left) (hq1 : (dats 0 c).q 1 = fullShare.right)
    (hq2 : (dats 0 c).q 2 = fullShare) (hq3 : (dats 0 c).q 3 = fullShare) (hq4 : (dats 0 c).q 4 = fullShare) (hq5 : (dats 0 c).q 5 = fullShare)
    (G : (w : Fin cfg0.W) → Buf (Elt F) ((cfg0.win w).arr.view.loc (c.tc : Thread nD τ))) :
    ((dats 0 c).arrays G : sProp 𝕄)
      = iprop((((c.tc : Thread nD τ).loc main_arg0) ↦{fullShare.left} G 0) ∗ (((c.tc : Thread nD τ).loc main_arg0) ↦{fullShare.right} G 1)
          ∗ (((c.tc : Thread nD τ).loc main_v3) ↦{fullShare} G 2) ∗ (((c.tc : Thread nD τ).loc main_v4) ↦{fullShare} G 3)
          ∗ (((c.tc : Thread nD τ).loc main_v5) ↦{fullShare} G 4) ∗ (((c.tc : Thread nD τ).loc main_v6) ↦{fullShare} G 5)
          ∗ (((c.tc : Thread nD τ).loc main_v7) ↦{fullShare} G 6)) := by
  have s0 : (dats 0 c).share 0 = fullShare.left := by unfold Dat.share; rw [hq0]; rfl
  have s1 : (dats 0 c).share 1 = fullShare.right := by unfold Dat.share; rw [hq1]; rfl
  have s2 : (dats 0 c).share 2 = fullShare := by unfold Dat.share; rw [hq2]; rfl
  have s3 : (dats 0 c).share 3 = fullShare := by unfold Dat.share; rw [hq3]; rfl
  have s4 : (dats 0 c).share 4 = fullShare := by unfold Dat.share; rw [hq4]; rfl
  have s5 : (dats 0 c).share 5 = fullShare := by unfold Dat.share; rw [hq5]; rfl
  have s6 : (dats 0 c).share 6 = fullShare := by unfold Dat.share; rfl
  rw [arrays_whole, bigSep_W0, s0, s1, s2, s3, s4, s5, s6]

/-- ENTRY. The six buffers, each whole, make the windows' arrays: the first argument is split into its two halves. -/
theorem arrays_of_buffers (c : Dev nD)
    (hq0 : (dats 0 c).q 0 = fullShare.left) (hq1 : (dats 0 c).q 1 = fullShare.right)
    (hq2 : (dats 0 c).q 2 = fullShare) (hq3 : (dats 0 c).q 3 = fullShare) (hq4 : (dats 0 c).q 4 = fullShare) (hq5 : (dats 0 c).q 5 = fullShare)
    (G : (w : Fin cfg0.W) → Buf (Elt F) ((cfg0.win w).arr.view.loc (c.tc : Thread nD τ)))
    (hG : ∀ w, G w = V m c (Pipeline.arrRef spec0 w)) :
    (Pipeline.arrBufs spec0 c (V m c) : sProp 𝕄) ⊢ (dats 0 c).arrays G := by
  rw [arrBufs_eq, arrays_eq_chain dats c hq0 hq1 hq2 hq3 hq4 hq5, hG 0, hG 1, hG 2, hG 3, hG 4, hG 5, hG 6]
  iintro ⟨H0, H3, H4, H5, H6, H7⟩
  ihave H0' := (pointsTo_share (PosShare.mem_left_op_right fullShare)).1 $$ H0
  icases H0' with ⟨Hl, Hr⟩
  isplitl [Hl]; · iexact Hl
  isplitl [Hr]; · iexact Hr
  isplitl [H3]; · iexact H3
  isplitl [H4]; · iexact H4
  isplitl [H5]; · iexact H5
  isplitl [H6]; · iexact H6
  iexact H7

/-- The buffers the three host operations after the region touch: the output window's array and their three results. -/
def tailSet : Finset (DevRef τ sig) :=
  ({main_v7, main_v8, main_cst_1, main_v9} : Finset (Ref sig .tc)).map ⟨Proc.devRef (sig := sig) (.tc : Proc τ), Proc.devRef_injective _⟩

/-- What those operations start from: the output window's array as the region left it, every other buffer as the region found it. -/
def exitVal (c : Dev nD) : Valuation τ sig (Elt F) :=
  Function.update (V0 m c) (Proc.devRef .tc main_v7) ((dats 0 c).arrAt 6 cfg0.N)

/-- What they leave. -/
def endVal (c : Dev nD) : Valuation τ sig (Elt F) := StableHlo.after hostOps1 (exitVal m dats c)

theorem exitVal_out (c : Dev nD) : exitVal m dats c (Proc.devRef .tc main_v7) = (dats 0 c).arrAt 6 cfg0.N := by
  unfold exitVal; exact Function.update_self ..

theorem exitVal_of_ne (c : Dev nD) (b : Ref sig .tc) (hb : b ≠ main_v7) : exitVal m dats c (Proc.devRef .tc b) = V m c b := by
  unfold exitVal; exact Function.update_of_ne (StableHlo.devRef_ne_of_ne hb) ..

theorem tail_sub : ∀ ops ∈ ([hostOps1] : List (List (HloOp τ sig (Elt F)))), ∀ op ∈ ops, op.bufs ⊆ tailSet := by
  intro ops hops op hop
  simp only [List.mem_cons, List.mem_nil_iff, _root_.or_false] at hops
  subst hops
  simp only [hostOps1, List.mem_cons, List.mem_nil_iff, _root_.or_false] at hop
  rcases hop with rfl | rfl | rfl
  · rw [StableHlo.reshape_bufs]; unfold tailSet; decide
  · rw [StableHlo.nullary_bufs]; unfold tailSet; decide
  · rw [StableHlo.binary_bufs]; unfold tailSet; decide

theorem tail_fresh : ∀ ops ∈ ([hostOps1] : List (List (HloOp τ sig (Elt F)))), ∀ op ∈ ops, op.fresh = ∅ := by
  intro ops hops op hop
  simp only [List.mem_cons, List.mem_nil_iff, _root_.or_false] at hops
  subst hops
  exact (List.forall_iff_forall_mem.mp hostOps1_fresh) op hop

/-- The three later host operations write their own results only. -/
theorem tail_writes : (hostOps1 : List (HloOp τ sig (Elt F))).Forall fun op =>
    op.writes ⊆ (([main_v8, main_cst_1, main_v9] : List (Ref sig .tc)).map (Proc.devRef (τ := τ) .tc)).toFinset := by
  simp only [hostOps1, List.Forall, StableHlo.reshape_writes, StableHlo.nullary_writes, StableHlo.binary_writes]
  refine ⟨?_, ?_, ?_⟩ <;> intro b hb <;> rw [Finset.mem_singleton] at hb <;> subst hb <;> simp

/-- A buffer that is neither the output window's array nor one of the three results ends as the region found it. -/
theorem endVal_keep (c : Dev nD) (b : Ref sig .tc) (hb : b ∉ ([main_v8, main_cst_1, main_v9] : List (Ref sig .tc))) (hb7 : b ≠ main_v7) :
    endVal m dats c (Proc.devRef .tc b) = V m c b := by
  unfold endVal
  rw [StableHlo.after_of_writes_sub hostOps1 _ tail_writes hb, exitVal_of_ne m dats c b hb7]

/-- The output window's array ends as the region left it. -/
theorem endVal_out (c : Dev nD) : endVal m dats c (Proc.devRef .tc main_v7) = (dats 0 c).arrAt 6 cfg0.N := by
  unfold endVal
  rw [StableHlo.after_of_writes_sub hostOps1 _ tail_writes (by decide), exitVal_out]

/-- The four buffers of the tail, held whole, one by one. -/
theorem held_tailSet (c : Dev nD) (W : Valuation τ sig (Elt F)) :
    (StableHlo.held (c.tc : Thread nD τ) tailSet W : sProp 𝕄)
      = iprop((((c.tc : Thread nD τ).loc main_v7) ↦{fullShare} W (Proc.devRef .tc main_v7)) ∗ (((c.tc : Thread nD τ).loc main_v8) ↦{fullShare} W (Proc.devRef .tc main_v8))
          ∗ (((c.tc : Thread nD τ).loc main_cst_1) ↦{fullShare} W (Proc.devRef .tc main_cst_1)) ∗ (((c.tc : Thread nD τ).loc main_v9) ↦{fullShare} W (Proc.devRef .tc main_v9))) := by
  unfold StableHlo.held tailSet
  rw [bigSep_map]
  exact bigSep_eq_bigSepL_of_eq [main_v7, main_v8, main_cst_1, main_v9] (by decide) (by decide) _

-- the rule for a line of host operations is stated for any thread; at the core's thread it unifies only when
-- unification may unfold plain definitions in a metavariable's type
set_option backward.isDefEq.respectTransparency.types false in
/-- EXIT. From the region's exit — the windows' arrays at their final contents and shares, the bypassing buffers as the
    region found them — the three later host operations run, holding only the output window's array and their own
    results, and hand back the arrays unchanged and the bypassing buffers at what the operations leave. -/
theorem tail_run (𝒱₀ : Variants) (c : Dev nD)
    (hq0 : (dats 0 c).q 0 = fullShare.left) (hq1 : (dats 0 c).q 1 = fullShare.right)
    (hq2 : (dats 0 c).q 2 = fullShare) (hq3 : (dats 0 c).q 3 = fullShare) (hq4 : (dats 0 c).q 4 = fullShare) (hq5 : (dats 0 c).q 5 = fullShare)
    (Q' : PUnit → sProp 𝕄) :
    iprop((iprop((dats 0 c).arrays ((dats 0 c).arrAt · cfg0.N)
              ∗ Pipeline.unscopedRestP Pipeline.Prefetch.none spec0 c (fun b => endVal m dats c (Proc.devRef .tc b))) -∗ Q' ⟨⟩)
        ∗ boundary (c.tc : Thread nD τ) ∗ (dats 0 c).arrays ((dats 0 c).arrAt · cfg0.N)
        ∗ Pipeline.unscopedRestP Pipeline.Prefetch.none spec0 c (V m c))
      ⊢ wp frame (wpE (defs (F := F)) (Variants.lift 𝒱₀) (c.tc : Thread nD τ) none) Set.univ (Pipeline.chain [StableHlo.seq hostOps1]) Q' := by
  rw [Pipeline.unscopedRestP_none, Pipeline.unscopedRestP_none, unscopedRest0_eq, unscopedRest0_eq,
    arrays_eq_chain dats c hq0 hq1 hq2 hq3 hq4 hq5]
  rw [endVal_keep m dats c main_arg1 (by decide) (by decide), endVal_keep m dats c main_v0 (by decide) (by decide),
    endVal_keep m dats c main_cst (by decide) (by decide), endVal_keep m dats c main_v1 (by decide) (by decide),
    endVal_keep m dats c main_cst_0 (by decide) (by decide), endVal_keep m dats c main_v2 (by decide) (by decide)]
  have hE : (StableHlo.held (c.tc : Thread nD τ) tailSet (StableHlo.after ([hostOps1] : List (List (HloOp τ sig (Elt F)))).flatten (exitVal m dats c)) : sProp 𝕄)
      = iprop((((c.tc : Thread nD τ).loc main_v7) ↦{fullShare} (dats 0 c).arrAt 6 cfg0.N) ∗ (((c.tc : Thread nD τ).loc main_v8) ↦{fullShare} endVal m dats c (Proc.devRef .tc main_v8))
          ∗ (((c.tc : Thread nD τ).loc main_cst_1) ↦{fullShare} endVal m dats c (Proc.devRef .tc main_cst_1)) ∗ (((c.tc : Thread nD τ).loc main_v9) ↦{fullShare} endVal m dats c (Proc.devRef .tc main_v9))) := by
    rw [show StableHlo.after ([hostOps1] : List (List (HloOp τ sig (Elt F)))).flatten (exitVal m dats c) = endVal m dats c from rfl,
      held_tailSet, endVal_out]
  iintro ⟨Hk, Hb, ⟨A0, A1, A2, A3, A4, A5, A6⟩, ⟨R1, R2, R3, R4, R5, R6, R8, Rc, R9⟩⟩
  rw [show ([StableHlo.seq hostOps1] : List (Prog (TpuEff nD τ sig (Elt F) (Pipeline.Sig Λ₀ (Fin 1) fun p => (pcfgs (F := F) p).Adm) .tc) PUnit))
      = ([hostOps1].map StableHlo.seq ++ []) from rfl]
  iapply (Pipeline.wp_seqs_then (pcfgs (F := F)) defs₀ 𝒱₀ c tailSet [] [hostOps1] tail_sub tail_fresh (exitVal m dats c)) $$ [Hb A6 R8 Rc R9]
  · rw [held_tailSet, exitVal_out, exitVal_of_ne m dats c main_v8 (by decide), exitVal_of_ne m dats c main_cst_1 (by decide),
      exitVal_of_ne m dats c main_v9 (by decide)]
    isplitl [Hb]; · iexact Hb
    isplitl [A6]; · iexact A6
    isplitl [R8]; · iexact R8
    isplitl [Rc]; · iexact Rc
    iexact R9
  iintro Hb
  rw [Pipeline.chain_nil, wp_pure, hE]
  imodintro
  iapply Hk
  icases Hb with ⟨-, A6, R8, Rc, R9⟩
  isplitl [A0 A1 A2 A3 A4 A5 A6]
  · isplitl [A0]; · iexact A0
    isplitl [A1]; · iexact A1
    isplitl [A2]; · iexact A2
    isplitl [A3]; · iexact A3
    isplitl [A4]; · iexact A4
    isplitl [A5]; · iexact A5
    iexact A6
  isplitl [R1]; · iexact R1
  isplitl [R2]; · iexact R2
  isplitl [R3]; · iexact R3
  isplitl [R4]; · iexact R4
  isplitl [R5]; · iexact R5
  isplitl [R6]; · iexact R6
  isplitl [R8]; · iexact R8
  isplitl [Rc]; · iexact Rc
  iexact R9

-- the launch theorem's implicit arguments are found by unifying its conclusion with this one, which takes unfolding
-- plain definitions in a metavariable's type
set_option backward.isDefEq.respectTransparency.types false in
/-- THE RUN. From any memory with zero counters every weakly fair execution of the program terminates without a fault;
    at the end every window's array holds what the pipeline's rule computes from the proof data, the second argument is
    as launched, and the result buffer holds what the three later host operations make of the output window's array. -/
theorem run_main
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (hq4 : ∀ c, (dats 0 c).q 4 = fullShare) (hq5 : ∀ c, (dats 0 c).q 5 = fullShare)
    (hbody : ∀ c, BodyObligationLoose (dats 0 c) (defs₀ (F := F)) Variants.none () Set.univ)
    (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run (defs (F := F)) (onTc (τ := τ) (main (F := F))) ⟨m, fun _ => 0, ρ⟩ (fun r => ∀ c : Dev nD,
      (∀ w, r.2.mem ((spec0 w).arr.view.loc (c.tc : Thread nD τ)) = (dats 0 c).arrAt w cfg0.N)
      ∧ r.2.mem ((c.tc : Thread nD τ).loc main_arg1) = m ((c.tc : Thread nD τ).loc main_arg1)
      ∧ r.2.mem ((c.tc : Thread nD τ).loc main_v9) = endVal m dats c (Proc.devRef .tc main_v9)) := by
  classical
  exact Pipeline.θ_run_region_pf_tail (pcfgs (F := F)) (fun q => (cfgs q).toPCfg_adm) dats () cellOf_inj (0 : Fin 1) winFacts₀0
    (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_buffers m dats c (hq0 c) (hq1 c) (hq2 c) (hq3 c) (hq4 c) (hq5 c) _ fun w => hA c w)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => endVal m dats c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_run m dats Variants.none c (hq0 c) (hq1 c) (hq2 c) (hq3 c) (hq4 c) (hq5 c) Q')
    (QY := fun c s => ∀ b ∈ Pipeline.restRefsP sig Pipeline.Prefetch.none spec0, s.mem ((c.tc : Thread nD τ).loc b) = endVal m dats c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => endVal m dats c (Proc.devRef .tc b)) s')
      isplitl [HU] <;> iassumption)
    (hQ := fun s h c => ⟨(h c).1,
      ((h c).2.2 main_arg1 (by decide)).trans ((endVal_keep m dats c main_arg1 (by decide) (by decide)).trans (V_main_arg1 m c)),
      (h c).2.2 main_v9 (by decide)⟩)

end Cert.KernelIdeal.Hand

end
-- ==== Proof.FrameRun.lean ====
/-
  The frame of the program: it runs to the end without a fault and leaves both arguments as launched. The first
  argument is an input window's array, which the pipeline never writes; the second is no window's array and no
  host operation's result.
-/
import proofs.«175114_j50955491999905_1_alg».proof.Proof.Frame
import proofs.«175114_j50955491999905_1_alg».proof.Proof.Launch

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat BodyObligation)

variable {F : FTy → Type} [FloatOps F] [Named F]

variable (m : (ℓ : Loc nD τ sig) → Buf (Elt F) ℓ) (ρ : Dev nD → PrngReg)

/-- The run of the program from the body's proof data. -/
theorem run_all : θ_run (defs (F := F)) (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ r.2.mem ((c.tc : Thread nD τ).loc main_arg1) = m ((c.tc : Thread nD τ).loc main_arg1)
      ∧ r.2.mem ((c.tc : Thread nD τ).loc main_v9) = endVal m (dats m) c (Proc.devRef .tc main_v9)) :=
  run_main m ρ (dats m) (q_0 m) (q_1 m) (q_2 m) (q_3 m) (q_4 m) (q_5 m) (fun c => (body_obligation m c).loose)
    (fun _ _ => rfl) (A_eq m) (hin m) (hout m)

/-- The frame: both arguments end as launched. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))), (h c).2.1⟩) (run_all m ρ)

end Cert.KernelIdeal.Hand

end
-- ==== Proof.AccValue.lean ====
/-
  The accumulator's value, point by point, through the body's named payloads. Each case's stored pieces read back:
  at point 0 the accumulator ends at zero plus the point's partial sum, at every later point at what the point before
  left plus the point's partial sum, and at point 7 the output buffer receives that same value.
-/
import proofs.«175114_j50955491999905_1_alg».proof.Proof.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The zero offsets of a whole-block access. -/
theorem hz2 : (![0, 0] : Fin 2 → ℕ) = fun _ => 0 := by funext a; fin_cases a <;> rfl

/-- The labels of a point's 128 rows: the 128x1 rectangle, at the point's row offset, of the column of all 1024 labels. -/
abbrev rowLabels (i : grid0.Coords) (x3 : Vec F S1024x1 .i32) : Vec F S128x1 .i32 :=
  View.ld x3 (Rect.unit (s := S1024x1) (k0_off1 i) S128x1.size (k0_off1_inb i))

/-! ## The pieces each case found -/

/-- What the first point leaves in the accumulator: zero plus the point's partial sum. -/
theorem accFirst_eq (c : Dev nD) (i : grid0.Coords) (arg1 : Memref sig .tc .vmem S128x256 .f32) (harg1 : arg1.IsWhole) (arg2 : Memref sig .tc .vmem S1024x256 .f32) (harg2 : arg2.IsWhole) (arg3 : Memref sig .tc .vmem S1024x1 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1 .f32) (harg8 : arg8.IsWhole) (hF : atFirst i) (hL : ¬atLast i)
    (x1 : Vec F S128x256 .f32) (x2 : Vec F S1024x256 .f32) (x3 : Vec F S1024x1 .i32) (x4 : Vec F S1x1024 .i32) (x5 : Vec F S1x1024 .f32) (x6 : Vec F S1x1024 .f32) :
    accFirst c i arg1 harg1 arg2 harg2 arg3 harg3 arg4 harg4 arg5 harg5 arg6 harg6 arg7 harg7 arg8 harg8 hF hL x1 x2 x3 x4 x5 x6 = k0_pay1 (Scalar.muli (BitVec.ofNat 32 (i 0).val) 128#32) (k0_pay3 x1 x2 x5 x6) (k0_pay4 x1 x2 x5 x6) (Scalar.ofBits .f32 0x00000000#32) (rowLabels i x3) x4 (k0_pay2 (F := F)) := by
  unfold accFirst
  rw [View.read_writes_eq_canon _ _ _ (accCover_first c i arg1 harg1 arg2 harg2 arg3 harg3 arg4 harg4 arg5 harg5 arg6 harg6 arg7 harg7 arg8 harg8 hF hL x1 x2 x3 x4 x5 x6)]
  unfold runFirst
  dsimp only
  sl_unfold_run_names
  rw [View.canon_cons_unit_zero (S := S1x1) hz2, View.readCov_unit_zero (S := S1x1) _ hz2]
  simp only [View.readAt_eq_ld, harg1.read_unread, harg2.read_unread, harg3.read_unread, harg4.read_unread, harg5.read_unread, harg6.read_unread, harg8.read_unread,
    View.ld_unit_zero (S := S128x256) hz2, View.ld_unit_zero (S := S1024x256) hz2, View.ld_unit_zero (S := S1x1024) hz2, View.ld_unit_zero (S := S1x1) hz2]

/-- What a middle point leaves in the accumulator: what it found plus the point's partial sum. -/
theorem accMid_eq (c : Dev nD) (i : grid0.Coords) (arg1 : Memref sig .tc .vmem S128x256 .f32) (harg1 : arg1.IsWhole) (arg2 : Memref sig .tc .vmem S1024x256 .f32) (harg2 : arg2.IsWhole) (arg3 : Memref sig .tc .vmem S1024x1 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1 .f32) (harg8 : arg8.IsWhole) (hF : ¬atFirst i) (hL : ¬atLast i)
    (x1 : Vec F S128x256 .f32) (x2 : Vec F S1024x256 .f32) (x3 : Vec F S1024x1 .i32) (x4 : Vec F S1x1024 .i32) (x5 : Vec F S1x1024 .f32) (x6 : Vec F S1x1024 .f32) (xs : Vec F S1x1 .f32) :
    accMid c i arg1 harg1 arg2 harg2 arg3 harg3 arg4 harg4 arg5 harg5 arg6 harg6 arg7 harg7 arg8 harg8 hF hL x1 x2 x3 x4 x5 x6 xs = k0_pay1 (Scalar.muli (BitVec.ofNat 32 (i 0).val) 128#32) (k0_pay3 x1 x2 x5 x6) (k0_pay4 x1 x2 x5 x6) (Scalar.ofBits .f32 0x00000000#32) (rowLabels i x3) x4 xs := by
  unfold accMid
  rw [View.read_writes_eq_canon _ _ _ (accCover_mid c i arg1 harg1 arg2 harg2 arg3 harg3 arg4 harg4 arg5 harg5 arg6 harg6 arg7 harg7 arg8 harg8 hF hL x1 x2 x3 x4 x5 x6 xs)]
  unfold runMid
  dsimp only
  sl_unfold_run_names
  rw [View.canon_unit_zero (S := S1x1) hz2]
  simp only [View.readAt_eq_ld, harg1.read_unread, harg2.read_unread, harg3.read_unread, harg4.read_unread, harg5.read_unread, harg6.read_unread, harg8.read_unread,
    View.ld_unit_zero (S := S128x256) hz2, View.ld_unit_zero (S := S1024x256) hz2, View.ld_unit_zero (S := S1x1024) hz2, View.ld_unit_zero (S := S1x1) hz2]

/-- What the last point leaves in the accumulator: what it found plus the point's partial sum; -/
theorem accLast_eq (c : Dev nD) (i : grid0.Coords) (arg1 : Memref sig .tc .vmem S128x256 .f32) (harg1 : arg1.IsWhole) (arg2 : Memref sig .tc .vmem S1024x256 .f32) (harg2 : arg2.IsWhole) (arg3 : Memref sig .tc .vmem S1024x1 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1 .f32) (harg8 : arg8.IsWhole) (hF : ¬atFirst i) (hL : atLast i)
    (x1 : Vec F S128x256 .f32) (x2 : Vec F S1024x256 .f32) (x3 : Vec F S1024x1 .i32) (x4 : Vec F S1x1024 .i32) (x5 : Vec F S1x1024 .f32) (x6 : Vec F S1x1024 .f32) (xs : Vec F S1x1 .f32) :
    accLast c i arg1 harg1 arg2 harg2 arg3 harg3 arg4 harg4 arg5 harg5 arg6 harg6 arg7 harg7 arg8 harg8 hF hL x1 x2 x3 x4 x5 x6 xs = k0_pay1 (Scalar.muli (BitVec.ofNat 32 (i 0).val) 128#32) (k0_pay3 x1 x2 x5 x6) (k0_pay4 x1 x2 x5 x6) (Scalar.ofBits .f32 0x00000000#32) (rowLabels i x3) x4 xs := by
  unfold accLast
  rw [View.read_writes_eq_canon _ _ _ (accCover_last c i arg1 harg1 arg2 harg2 arg3 harg3 arg4 harg4 arg5 harg5 arg6 harg6 arg7 harg7 arg8 harg8 hF hL x1 x2 x3 x4 x5 x6 xs)]
  unfold runLast
  dsimp only
  sl_unfold_run_names
  rw [View.canon_unit_zero (S := S1x1) hz2]
  simp only [View.readAt_eq_ld, harg1.read_unread, harg2.read_unread, harg3.read_unread, harg4.read_unread, harg5.read_unread, harg6.read_unread, harg8.read_unread,
    View.ld_unit_zero (S := S128x256) hz2, View.ld_unit_zero (S := S1024x256) hz2, View.ld_unit_zero (S := S1x1024) hz2, View.ld_unit_zero (S := S1x1) hz2]

/-- and in the output buffer: the same value, read back from the accumulator. -/
theorem outLast_eq (c : Dev nD) (i : grid0.Coords) (arg1 : Memref sig .tc .vmem S128x256 .f32) (harg1 : arg1.IsWhole) (arg2 : Memref sig .tc .vmem S1024x256 .f32) (harg2 : arg2.IsWhole) (arg3 : Memref sig .tc .vmem S1024x1 .i32) (harg3 : arg3.IsWhole) (arg4 : Memref sig .tc .vmem S1x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1x1 .f32) (harg8 : arg8.IsWhole) (hF : ¬atFirst i) (hL : atLast i)
    (x1 : Vec F S128x256 .f32) (x2 : Vec F S1024x256 .f32) (x3 : Vec F S1024x1 .i32) (x4 : Vec F S1x1024 .i32) (x5 : Vec F S1x1024 .f32) (x6 : Vec F S1x1024 .f32) (xs : Vec F S1x1 .f32) :
    outLast c i arg1 harg1 arg2 harg2 arg3 harg3 arg4 harg4 arg5 harg5 arg6 harg6 arg7 harg7 arg8 harg8 hF hL x1 x2 x3 x4 x5 x6 xs = k0_pay1 (Scalar.muli (BitVec.ofNat 32 (i 0).val) 128#32) (k0_pay3 x1 x2 x5 x6) (k0_pay4 x1 x2 x5 x6) (Scalar.ofBits .f32 0x00000000#32) (rowLabels i x3) x4 xs := by
  unfold outLast
  rw [View.read_writes_eq_canon _ _ _ (outCover_last c i arg1 harg1 arg2 harg2 arg3 harg3 arg4 harg4 arg5 harg5 arg6 harg6 arg7 harg7 arg8 harg8 hF hL x1 x2 x3 x4 x5 x6 xs)]
  unfold runLast
  dsimp only
  sl_unfold_run_names
  rw [View.canon_unit_zero (S := S1x1) hz2, View.readCov_unit_zero (S := S1x1) _ hz2]
  simp only [View.readAt_eq_ld, harg1.read_unread, harg2.read_unread, harg3.read_unread, harg4.read_unread, harg5.read_unread, harg6.read_unread, harg8.read_unread,
    View.ld_unit_zero (S := S128x256) hz2, View.ld_unit_zero (S := S1024x256) hz2, View.ld_unit_zero (S := S1x1024) hz2, View.ld_unit_zero (S := S1x1) hz2]

/-! ## The recursion, through the payloads -/

/-- After point 0 the accumulator holds zero plus that point's partial sum. -/
theorem acc_zero (c : Dev nD) (h : 0 < cfg0.N) :
    acc m c 0 h = k0_pay1 (Scalar.muli (BitVec.ofNat 32 ((grid0.coords ⟨0, h⟩) 0).val) 128#32) (k0_pay3 (iblk m c 0 ⟨0, h⟩) (iblk m c 1 ⟨0, h⟩) (iblk m c 4 ⟨0, h⟩) (iblk m c 5 ⟨0, h⟩)) (k0_pay4 (iblk m c 0 ⟨0, h⟩) (iblk m c 1 ⟨0, h⟩) (iblk m c 4 ⟨0, h⟩) (iblk m c 5 ⟨0, h⟩)) (Scalar.ofBits .f32 0x00000000#32) (rowLabels (grid0.coords ⟨0, h⟩) (iblk m c 2 ⟨0, h⟩)) (iblk m c 3 ⟨0, h⟩) (k0_pay2 (F := F)) := by
  rw [show acc m c 0 h = acc m c (⟨0, h⟩ : Fin cfg0.N).val (⟨0, h⟩ : Fin cfg0.N).isLt from rfl,
    acc_first m c ⟨0, h⟩ rfl (by show (0 : ℕ) ≠ 7; omega)]
  exact accFirst_eq c (grid0.coords ⟨0, h⟩) (ms0 ⟨0, h⟩) (hs0 ⟨0, h⟩) (ms1 ⟨0, h⟩) (hs1 ⟨0, h⟩) (ms2 ⟨0, h⟩) (hs2 ⟨0, h⟩) (ms3 ⟨0, h⟩) (hs3 ⟨0, h⟩) (ms4 ⟨0, h⟩) (hs4 ⟨0, h⟩) (ms5 ⟨0, h⟩) (hs5 ⟨0, h⟩) (ms6 ⟨0, h⟩) (hs6 ⟨0, h⟩) accM (Memref.isWhole_whole _) ((atFirst_iff ⟨0, h⟩).mpr rfl) (notLast_of_ne (t := ⟨0, h⟩) (by show (0 : ℕ) ≠ 7; omega)) (iblk m c 0 ⟨0, h⟩) (iblk m c 1 ⟨0, h⟩) (iblk m c 2 ⟨0, h⟩) (iblk m c 3 ⟨0, h⟩) (iblk m c 4 ⟨0, h⟩) (iblk m c 5 ⟨0, h⟩)

/-- After a later point it holds what the point before left plus this point's partial sum. -/
theorem acc_succ (c : Dev nD) (n : ℕ) (h : n + 1 < cfg0.N) :
    acc m c (n + 1) h = k0_pay1 (Scalar.muli (BitVec.ofNat 32 ((grid0.coords ⟨n + 1, h⟩) 0).val) 128#32) (k0_pay3 (iblk m c 0 ⟨n + 1, h⟩) (iblk m c 1 ⟨n + 1, h⟩) (iblk m c 4 ⟨n + 1, h⟩) (iblk m c 5 ⟨n + 1, h⟩)) (k0_pay4 (iblk m c 0 ⟨n + 1, h⟩) (iblk m c 1 ⟨n + 1, h⟩) (iblk m c 4 ⟨n + 1, h⟩) (iblk m c 5 ⟨n + 1, h⟩)) (Scalar.ofBits .f32 0x00000000#32) (rowLabels (grid0.coords ⟨n + 1, h⟩) (iblk m c 2 ⟨n + 1, h⟩)) (iblk m c 3 ⟨n + 1, h⟩) (acc m c n (Nat.lt_of_succ_lt h)) := by
  by_cases h7 : n + 1 = 7
  · rw [show acc m c (n + 1) h = acc m c (⟨n + 1, h⟩ : Fin cfg0.N).val (⟨n + 1, h⟩ : Fin cfg0.N).isLt from rfl,
      acc_last m c ⟨n + 1, h⟩ (Nat.succ_ne_zero n) h7]
    exact accLast_eq c (grid0.coords ⟨n + 1, h⟩) (ms0 ⟨n + 1, h⟩) (hs0 ⟨n + 1, h⟩) (ms1 ⟨n + 1, h⟩) (hs1 ⟨n + 1, h⟩) (ms2 ⟨n + 1, h⟩) (hs2 ⟨n + 1, h⟩) (ms3 ⟨n + 1, h⟩) (hs3 ⟨n + 1, h⟩) (ms4 ⟨n + 1, h⟩) (hs4 ⟨n + 1, h⟩) (ms5 ⟨n + 1, h⟩) (hs5 ⟨n + 1, h⟩) (ms6 ⟨n + 1, h⟩) (hs6 ⟨n + 1, h⟩) accM (Memref.isWhole_whole _) (notFirst_of_ne (t := ⟨n + 1, h⟩) (Nat.succ_ne_zero n)) ((atLast_iff ⟨n + 1, h⟩).mpr h7) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (acc m c n (Nat.lt_of_succ_lt h))
  · rw [show acc m c (n + 1) h = acc m c (⟨n + 1, h⟩ : Fin cfg0.N).val (⟨n + 1, h⟩ : Fin cfg0.N).isLt from rfl,
      acc_mid m c ⟨n + 1, h⟩ (Nat.succ_ne_zero n) h7]
    exact accMid_eq c (grid0.coords ⟨n + 1, h⟩) (ms0 ⟨n + 1, h⟩) (hs0 ⟨n + 1, h⟩) (ms1 ⟨n + 1, h⟩) (hs1 ⟨n + 1, h⟩) (ms2 ⟨n + 1, h⟩) (hs2 ⟨n + 1, h⟩) (ms3 ⟨n + 1, h⟩) (hs3 ⟨n + 1, h⟩) (ms4 ⟨n + 1, h⟩) (hs4 ⟨n + 1, h⟩) (ms5 ⟨n + 1, h⟩) (hs5 ⟨n + 1, h⟩) (ms6 ⟨n + 1, h⟩) (hs6 ⟨n + 1, h⟩) accM (Memref.isWhole_whole _) (notFirst_of_ne (t := ⟨n + 1, h⟩) (Nat.succ_ne_zero n)) (notLast_of_ne (t := ⟨n + 1, h⟩) h7) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (acc m c n (Nat.lt_of_succ_lt h))

/-- After point 7 the output buffer holds the accumulator. -/
theorem after6_last (c : Dev nD) (h : 7 < cfg0.N) : (dats m 0 c).after 6 ⟨7, h⟩ = acc m c 7 h := by
  rw [after_6, outAt_last m c ⟨7, h⟩ (by show (7 : ℕ) ≠ 0; omega) rfl,
    show acc m c 7 h = acc m c (⟨7, h⟩ : Fin cfg0.N).val (⟨7, h⟩ : Fin cfg0.N).isLt from rfl,
    acc_last m c ⟨7, h⟩ (by show (7 : ℕ) ≠ 0; omega) rfl]
  exact (outLast_eq c (grid0.coords ⟨7, h⟩) (ms0 ⟨7, h⟩) (hs0 ⟨7, h⟩) (ms1 ⟨7, h⟩) (hs1 ⟨7, h⟩) (ms2 ⟨7, h⟩) (hs2 ⟨7, h⟩) (ms3 ⟨7, h⟩) (hs3 ⟨7, h⟩) (ms4 ⟨7, h⟩) (hs4 ⟨7, h⟩) (ms5 ⟨7, h⟩) (hs5 ⟨7, h⟩) (ms6 ⟨7, h⟩) (hs6 ⟨7, h⟩) accM (Memref.isWhole_whole _) (notFirst_of_ne (t := ⟨7, h⟩) (by show (7 : ℕ) ≠ 0; omega)) ((atLast_iff ⟨7, h⟩).mpr rfl) (iblk m c 0 ⟨7, h⟩) (iblk m c 1 ⟨7, h⟩) (iblk m c 2 ⟨7, h⟩) (iblk m c 3 ⟨7, h⟩) (iblk m c 4 ⟨7, h⟩) (iblk m c 5 ⟨7, h⟩) (acc m c (7 - 1) (Nat.lt_of_le_of_lt (Nat.sub_le _ _) h))).trans
    (accLast_eq c (grid0.coords ⟨7, h⟩) (ms0 ⟨7, h⟩) (hs0 ⟨7, h⟩) (ms1 ⟨7, h⟩) (hs1 ⟨7, h⟩) (ms2 ⟨7, h⟩) (hs2 ⟨7, h⟩) (ms3 ⟨7, h⟩) (hs3 ⟨7, h⟩) (ms4 ⟨7, h⟩) (hs4 ⟨7, h⟩) (ms5 ⟨7, h⟩) (hs5 ⟨7, h⟩) (ms6 ⟨7, h⟩) (hs6 ⟨7, h⟩) accM (Memref.isWhole_whole _) (notFirst_of_ne (t := ⟨7, h⟩) (by show (7 : ℕ) ≠ 0; omega)) ((atLast_iff ⟨7, h⟩).mpr rfl) (iblk m c 0 ⟨7, h⟩) (iblk m c 1 ⟨7, h⟩) (iblk m c 2 ⟨7, h⟩) (iblk m c 3 ⟨7, h⟩) (iblk m c 4 ⟨7, h⟩) (iblk m c 5 ⟨7, h⟩) (acc m c (7 - 1) (Nat.lt_of_le_of_lt (Nat.sub_le _ _) h))).symm

end Cert.KernelIdeal.Hand

end
-- ==== Proof.BlockValue.lean ====
/-
  Each input window's block, read at an index, in the entries of the window's array as the region finds it.

  A block's coordinate on an axis is always the block index on that axis times the block's extent there, plus the
  coordinate inside the block.  Window 0 walks the matrix 128 rows at a time: at grid point t its block is rows
  128 t … 128 t + 127, all 256 columns.  The other five input windows have block index (0, 0) at every point and a
  block as large as the array: their block is the whole array.
-/
import proofs.«175114_j50955491999905_1_alg».proof.Proof.Cases
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

variable (m : (ℓ : Loc nD τ sig) → Buf (Elt F) ℓ)

/-! ## The index maps over the grid -/

/-- The grid has eight points. -/
theorem point_lt (t : Fin cfg0.N) : t.val < 8 := lt_of_lt_of_eq t.isLt N_0

/-- Row `a` of point `t`'s block of window 0 is a row of the matrix. -/
theorem row_lt (t : Fin cfg0.N) (a : Fin 128) : 128 * t.val + a.val < 1024 := by
  have := point_lt t; omega

/-- Window 0's block index is `(t, 0)`. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The other input windows' block index is `(0, 0)`. -/
theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem index5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-! ## The blocks at an index -/

/-- Window 0's block at point `t`: rows `128 t … 128 t + 127` of the matrix. -/
theorem blk0 (c : Dev nD) (t : Fin cfg0.N) (a : Fin 128) (k : Fin 256) :
    (iblk m c 0 t : Vec F S128x256 .f32) (ix2 a k)
      = (V m c main_arg0 : S1024x256.Idx → Elt F .f32) (ix2 (⟨128 * t.val + a.val, row_lt t a⟩ : Fin 1024) k) := by
  obtain ⟨i0, i1⟩ := index0 t
  unfold iblk
  rw [View.read_apply]
  show V m c main_arg0 _ = V m c main_arg0 _
  congr 1
  funext ax
  apply Fin.ext
  match ax with
  | ⟨0, _⟩ => show win0_0.index t (0 : Fin 2) * 128 + 1 * a.val = 128 * t.val + a.val; rw [i0]; omega
  | ⟨1, _⟩ => show win0_0.index t (1 : Fin 2) * 256 + 1 * k.val = k.val; rw [i1]; omega

/-- Window 1's block at every point: the whole matrix. -/
theorem blk1 (c : Dev nD) (t : Fin cfg0.N) (b : Fin 1024) (k : Fin 256) :
    (iblk m c 1 t : Vec F S1024x256 .f32) (ix2 b k) = (V m c main_arg0 : S1024x256.Idx → Elt F .f32) (ix2 b k) := by
  obtain ⟨i0, i1⟩ := index1 t
  unfold iblk
  rw [View.read_apply]
  show V m c main_arg0 _ = V m c main_arg0 _
  congr 1
  funext ax
  apply Fin.ext
  match ax with
  | ⟨0, _⟩ => show win0_1.index t (0 : Fin 2) * 1024 + 1 * b.val = b.val; rw [i0]; omega
  | ⟨1, _⟩ => show win0_1.index t (1 : Fin 2) * 256 + 1 * k.val = k.val; rw [i1]; omega

/-- Window 2's block at every point: the whole column of labels. -/
theorem blk2 (c : Dev nD) (t : Fin cfg0.N) (a : Fin 1024) :
    (iblk m c 2 t : Vec F S1024x1 .i32) (ix2 a (0 : Fin 1)) = (V m c main_v3 : S1024x1.Idx → Elt F .i32) (ix2 a (0 : Fin 1)) := by
  obtain ⟨i0, i1⟩ := index2 t
  unfold iblk
  rw [View.read_apply]
  show V m c main_v3 _ = V m c main_v3 _
  congr 1
  funext ax
  apply Fin.ext
  match ax with
  | ⟨0, _⟩ => show win0_2.index t (0 : Fin 2) * 1024 + 1 * a.val = a.val; rw [i0]; omega
  | ⟨1, _⟩ => show win0_2.index t (1 : Fin 2) * 1 + 1 * 0 = 0; rw [i1]

/-- Window 3's block at every point: the whole row of labels. -/
theorem blk3 (c : Dev nD) (t : Fin cfg0.N) (b : Fin 1024) :
    (iblk m c 3 t : Vec F S1x1024 .i32) (ix2 (0 : Fin 1) b) = (V m c main_v4 : S1x1024.Idx → Elt F .i32) (ix2 (0 : Fin 1) b) := by
  obtain ⟨i0, i1⟩ := index3 t
  unfold iblk
  rw [View.read_apply]
  show V m c main_v4 _ = V m c main_v4 _
  congr 1
  funext ax
  apply Fin.ext
  match ax with
  | ⟨0, _⟩ => show win0_3.index t (0 : Fin 2) * 1 + 1 * 0 = 0; rw [i0]
  | ⟨1, _⟩ => show win0_3.index t (1 : Fin 2) * 1024 + 1 * b.val = b.val; rw [i1]; omega

/-- Window 4's block at every point: the whole row of sums of squares. -/
theorem blk4 (c : Dev nD) (t : Fin cfg0.N) (b : Fin 1024) :
    (iblk m c 4 t : Vec F S1x1024 .f32) (ix2 (0 : Fin 1) b) = (V m c main_v5 : S1x1024.Idx → Elt F .f32) (ix2 (0 : Fin 1) b) := by
  obtain ⟨i0, i1⟩ := index4 t
  unfold iblk
  rw [View.read_apply]
  show V m c main_v5 _ = V m c main_v5 _
  congr 1
  funext ax
  apply Fin.ext
  match ax with
  | ⟨0, _⟩ => show win0_4.index t (0 : Fin 2) * 1 + 1 * 0 = 0; rw [i0]
  | ⟨1, _⟩ => show win0_4.index t (1 : Fin 2) * 1024 + 1 * b.val = b.val; rw [i1]; omega

/-- Window 5's block at every point: the whole row of sums. -/
theorem blk5 (c : Dev nD) (t : Fin cfg0.N) (b : Fin 1024) :
    (iblk m c 5 t : Vec F S1x1024 .f32) (ix2 (0 : Fin 1) b) = (V m c main_v6 : S1x1024.Idx → Elt F .f32) (ix2 (0 : Fin 1) b) := by
  obtain ⟨i0, i1⟩ := index5 t
  unfold iblk
  rw [View.read_apply]
  show V m c main_v6 _ = V m c main_v6 _
  congr 1
  funext ax
  apply Fin.ext
  match ax with
  | ⟨0, _⟩ => show win0_5.index t (0 : Fin 2) * 1 + 1 * 0 = 0; rw [i0]
  | ⟨1, _⟩ => show win0_5.index t (1 : Fin 2) * 1024 + 1 * b.val = b.val; rw [i1]; omega

end Cert.KernelIdeal.Hand

end
-- ==== Proof.OutValue.lean ====
/-
  The output array after the whole grid. Its one entry is written back at the last grid point only, so it ends
  holding what the body left in the output buffer there.
-/
import proofs.«175114_j50955491999905_1_alg».proof.Proof.Frame
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F] [Named F]

variable (m : (ℓ : Loc nD τ sig) → Buf (Elt F) ℓ)

/-- The grid has eight points; the last is point 7. -/
theorem outv_last_lt : 7 < cfg0.N := by have : cfg0.N = 8 := N_0; omega

/-- The output window's block index is (0, 0) at every point. -/
theorem outv_index : ∀ t : Fin cfg0.N, win0_6.index t (0 : Fin 2) = 0 ∧ win0_6.index t (1 : Fin 2) = 0 :=
  (by decide +kernel : ∀ t : Fin grid0.N, _)

/-- A 1 × 1 array has one index. -/
theorem outv_idx11 (j : S1x1.Idx) : j = ix2 (0 : Fin 1) (0 : Fin 1) := by
  funext a
  match a with
  | ⟨0, _⟩ => exact Fin.ext (by have := idx2_lt0 j; show (j 0).val = 0; omega)
  | ⟨1, _⟩ => exact Fin.ext (by have := idx2_lt1 j; show (j 1).val = 0; omega)

/-- An index of the output array is in point t's block iff each coordinate is in the block's range on its axis. -/
theorem outv_mem_blk (t : Fin cfg0.N) (i : S1x1.Idx) :
    i ∈ ((cfg0.win 6).blk t).view.set
      ↔ ∀ a : Fin 2, win0_6.index t a * S1x1.size a ≤ (i a).val ∧ (i a).val < win0_6.index t a * S1x1.size a + S1x1.size a := by
  show i ∈ ((View.whole main_v7).slice (win0_6.rect t)).set ↔ _
  rw [View.set_slice_whole, Rect.mem_set_unit]
  exact Iff.rfl

/-- The array's one index is in every point's block, the last point's in particular. -/
theorem outv_mem_blk_all (t : Fin cfg0.N) (i : S1x1.Idx) : i ∈ ((cfg0.win 6).blk t).view.set := by
  rw [outv_mem_blk]
  obtain ⟨e0, e1⟩ := outv_index t
  intro a
  match a with
  | ⟨0, _⟩ =>
    show win0_6.index t (0 : Fin 2) * 1 ≤ (i 0).val ∧ (i 0).val < win0_6.index t (0 : Fin 2) * 1 + 1
    have := idx2_lt0 i; omega
  | ⟨1, _⟩ =>
    show win0_6.index t (1 : Fin 2) * 1 ≤ (i 1).val ∧ (i 1).val < win0_6.index t (1 : Fin 2) * 1 + 1
    have := idx2_lt1 i; omega

/-- A point that writes the output block back is the last point, and what it writes back is the constant array at
    the entry the body left in the output buffer there. -/
theorem outv_flushed_eq (c : Dev nD) (t : Fin cfg0.N) (hf : (cfg0.win 6).flush t = true) :
    (dats m 0 c).flushed 6 t
      = ((cfg0.win 6).blk t).view.read (Elt F) (fun _ => outAt m c ⟨7, outv_last_lt⟩ (ix2 (0 : Fin 1) (0 : Fin 1))) := by
  have h8 : t.val < 8 := lt_of_lt_of_eq t.isLt (show cfg0.N = 8 from N_0)
  have ht : t = ⟨7, outv_last_lt⟩ := Fin.ext (by have := (flush0_6 t).1 hf; show t.val = 7; omega)
  show (cfg0.win 6).cut (grid0.coords t) ((dats m 0 c).after 6 t) = _
  rw [after_6]
  funext j
  show outAt m c t j = outAt m c ⟨7, outv_last_lt⟩ (ix2 (0 : Fin 1) (0 : Fin 1))
  rw [ht]
  exact congrArg (outAt m c ⟨7, outv_last_lt⟩) (outv_idx11 j)

/-- THE OUTPUT ARRAY after the whole grid: its one entry is what the body left in the output buffer at the last point. -/
theorem out_final (c : Dev nD) :
    (dats m 0 c).arrAt 6 cfg0.N = fun _ => outAt m c ⟨7, outv_last_lt⟩ (ix2 (0 : Fin 1) (0 : Fin 1)) :=
  (dats m 0 c).arrAt_eq_of_cover 6 _ (fun t hf => outv_flushed_eq m c t hf)
    (fun i => ⟨⟨7, outv_last_lt⟩, (flush0_6 _).2 rfl, outv_mem_blk_all _ i⟩)

end Cert.KernelIdeal.Hand

end
-- ==== Proof.LabelRows.lean ====
/-
  The labels of a point's rows, read at an index. Point `t` handles rows `128 * t` to `128 * t + 127` of the 1024:
  the row offset the body computes from the grid coordinate is `128 * t`, so the point's 128x1 rectangle of the label
  column reads the column at row `128 * t + a`.
-/
import proofs.«175114_j50955491999905_1_alg».proof.Proof.AccValue
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

local notation "𝕄" => MT nD τ sig Unit (Elt F) ℕ (UR sig nD τ) ℕ

variable (m : (ℓ : Loc nD τ sig) → Buf (Elt F) ℓ)

/-- The rectangle's offsets at point `t`: row `128 * t`, column 0 — decided over the eight points. -/
theorem rowOff (t : Fin cfg0.N) : k0_off1 (grid0.coords t) 0 = 128 * t.val ∧ k0_off1 (grid0.coords t) 1 = 0 :=
  (by decide +kernel : ∀ t : Fin grid0.N, k0_off1 (grid0.coords t) 0 = 128 * t.val ∧ k0_off1 (grid0.coords t) 1 = 0) t

/-- Row `128 * t + a` is one of the 1024. -/
theorem rowIdx_lt (t : Fin cfg0.N) (a : Fin 128) : 128 * t.val + a.val < 1024 := by
  have hN : t.val < 8 := lt_of_lt_of_eq t.isLt (show cfg0.N = 8 from N_0)
  have := a.isLt
  omega

/-- The point's labels at its row `a`: the label column at row `128 * t + a`. -/
theorem rowLabels_apply (t : Fin cfg0.N) (x3 : Vec F S1024x1 .i32) (a : Fin 128) :
    rowLabels (grid0.coords t) x3 (ix2 a (0 : Fin 1)) = x3 (ix2 (⟨128 * t.val + a.val, rowIdx_lt t a⟩ : Fin 1024) (0 : Fin 1)) := by
  obtain ⟨h0, h1⟩ := rowOff t
  show x3 _ = x3 _
  refine congrArg x3 (funext fun d => Fin.ext ?_)
  match d with
  | ⟨0, _⟩ =>
    show k0_off1 (grid0.coords t) 0 + 1 * a.val = 128 * t.val + a.val
    rw [h0]; omega
  | ⟨1, _⟩ =>
    show k0_off1 (grid0.coords t) 1 + 1 * (0 : Fin 1).val = (0 : Fin 1).val
    rw [h1]; simp

/-- The row offset as a number: the grid coordinate times 128 does not wrap. -/
theorem v1_toNat (t : Fin cfg0.N) : (Scalar.muli (BitVec.ofNat 32 ((grid0.coords t) 0).val) 128#32).toNat = 128 * t.val :=
  (by decide +kernel : ∀ t : Fin grid0.N, (Scalar.muli (BitVec.ofNat 32 ((grid0.coords t) 0).val) 128#32).toNat = 128 * t.val) t

end Cert.KernelIdeal.Hand

end
-- ==== Proof.Spec.lean ====
/-
  The function both programs compute, stated once over plain indices.

  For a matrix x of 1024 rows and 256 columns and a label per row, the pair (i, j) contributes
    d(i,j)^2                    when the labels agree,
    max(1 - d(i,j), 0)^2        when they differ,
  and nothing when i = j, where d(i,j) is the Euclidean norm of the row difference shifted by ε in every coordinate,
    d(i,j)^2 = Σ_c (x j c - x i c + ε)^2,
  and the result is the mean of the contributions over the 1024 * 1023 ordered pairs of distinct rows.
  ε is the single-precision word nearest 10^-6, read as the exact dyadic it encodes.
-/
import Idealize.ShloMosaic.PureOps.Ideal
import Idealize.ShloMosaic.Lib.ValueIdx

noncomputable section

open scoped BigOperators

namespace Cert.Spec

open Idealize.ShloMosaic Idealize.ShloMosaic.ValueIdx

/-- The matrix's index set and the labels'. -/
abbrev SX : Shape := ⟨2, ![1024, 256]⟩
abbrev SLab : Shape := ⟨1, ![1024]⟩

/-- ε: the exact value of the single-precision word nearest 10^-6. -/
def eps : EReal := Ideal.ofBits .f32 0x358637BD#32

/-- The squared ε-shifted distance from row i to row j. -/
def dist2 (x : SX.Idx → EReal) (i j : Fin 1024) : EReal :=
  ∑ c : Fin 256, (x (ix2 j c) - x (ix2 i c) + eps) * (x (ix2 j c) - x (ix2 i c) + eps)

/-- The weight of a pair of distinct rows with equal labels. -/
def sameW (lab : SLab.Idx → BitVec 32) (i j : Fin 1024) : EReal :=
  if lab (ix1 j) = lab (ix1 i) ∧ j ≠ i then 1 else 0

/-- The weight of a pair of distinct rows with different labels. -/
def diffW (lab : SLab.Idx → BitVec 32) (i j : Fin 1024) : EReal :=
  if lab (ix1 j) ≠ lab (ix1 i) ∧ j ≠ i then 1 else 0

/-- What the pair (i, j) contributes. -/
def pairLoss (x : SX.Idx → EReal) (lab : SLab.Idx → BitVec 32) (i j : Fin 1024) : EReal :=
  Ideal.sqrt (dist2 x i j) * Ideal.sqrt (dist2 x i j) * sameW lab i j
    + max (1 - Ideal.sqrt (dist2 x i j)) 0 * max (1 - Ideal.sqrt (dist2 x i j)) 0 * diffW lab i j

/-- The contributions of the 128 rows of tile t against every row. -/
def tileLoss (x : SX.Idx → EReal) (lab : SLab.Idx → BitVec 32) (t : Fin 8) : EReal :=
  ∑ a : Fin 128, ∑ j : Fin 1024, pairLoss x lab ⟨128 * t.val + a.val, by omega⟩ j

/-- The sum over all ordered pairs. -/
def total (x : SX.Idx → EReal) (lab : SLab.Idx → BitVec 32) : EReal :=
  ∑ i : Fin 1024, ∑ j : Fin 1024, pairLoss x lab i j

/-- The mean over the 1024 * 1023 ordered pairs of distinct rows. -/
def loss (x : SX.Idx → EReal) (lab : SLab.Idx → BitVec 32) : EReal :=
  Ideal.div (total x lab) ((1047552 : ℝ) : EReal)

end Cert.Spec

end
-- ==== Proof.EntryValue.lean ====
/-
  What the kernel region finds in the four arrays the host operations before it wrote, read at an index: the rows'
  sums of squares, the rows' sums, and the labels as a column and as a row; and what the precondition says of the
  matrix: every entry is a real number.
-/
import proofs.«175114_j50955491999905_1_alg».proof.Proof.Entry
import proofs.«175114_j50955491999905_1_alg».proof.Proof.Spec
import proofs.«175114_j50955491999905_1_alg».proof.Pre_finite_inputs
import proofs.«175114_j50955491999905_1_alg».proof.Proof.Gen.Pre_finite_inputs
import Idealize.ShloMosaic.Lib.ReduceAll
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelIdeal.EntryValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (c : Dev nD)

/-- The matrix core c is launched with. -/
abbrev X : Cert.Spec.SX.Idx → EReal := m ((c.tc : Thread nD τ).loc main_arg0)
/-- The labels core c is launched with. -/
abbrev Lab : Cert.Spec.SLab.Idx → BitVec 32 := m ((c.tc : Thread nD τ).loc main_arg1)

/-! ## The host operations' terms, read at an index -/

/-- A row's sum over the 256 columns, kept as a one-row matrix, read at column b. -/
theorem rowsum_at (x : FVec Ideal S1024x256 .f32) (b : Fin 1024) :
    shapeCast S1x1024 (Host.reduceAdd x (constant (F := Ideal) S_ .f32 0x00000000#32) reducesTo_S1024x256_S1024_d1 h_S_)
        shapeCasts_S1024_S1x1024 (ix2 (0 : Fin 1) b)
      = ∑ k : Fin 256, x (ix2 b k) := by
  rw [shapeCast_a_1a_apply]
  simp only [Host.reduceAdd, Ideal.hostReduceAdd_def]
  rw [Ideal.hostReduceAdd_single reducesTo_S1024x256_S1024_d1 (by decide), constant_apply, Ideal.ofBits_zero_f32, zero_add]
  refine Finset.sum_congr rfl fun k _ => ?_
  exact congrArg x (funext fun a => Fin.ext (by match a with | ⟨0, _⟩ => rfl | ⟨1, _⟩ => rfl))

/-- A label vector kept as a column, read at row a. -/
theorem labcol_at (lab : IVec S1024 32) (a : Fin 1024) :
    shapeCast S1024x1 lab shapeCasts_S1024_S1024x1 (ix2 a (0 : Fin 1)) = lab (ix1 a) :=
  shapeCast_apply lab _ _ _ (by
    rw [Shape.rowMajor_val_two, Shape.rowMajor_val_one]
    show a.val = a.val * 1 + 0
    omega)

/-- A label vector kept as a row, read at column b. -/
theorem labrow_at (lab : IVec S1024 32) (b : Fin 1024) :
    shapeCast S1x1024 lab shapeCasts_S1024_S1x1024 (ix2 (0 : Fin 1) b) = lab (ix1 b) :=
  shapeCast_a_1a_apply lab _ _ _

/-! ## What the region finds -/

/-- The array of the rows' sums of squares is the reshaped sum of the squared matrix. -/
theorem V5_term : (V m c main_v5 : S1x1024.Idx → EReal)
    = shapeCast S1x1024 (Host.reduceAdd (mulf (m ((c.tc : Thread nD τ).loc main_arg0) : FVec Ideal S1024x256 .f32)
          (m ((c.tc : Thread nD τ).loc main_arg0)))
        (constant (F := Ideal) S_ .f32 0x00000000#32) reducesTo_S1024x256_S1024_d1 h_S_) shapeCasts_S1024_S1x1024 := by
  dsimp only [Cert.KernelIdeal.Hand.V, Cert.KernelIdeal.Hand.V0]
  simp only [hostOps0, List.flatten_cons, List.flatten_nil, List.append_nil]
  after_results
  rfl

/-- The array of the rows' sums is the reshaped sum of the matrix. -/
theorem V6_term : (V m c main_v6 : S1x1024.Idx → EReal)
    = shapeCast S1x1024 (Host.reduceAdd (m ((c.tc : Thread nD τ).loc main_arg0) : FVec Ideal S1024x256 .f32)
        (constant (F := Ideal) S_ .f32 0x00000000#32) reducesTo_S1024x256_S1024_d1 h_S_) shapeCasts_S1024_S1x1024 := by
  dsimp only [Cert.KernelIdeal.Hand.V, Cert.KernelIdeal.Hand.V0]
  simp only [hostOps0, List.flatten_cons, List.flatten_nil, List.append_nil]
  after_results
  rfl

/-- The labels as a column. -/
theorem V3_term : (V m c main_v3 : S1024x1.Idx → BitVec 32)
    = shapeCast S1024x1 (m ((c.tc : Thread nD τ).loc main_arg1) : IVec S1024 32) shapeCasts_S1024_S1024x1 := by
  dsimp only [Cert.KernelIdeal.Hand.V, Cert.KernelIdeal.Hand.V0]
  simp only [hostOps0, List.flatten_cons, List.flatten_nil, List.append_nil]
  after_results
  rfl

/-- The labels as a row. -/
theorem V4_term : (V m c main_v4 : S1x1024.Idx → BitVec 32)
    = shapeCast S1x1024 (m ((c.tc : Thread nD τ).loc main_arg1) : IVec S1024 32) shapeCasts_S1024_S1x1024 := by
  dsimp only [Cert.KernelIdeal.Hand.V, Cert.KernelIdeal.Hand.V0]
  simp only [hostOps0, List.flatten_cons, List.flatten_nil, List.append_nil]
  after_results
  rfl

/-- Column b of the sums-of-squares array is the sum of the squares of row b. -/
theorem V_sumsq (b : Fin 1024) :
    (V m c main_v5 : S1x1024.Idx → EReal) (ix2 (0 : Fin 1) b)
      = ∑ k : Fin 256, X m c (ix2 b k) * X m c (ix2 b k) := by
  rw [V5_term, rowsum_at]
  rfl

/-- Column b of the sums array is the sum of row b. -/
theorem V_rowsum (b : Fin 1024) :
    (V m c main_v6 : S1x1024.Idx → EReal) (ix2 (0 : Fin 1) b)
      = ∑ k : Fin 256, X m c (ix2 b k) := by
  rw [V6_term, rowsum_at]

/-- Row a of the label column is label a. -/
theorem V_labcol (a : Fin 1024) :
    (V m c main_v3 : S1024x1.Idx → BitVec 32) (ix2 a (0 : Fin 1))
      = Lab m c (ix1 a) := by
  rw [V3_term, labcol_at]

/-- Column b of the label row is label b. -/
theorem V_labrow (b : Fin 1024) :
    (V m c main_v4 : S1x1024.Idx → BitVec 32) (ix2 (0 : Fin 1) b)
      = Lab m c (ix1 b) := by
  rw [V4_term, labrow_at]

/-! ## The precondition: every entry of the matrix is a real number -/

instance : Subsingleton Cert.Pre_finite_inputs.S_.Idx := ⟨fun a b => funext fun d => d.elim0⟩

/-- The pattern of the positive infinity. -/
theorem ofBits_inf : Ideal.ofBits .f32 0x7F800000#32 = ⊤ := by simp [Ideal.ofBits, Ideal.ieee]

/-- An extended real whose absolute value is below +∞ is a real. -/
theorem real_of_abs_lt_top (y : EReal) (h : max y (-y) < ⊤) : ∃ r : ℝ, y = (r : EReal) := by
  induction y using EReal.rec with
  | bot => exact absurd h (by simp)
  | coe r => exact ⟨r, rfl⟩
  | top => exact absurd h (by simp)

/-- If every entry's absolute value compares below +∞, every entry is a real. -/
theorem finite_of_pre [Cert.Pre_finite_inputs.Facts] (x : Cert.Spec.SX.Idx → EReal) (lab : Cert.Spec.SLab.Idx → BitVec 32)
    (h : Cert.Pre_finite_inputs.fn (F := Ideal) x lab = (fun _ => 1#1)) :
    ∀ i : Cert.Spec.SX.Idx, ∃ r : ℝ, x i = (r : EReal) := by
  intro i
  have h0 := congrFun h ValueIdx.ix0
  dsimp only [Cert.Pre_finite_inputs.fn] at h0
  have hi := Host.reduce_andi_all _ _ _ _ _ h0 i
  have hb : broadcastInDim Cert.Pre_finite_inputs.S1024x256 ![] Cert.Pre_finite_inputs.Facts.bcast_S_S1024x256
      (constant (F := Ideal) Cert.Pre_finite_inputs.S_ .f32 0x7F800000#32) i = ⊤ := by
    rw [broadcastInDim_apply _ _ _ i ValueIdx.ix0 (fun a => a.elim0), constant_apply, ofBits_inf]
  have hc : Ideal.cmp .olt (max (x i) (-(x i))) ⊤ = 1#1 := by
    rw [← hb]; exact hi
  have hd : decide (max (x i) (-(x i)) < ⊤) = true := by
    have hc' : BitVec.ofBool (decide (max (x i) (-(x i)) < ⊤)) = 1#1 := hc
    revert hc'
    cases decide (max (x i) (-(x i)) < ⊤)
    · intro hf; exact absurd hf (by decide)
    · intro _; rfl
  exact real_of_abs_lt_top (x i) (of_decide_eq_true hd)

end Cert.KernelIdeal.EntryValue

end
-- ==== Proof.DistValue.lean ====
/-
  The kernel's squared-distance tile, read at an index at the ideal values, is the specification's
  squared ε-shifted distance.

  For rows i (of the tile) and j, with every entry real,
    Σ_c (x j c - x i c + ε)^2
      = Σ_c (x i c)^2 + Σ_c (x j c)^2 - 2 Σ_c (x i c)(x j c) + 2ε (Σ_c x j c - Σ_c x i c) + 256 ε^2,
  and the right side is what the tile holds before its clamp at zero: the row sums of squares and the
  row sums, a product of the two blocks contracted over the columns, the constant 2ε, and the named
  constant 256 ε^2.  A sum of squares of reals is nonnegative, so the clamp changes nothing.
-/
import proofs.«175114_j50955491999905_1_alg».proof.Proof.Gen.KernelIdeal.Skeleton
import proofs.«175114_j50955491999905_1_alg».proof.Proof.Spec
import Idealize.ShloMosaic.PureOps.Ideal.Laws
import Idealize.ShloMosaic.PureOps.IdealRules
import Idealize.ShloMosaic.Lib.ValueIdx
import Idealize.ShloMosaic.Lib.ValueLayout

noncomputable section

open scoped BigOperators

namespace Cert.KernelIdeal.DistValue

open Cert.KernelIdeal Cert.KernelIdeal.Gen Cert.Spec Idealize.ShloMosaic Idealize.ShloMosaic.ValueIdx

/-! ## The constants -/

/-- The coercion of the reals into the extended reals commutes with a finite sum. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- ε is the dyadic 8796093 / 2^43. -/
theorem eps_eq : Cert.Spec.eps = ((8796093 / 8796093022208 : ℝ) : EReal) := by
  unfold Cert.Spec.eps
  simp [Ideal.ofBits, Ideal.ieee, -EReal.coe_mul]
  norm_num

/-- The word one binade above ε's is 2ε. -/
theorem two_eps_eq : Ideal.ofBits .f32 0x360637BD#32 = ((2 * (8796093 / 8796093022208) : ℝ) : EReal) := by
  simp [Ideal.ofBits, Ideal.ieee, -EReal.coe_mul]
  norm_num

/-- The word of 2 is 2. -/
theorem two_eq : Ideal.ofBits .f32 0x40000000#32 = ((2 : ℝ) : EReal) := by
  simp [Ideal.ofBits, Ideal.ieee, -EReal.coe_mul]
  norm_num

/-- The named constant is the rational the table gives it, which is 256 ε^2. -/
theorem c_eps_sq_eq : Named.named (F := Ideal) Cert.KernelIdeal.κ "c_eps_sq" (φ := .f32) 0x2F8CBCCC#32
    = ((77371252064649 / 302231454903657293676544 : ℝ) : EReal) :=
  IdealRules.named_const.ideal_named_scalar _ _ _ _ rfl

/-! ## The layout operations and the two contractions, read at an index -/

section Layout
variable {α : Type}

/-- A vector of 128 entries cast to a column reads, at `(a, u)`, the entry `a`. -/
theorem shapeCast_col_apply (v : S128.Idx → α) (h : S128.ShapeCasts S128x1) (a : Fin 128) (u : Fin 1) :
    shapeCast S128x1 v h (ix2 a u) = v (ix1 a) :=
  shapeCast_apply v h _ _ (by
    have hu : u.val = 0 := by omega
    rw [Shape.rowMajor_val_two, Shape.rowMajor_val_one]
    show a.val = a.val * 1 + u.val
    rw [hu, Nat.mul_one, Nat.add_zero])

/-- A column broadcast along the rows reads, at `(a, b)`, the column's entry `a`. -/
theorem broadcastTo_col_apply (v : S128x1.Idx → α) (h : S128x1.Broadcasts S128x1024) (a : Fin 128) (b : Fin 1024) :
    broadcastTo S128x1024 v h (ix2 a b) = v (ix2 a (0 : Fin 1)) := by
  refine broadcastTo_apply v h (ix2 a b) (ix2 a (0 : Fin 1)) fun ax => ?_
  match ax with
  | ⟨0, _⟩ => rfl
  | ⟨1, _⟩ => rfl

/-- A row broadcast down the rows reads, at `(a, b)`, the row's entry `b`. -/
theorem broadcastTo_row_apply (v : S1x1024.Idx → α) (h : S1x1024.Broadcasts S128x1024) (a : Fin 128) (b : Fin 1024) :
    broadcastTo S128x1024 v h (ix2 a b) = v (ix2 (0 : Fin 1) b) :=
  broadcastTo_1b_ab_apply v h a b

end Layout

/-- The sum along a row of the tile's block. -/
theorem rowSum_apply (src : FVec Ideal S128x256 .f32) (h : S128x256.Reduces [1] S128) (hφ : FKind.Formats .f32)
    (hacc : (0x00000000#32 : BitVec 32) = 0x00000000#32) (a : Fin 128) :
    multiReduction (F := Ideal) .add [1] S128 src 0x00000000#32 h hφ hacc (ix1 a) = ∑ c : Fin 256, src (ix2 a c) := by
  refine (Ideal.multiReduction_add_single src 0x00000000#32 h hφ hacc (ix1 a)).trans ?_
  refine Finset.sum_congr rfl fun c _ => congrArg src (funext fun ax => Fin.ext ?_)
  match ax with
  | ⟨0, _⟩ => rfl
  | ⟨1, _⟩ => rfl

/-! ## The product of the two blocks, contracted over the columns -/

/-- Axis 0 of the left operand is the result's row. -/
theorem lhs_dot_0 (i : S128x1024.Idx) (q : dot_S128x256_S1024x256_S128x1024_1_1_0_0_n_n.contr.Idx) :
    (dot_S128x256_S1024x256_S128x1024_1_1_0_0_n_n.lhsIdx i q 0).val = (i 0).val := by
  unfold DotDims.lhsIdx
  rw [dif_neg (show ¬(0 : Fin S128x256.rank) ∈ dot_S128x256_S1024x256_S128x1024_1_1_0_0_n_n.lhsBatch by decide),
    dif_pos (show (0 : Fin S128x256.rank) ∈ dot_S128x256_S1024x256_S128x1024_1_1_0_0_n_n.lhsNonContracting by decide)]
  rfl

/-- Axis 1 of the left operand is the contracted column. -/
theorem lhs_dot_1 (i : S128x1024.Idx) (q : dot_S128x256_S1024x256_S128x1024_1_1_0_0_n_n.contr.Idx) :
    (dot_S128x256_S1024x256_S128x1024_1_1_0_0_n_n.lhsIdx i q 1).val = (q ⟨0, by decide⟩).val :=
  dot_S128x256_S1024x256_S128x1024_1_1_0_0_n_n.lhsIdx_val_of_single rfl i q

/-- Axis 0 of the right operand is the result's column. -/
theorem rhs_dot_0 (i : S128x1024.Idx) (q : dot_S128x256_S1024x256_S128x1024_1_1_0_0_n_n.contr.Idx) :
    (dot_S128x256_S1024x256_S128x1024_1_1_0_0_n_n.rhsIdx i q 0).val = (i 1).val := by
  unfold DotDims.rhsIdx
  rw [dif_neg (show ¬(0 : Fin S1024x256.rank) ∈ dot_S128x256_S1024x256_S128x1024_1_1_0_0_n_n.rhsBatch by decide),
    dif_pos (show (0 : Fin S1024x256.rank) ∈ dot_S128x256_S1024x256_S128x1024_1_1_0_0_n_n.rhsNonContracting by decide)]
  rfl

/-- Axis 1 of the right operand is the contracted column. -/
theorem rhs_dot_1 (i : S128x1024.Idx) (q : dot_S128x256_S1024x256_S128x1024_1_1_0_0_n_n.contr.Idx) :
    (dot_S128x256_S1024x256_S128x1024_1_1_0_0_n_n.rhsIdx i q 1).val = (q ⟨0, by decide⟩).val :=
  dot_S128x256_S1024x256_S128x1024_1_1_0_0_n_n.rhsIdx_val_of_single rfl i q

/-- The product into the zero accumulator reads, at `(a, b)`, the sum over the columns of the products of row `a` of the
    left block and row `b` of the right block. -/
theorem dot_apply {φ₁ φ₂ : FTy} (l : FVec Ideal S128x256 φ₁) (r : FVec Ideal S1024x256 φ₂) (a : Fin 128) (b : Fin 1024) :
    matmul (F := Ideal) dot_S128x256_S1024x256_S128x1024_1_1_0_0_n_n none l r (constant (F := Ideal) S128x1024 .f32 0x00000000#32) (ix2 a b)
      = ∑ c : Fin 256, l (ix2 a c) * r (ix2 b c) := by
  simp only [matmul]
  rw [Ideal.matmul_constant_zero_apply,
    ← Equiv.sum_comp (contrEquiv1 dot_S128x256_S1024x256_S128x1024_1_1_0_0_n_n 256 rfl rfl).symm]
  refine Finset.sum_congr rfl fun k _ => ?_
  have hk := contrEquiv1_symm_val dot_S128x256_S1024x256_S128x1024_1_1_0_0_n_n 256 rfl rfl k
  have el : dot_S128x256_S1024x256_S128x1024_1_1_0_0_n_n.lhsIdx (ix2 a b)
      ((contrEquiv1 dot_S128x256_S1024x256_S128x1024_1_1_0_0_n_n 256 rfl rfl).symm k) = ix2 a k :=
    funext fun ax => Fin.ext (by
      match ax with
      | ⟨0, _⟩ => exact lhs_dot_0 _ _
      | ⟨1, _⟩ => exact (lhs_dot_1 _ _).trans hk)
  have er : dot_S128x256_S1024x256_S128x1024_1_1_0_0_n_n.rhsIdx (ix2 a b)
      ((contrEquiv1 dot_S128x256_S1024x256_S128x1024_1_1_0_0_n_n 256 rfl rfl).symm k) = ix2 b k :=
    funext fun ax => Fin.ext (by
      match ax with
      | ⟨0, _⟩ => exact rhs_dot_0 _ _
      | ⟨1, _⟩ => exact (rhs_dot_1 _ _).trans hk)
  rw [el, er]

/-! ## The tile at an index -/

/-- The tile at `(a, b)`, in the entries of the blocks it is made of. -/
theorem pay3_apply (v5 : Vec Ideal S128x256 .f32) (v6 : Vec Ideal S1024x256 .f32) (v12 v14 : Vec Ideal S1x1024 .f32)
    (a : Fin 128) (b : Fin 1024) :
    k0_pay3 (F := Ideal) v5 v6 v12 v14 (ix2 a b)
      = max (((((∑ c : Fin 256, v5 (ix2 a c) * v5 (ix2 a c)) + v12 (ix2 (0 : Fin 1) b))
              - Ideal.ofBits .f32 0x40000000#32 * ∑ c : Fin 256, v5 (ix2 a c) * v6 (ix2 b c))
            + Ideal.ofBits .f32 0x360637BD#32 * (v14 (ix2 (0 : Fin 1) b) - ∑ c : Fin 256, v5 (ix2 a c)))
          + Named.named (F := Ideal) Cert.KernelIdeal.κ "c_eps_sq" (φ := .f32) 0x2F8CBCCC#32)
        (Ideal.ofBits .f32 0x00000000#32) := by
  unfold k0_pay3
  simp only [maximumf_apply, addf_apply, subf_apply, mulf_apply, broadcast_apply]
  rw [broadcastTo_col_apply, broadcastTo_col_apply, broadcastTo_row_apply, broadcastTo_row_apply,
    shapeCast_col_apply, shapeCast_col_apply, shapeCast_self, shapeCast_self, rowSum_apply, rowSum_apply, dot_apply]
  rfl

/-! ## The algebra, in the reals -/

/-- The square of the shifted difference of two rows, summed over 256 columns, expanded. -/
theorem dist_expand (p q : Fin 256 → ℝ) (e : ℝ) :
    ∑ c : Fin 256, (q c - p c + e) * (q c - p c + e)
      = ((((∑ c : Fin 256, p c * p c) + ∑ c : Fin 256, q c * q c) - 2 * ∑ c : Fin 256, p c * q c)
          + 2 * e * ((∑ c : Fin 256, q c) - ∑ c : Fin 256, p c)) + 256 * (e * e) := by
  have hterm : ∀ c : Fin 256, (q c - p c + e) * (q c - p c + e)
      = (((p c * p c + q c * q c) - 2 * (p c * q c)) + 2 * e * (q c - p c)) + e * e := fun c => by ring
  rw [Finset.sum_congr rfl fun c _ => hterm c]
  simp only [Finset.sum_add_distrib, Finset.sum_sub_distrib, ← Finset.mul_sum, Finset.sum_const, Finset.card_univ,
    Fintype.card_fin, nsmul_eq_mul]
  push_cast
  ring

/-! ## The tile is the squared distance -/

/-- With every entry of the matrix real, the squared distance of two rows is a nonnegative real. -/
theorem dist2_real (x : Cert.Spec.SX.Idx → EReal) (hx : ∀ i, ∃ r : ℝ, x i = (r : EReal)) (i j : Fin 1024) :
    ∃ r : ℝ, 0 ≤ r ∧ Cert.Spec.dist2 x i j = (r : EReal) := by
  obtain ⟨r, hr⟩ : ∃ r : Cert.Spec.SX.Idx → ℝ, ∀ i, x i = ((r i : ℝ) : EReal) :=
    ⟨fun i => (hx i).choose, fun i => (hx i).choose_spec⟩
  refine ⟨∑ c : Fin 256, (r (ix2 j c) - r (ix2 i c) + 8796093 / 8796093022208) * (r (ix2 j c) - r (ix2 i c) + 8796093 / 8796093022208),
    Finset.sum_nonneg fun c _ => mul_self_nonneg _, ?_⟩
  unfold Cert.Spec.dist2
  rw [coe_sum, eps_eq]
  refine Finset.sum_congr rfl fun c _ => ?_
  rw [hr, hr, EReal.coe_mul, EReal.coe_add, EReal.coe_sub]

/-- The kernel's squared-distance tile is the specification's squared distance: at `(a, b)` of tile `t`, the distance
    from row `128 t + a` to row `b`.  `v5` is the tile's 128 rows, `v6` the whole matrix, `v12` and `v14` every row's
    sum of squares and sum. -/
theorem pay3_eq (x : Cert.Spec.SX.Idx → EReal) (hx : ∀ i, ∃ r : ℝ, x i = (r : EReal)) (t : Fin 8)
    (v5 : Vec Ideal S128x256 .f32) (v6 : Vec Ideal S1024x256 .f32) (v12 v14 : Vec Ideal S1x1024 .f32)
    (h5 : ∀ (a : Fin 128) (c : Fin 256), v5 (ix2 a c) = x (ix2 (⟨128 * t.val + a.val, by omega⟩ : Fin 1024) c))
    (h6 : ∀ (b : Fin 1024) (c : Fin 256), v6 (ix2 b c) = x (ix2 b c))
    (h12 : ∀ b : Fin 1024, v12 (ix2 (0 : Fin 1) b) = ∑ c : Fin 256, x (ix2 b c) * x (ix2 b c))
    (h14 : ∀ b : Fin 1024, v14 (ix2 (0 : Fin 1) b) = ∑ c : Fin 256, x (ix2 b c))
    (a : Fin 128) (b : Fin 1024) :
    k0_pay3 (F := Ideal) v5 v6 v12 v14 (ix2 a b)
      = Cert.Spec.dist2 x (⟨128 * t.val + a.val, by omega⟩ : Fin 1024) b := by
  obtain ⟨r, hr⟩ : ∃ r : Cert.Spec.SX.Idx → ℝ, ∀ i, x i = ((r i : ℝ) : EReal) :=
    ⟨fun i => (hx i).choose, fun i => (hx i).choose_spec⟩
  -- the two rows, as real vectors
  obtain ⟨p, hp⟩ : ∃ p : Fin 256 → ℝ, ∀ c, p c = r (ix2 (⟨128 * t.val + a.val, by omega⟩ : Fin 1024) c) := ⟨_, fun _ => rfl⟩
  obtain ⟨q, hq⟩ : ∃ q : Fin 256 → ℝ, ∀ c, q c = r (ix2 b c) := ⟨_, fun _ => rfl⟩
  have e5 : ∀ c, v5 (ix2 a c) = ((p c : ℝ) : EReal) := fun c => by rw [hp]; exact (h5 a c).trans (hr _)
  have e6 : ∀ c, v6 (ix2 b c) = ((q c : ℝ) : EReal) := fun c => by rw [hq]; exact (h6 b c).trans (hr _)
  have ex : ∀ c, x (ix2 b c) = ((q c : ℝ) : EReal) := fun c => by rw [hq]; exact hr _
  have s1 : (∑ c : Fin 256, v5 (ix2 a c) * v5 (ix2 a c)) = ((∑ c : Fin 256, p c * p c : ℝ) : EReal) := by
    rw [coe_sum]; exact Finset.sum_congr rfl fun c _ => by rw [e5, EReal.coe_mul]
  have s2 : v12 (ix2 (0 : Fin 1) b) = ((∑ c : Fin 256, q c * q c : ℝ) : EReal) := by
    rw [h12, coe_sum]; exact Finset.sum_congr rfl fun c _ => by rw [ex, EReal.coe_mul]
  have s3 : (∑ c : Fin 256, v5 (ix2 a c) * v6 (ix2 b c)) = ((∑ c : Fin 256, p c * q c : ℝ) : EReal) := by
    rw [coe_sum]; exact Finset.sum_congr rfl fun c _ => by rw [e5, e6, EReal.coe_mul]
  have s4 : v14 (ix2 (0 : Fin 1) b) = ((∑ c : Fin 256, q c : ℝ) : EReal) := by
    rw [h14, coe_sum]; exact Finset.sum_congr rfl fun c _ => ex c
  have s5 : (∑ c : Fin 256, v5 (ix2 a c)) = ((∑ c : Fin 256, p c : ℝ) : EReal) := by
    rw [coe_sum]; exact Finset.sum_congr rfl fun c _ => e5 c
  have hd : Cert.Spec.dist2 x (⟨128 * t.val + a.val, by omega⟩ : Fin 1024) b
      = ((∑ c : Fin 256, (q c - p c + 8796093 / 8796093022208) * (q c - p c + 8796093 / 8796093022208) : ℝ) : EReal) := by
    unfold Cert.Spec.dist2
    rw [coe_sum, eps_eq]
    refine Finset.sum_congr rfl fun c _ => ?_
    rw [hr, hr, hp, hq, EReal.coe_mul, EReal.coe_add, EReal.coe_sub]
  rw [pay3_apply, s1, s2, s3, s4, s5, two_eq, two_eps_eq, c_eps_sq_eq, Ideal.ofBits_zero_f32, hd]
  simp only [← EReal.coe_add, ← EReal.coe_mul, ← EReal.coe_sub]
  have hreal : ((((∑ c : Fin 256, p c * p c) + ∑ c : Fin 256, q c * q c) - 2 * ∑ c : Fin 256, p c * q c)
        + 2 * (8796093 / 8796093022208) * ((∑ c : Fin 256, q c) - ∑ c : Fin 256, p c))
        + 77371252064649 / 302231454903657293676544
      = ∑ c : Fin 256, (q c - p c + 8796093 / 8796093022208) * (q c - p c + 8796093 / 8796093022208) := by
    rw [dist_expand]; ring
  rw [hreal]
  exact max_eq_left (EReal.coe_nonneg.mpr (Finset.sum_nonneg fun c _ => mul_self_nonneg _))

/-- The squared distance of any two rows is a nonnegative real (the statement beside `pay3_eq`, over the same data). -/
theorem pay3_real (x : Cert.Spec.SX.Idx → EReal) (hx : ∀ i, ∃ r : ℝ, x i = (r : EReal)) (t : Fin 8)
    (v5 : Vec Ideal S128x256 .f32) (v6 : Vec Ideal S1024x256 .f32) (v12 v14 : Vec Ideal S1x1024 .f32)
    (h5 : ∀ (a : Fin 128) (c : Fin 256), v5 (ix2 a c) = x (ix2 (⟨128 * t.val + a.val, by omega⟩ : Fin 1024) c))
    (h6 : ∀ (b : Fin 1024) (c : Fin 256), v6 (ix2 b c) = x (ix2 b c))
    (h12 : ∀ b : Fin 1024, v12 (ix2 (0 : Fin 1) b) = ∑ c : Fin 256, x (ix2 b c) * x (ix2 b c))
    (h14 : ∀ b : Fin 1024, v14 (ix2 (0 : Fin 1) b) = ∑ c : Fin 256, x (ix2 b c))
    (i j : Fin 1024) :
    ∃ r : ℝ, 0 ≤ r ∧ Cert.Spec.dist2 x i j = (r : EReal) :=
  dist2_real x hx i j

end Cert.KernelIdeal.DistValue

end
-- ==== Proof.TileValue.lean ====
/-
  The accumulator update of the idealized kernel at one grid point, read at the exact (extended real) values:
  the new accumulator is the old one plus the sum, over the 128 rows of the tile and all 1024 rows, of what each pair contributes.
-/
import proofs.«175114_j50955491999905_1_alg».proof.Proof.Gen.KernelIdeal.Skeleton
import proofs.«175114_j50955491999905_1_alg».proof.Proof.Spec
import Idealize.ShloMosaic.PureOps.Ideal.Laws
import Idealize.ShloMosaic.Lib.ValueIdx
import Idealize.ShloMosaic.Lib.ValueLayout
import Idealize.ShloMosaic.Lib.WordArith
import Idealize.ShloMosaic.Lib.Pipeline.Value

noncomputable section

open scoped BigOperators

namespace Cert.KernelIdeal.TileValue

open Cert.KernelIdeal Cert.KernelIdeal.Gen Cert.Spec Idealize.ShloMosaic Idealize.ShloMosaic.ValueIdx
open Idealize.ShloMosaic.WordArith

/-! ## The two float literals -/

/-- The single-precision word of 1.0 is the number one. -/
theorem ofBits_one_f32 : Ideal.ofBits .f32 0x3F800000#32 = 1 := by
  simp [Ideal.ofBits, Ideal.ieee]
  norm_cast
  norm_num

/-! ## Layout operations at an index -/

section Layout
variable {α : Type}

/-- A vector of 128 entries viewed as a column reads, at (a, u), the entry a. -/
theorem cast_col_apply (v : S128.Idx → α) (h : S128.ShapeCasts S128x1) (a : Fin 128) (u : Fin 1) :
    shapeCast S128x1 v h (ix2 a u) = v (ix1 a) :=
  shapeCast_apply v h _ _ (by
    have hu : u.val = 0 := by omega
    rw [Shape.rowMajor_val_two, Shape.rowMajor_val_one]
    show a.val = a.val * 1 + u.val
    rw [hu, Nat.mul_one, Nat.add_zero])

/-- A one-entry vector viewed as a 1x1 matrix reads its entry. -/
theorem cast_one_apply (v : S1.Idx → α) (h : S1.ShapeCasts S1x1) (u w : Fin 1) :
    shapeCast S1x1 v h (ix2 u w) = v (ix1 w) :=
  shapeCast_a_1a_apply v h u w

/-- A column broadcast along the rows reads, at (a, b), the column's entry a. -/
theorem bcast_col_apply (v : S128x1.Idx → α) (h : S128x1.Broadcasts S128x1024) (a : Fin 128) (b : Fin 1024) :
    broadcastTo S128x1024 v h (ix2 a b) = v (ix2 a (0 : Fin 1)) := by
  refine broadcastTo_apply v h (ix2 a b) (ix2 a (0 : Fin 1)) fun ax => ?_
  match ax with
  | ⟨0, _⟩ => rfl
  | ⟨1, _⟩ => rfl

/-- A row broadcast down the columns reads, at (a, b), the row's entry b. -/
theorem bcast_row_apply (v : S1x1024.Idx → α) (h : S1x1024.Broadcasts S128x1024) (a : Fin 128) (b : Fin 1024) :
    broadcastTo S128x1024 v h (ix2 a b) = v (ix2 (0 : Fin 1) b) :=
  broadcastTo_1b_ab_apply v h a b

end Layout

/-- Over a row index a, the index of the 128x1024 block with column b inserted is (a, b). -/
theorem lift_row (h : S128x1024.Reduces [1] S128) (a : Fin 128) (b : Fin 1024) :
    h.lift (ix1 a) b = ix2 a b := by
  funext c
  match c with
  | ⟨0, _⟩ => exact Fin.ext rfl
  | ⟨1, _⟩ => exact Fin.ext rfl

/-- Over the one index of a one-entry vector, the index of the column with row a inserted is (a, 0). -/
theorem lift_col (h : S128x1.Reduces [0] S1) (u : Fin 1) (a : Fin 128) :
    h.lift (ix1 u) a = ix2 a u := by
  funext c
  match c with
  | ⟨0, _⟩ => exact Fin.ext rfl
  | ⟨1, _⟩ => exact Fin.ext rfl

/-! ## The masks -/

/-- Flipping a comparison's bit negates the comparison. -/
theorem xori_ofBool_one (p : Bool) : IntOp.xori (BitVec.ofBool p) 1#1 = BitVec.ofBool (!p) := by
  cases p <;> rfl

/-- A select on a comparison's bit is the if-then-else on the comparison. -/
theorem select_ofBool {α : Type} (p : Bool) (x y : α) :
    Scalar.select (BitVec.ofBool p) x y = if p = true then x else y := by
  cases p <;> rfl

/-- The row number 128 t + a, computed on 32-bit words, equals the column number b as words exactly when it does as
    numbers: both are below 1024, so nothing wraps. -/
theorem row_word_eq_iff (v1 : BitVec 32) (t : Fin 8) (hv1 : v1.toNat = 128 * t.val) (a : Fin 128) (b : Fin 1024) :
    IntOp.addi v1 (BitVec.ofNat 32 a.val) = BitVec.ofNat 32 b.val ↔ 128 * t.val + a.val = b.val := by
  have ht := t.isLt
  have ha := a.isLt
  have hb := b.isLt
  rw [← BitVec.toNat_inj]
  show (v1 + BitVec.ofNat 32 a.val).toNat = (BitVec.ofNat 32 b.val).toNat ↔ _
  rw [BitVec.toNat_add, BitVec.toNat_ofNat, BitVec.toNat_ofNat, hv1]
  omega

/-- The kernel's weight of a pair with equal labels is the specification's. -/
theorem same_weight_eq (lab : SLab.Idx → BitVec 32) (t : Fin 8) (v1 : BitVec 32) (hv1 : v1.toNat = 128 * t.val)
    (a : Fin 128) (b : Fin 1024) :
    Scalar.select
        (IntOp.andi (IntOp.cmpi .eq (lab (ix1 (⟨128 * t.val + a.val, by omega⟩ : Fin 1024))) (lab (ix1 b)))
          (IntOp.cmpi .ne (IntOp.addi v1 (BitVec.ofNat 32 a.val)) (BitVec.ofNat 32 b.val)))
        (Ideal.ofBits .f32 0x3F800000#32) (Ideal.ofBits .f32 0x00000000#32)
      = sameW lab (⟨128 * t.val + a.val, by omega⟩ : Fin 1024) b := by
  unfold sameW
  rw [ofBits_one_f32, Ideal.ofBits_zero_f32]
  simp only [IntOp.cmpi]
  rw [andi_ofBool, select_ofBool]
  refine if_congr ?_ rfl rfl
  rw [Bool.and_eq_true, beq_iff_eq, bne_iff_ne, Ne, row_word_eq_iff v1 t hv1 a b]
  constructor
  · rintro ⟨h1, h2⟩
    exact ⟨h1.symm, fun e => h2 (by rw [e])⟩
  · rintro ⟨h1, h2⟩
    exact ⟨h1.symm, fun e => h2 (Fin.ext e.symm)⟩

/-- The kernel's weight of a pair with different labels is the specification's. -/
theorem diff_weight_eq (lab : SLab.Idx → BitVec 32) (t : Fin 8) (v1 : BitVec 32) (hv1 : v1.toNat = 128 * t.val)
    (a : Fin 128) (b : Fin 1024) :
    Scalar.select
        (IntOp.andi
          (IntOp.xori (IntOp.cmpi .eq (lab (ix1 (⟨128 * t.val + a.val, by omega⟩ : Fin 1024))) (lab (ix1 b))) 1#1)
          (IntOp.cmpi .ne (IntOp.addi v1 (BitVec.ofNat 32 a.val)) (BitVec.ofNat 32 b.val)))
        (Ideal.ofBits .f32 0x3F800000#32) (Ideal.ofBits .f32 0x00000000#32)
      = diffW lab (⟨128 * t.val + a.val, by omega⟩ : Fin 1024) b := by
  unfold diffW
  rw [ofBits_one_f32, Ideal.ofBits_zero_f32]
  simp only [IntOp.cmpi]
  rw [xori_ofBool_one, andi_ofBool, select_ofBool]
  refine if_congr ?_ rfl rfl
  rw [Bool.and_eq_true, Bool.not_eq_true', beq_eq_false_iff_ne, bne_iff_ne, Ne, Ne, row_word_eq_iff v1 t hv1 a b]
  constructor
  · rintro ⟨h1, h2⟩
    exact ⟨fun e => h1 e.symm, fun e => h2 (by rw [e])⟩
  · rintro ⟨h1, h2⟩
    exact ⟨fun e => h1 e.symm, fun e => h2 (Fin.ext e.symm)⟩

/-! ## The pointwise word operations, the coordinate vectors and a float literal at an index -/

section Words
variable {s : Shape} {w : Nat}

theorem cmpi_apply (p : CmpIPredicate) (x y : IVec s w) (i : s.Idx) : cmpi p x y i = IntOp.cmpi p (x i) (y i) := rfl

theorem andi_apply (x y : IVec s w) (i : s.Idx) : andi x y i = IntOp.andi (x i) (y i) := rfl

theorem xori_apply (x y : IVec s w) (i : s.Idx) : xori x y i = IntOp.xori (x i) (y i) := rfl

theorem addi_apply (x y : IVec s w) (i : s.Idx) : addi x y i = IntOp.addi (x i) (y i) := rfl

end Words

/-- The vector of row numbers reads, at (a, b), the word of a. -/
theorem iota_row_apply (h : S128x1024.Iotas .tc 32 [0]) (a : Fin 128) (b : Fin 1024) :
    iota .tc S128x1024 32 [0] h (ix2 a b) = BitVec.ofNat 32 a.val :=
  iota_single_apply .tc S128x1024 32 0 h (ix2 a b)

/-- The vector of column numbers reads, at (a, b), the word of b. -/
theorem iota_col_apply (h : S128x1024.Iotas .tc 32 [1]) (a : Fin 128) (b : Fin 1024) :
    iota .tc S128x1024 32 [1] h (ix2 a b) = BitVec.ofNat 32 b.val :=
  iota_single_apply .tc S128x1024 32 1 h (ix2 a b)

/-- A float literal, at the exact values, is the number its word denotes. -/
theorem scalar_ofBits_f32 (b : BitVec 32) : (Scalar.ofBits .f32 b : Ideal .f32) = Ideal.ofBits .f32 b := rfl

/-! ## The square of a square root -/

/-- For a real d ≥ 0 the square root of d times itself is d. -/
theorem sqrt_mul_self_of_real {d : EReal} (hd : ∃ r : ℝ, 0 ≤ r ∧ d = (r : EReal)) :
    Ideal.sqrt d * Ideal.sqrt d = d := by
  obtain ⟨r, hr, rfl⟩ := hd
  rw [Ideal.sqrt_coe, if_neg (not_lt.2 hr), ← EReal.coe_mul, Real.mul_self_sqrt hr]

/-! ## The two sums -/

/-- The accumulator plus the sum over the columns, then over the rows, of a 128x1024 block. -/
theorem total_eq (w : FVec Ideal S128x1024 .f32) (v70 : Vec Ideal S1x1 .f32)
    (hr1 : S128x1024.Reduces [1] S128) (hc1 : S128.ShapeCasts S128x1) (hr0 : S128x1.Reduces [0] S1)
    (hc0 : S1.ShapeCasts S1x1) (hs : S1x1.ShapeCasts S1x1) (hφ : FKind.Formats .f32)
    (hacc : (0x00000000#32 : BitVec 32) = 0x00000000#32) :
    shapeCast S1x1
        (addf v70
          (shapeCast S1x1
            (multiReduction (F := Ideal) .add [0] S1
              (shapeCast S128x1 (multiReduction (F := Ideal) .add [1] S128 w 0x00000000#32 hr1 hφ hacc) hc1)
              0x00000000#32 hr0 hφ hacc) hc0)) hs (ix2 (0 : Fin 1) (0 : Fin 1))
      = v70 (ix2 (0 : Fin 1) (0 : Fin 1)) + ∑ a : Fin 128, ∑ b : Fin 1024, w (ix2 a b) := by
  rw [shapeCast_self, addf_apply, cast_one_apply]
  refine congrArg (fun z => v70 (ix2 (0 : Fin 1) (0 : Fin 1)) + z) ?_
  refine (Ideal.multiReduction_add_single _ 0x00000000#32 hr0 hφ hacc (ix1 (0 : Fin 1))).trans ?_
  refine Finset.sum_congr rfl fun (a : Fin 128) _ => ?_
  refine (congrArg (shapeCast S128x1 _ hc1) (lift_col hr0 (0 : Fin 1) a)).trans ?_
  refine (cast_col_apply _ hc1 a (0 : Fin 1)).trans ?_
  refine (Ideal.multiReduction_add_single w 0x00000000#32 hr1 hφ hacc (ix1 a)).trans ?_
  refine Finset.sum_congr rfl fun (b : Fin 1024) _ => ?_
  exact congrArg w (lift_row hr1 a b)

/-! ## What one pair contributes -/

/-- Every index of a 1x1 matrix is (0, 0). -/
theorem idx11_eq (i : S1x1.Idx) : i = ix2 (0 : Fin 1) (0 : Fin 1) := by
  have h0 := idx2_lt0 i
  have h1 := idx2_lt1 i
  funext c
  match c with
  | ⟨0, _⟩ => exact Fin.ext (by show (i 0).val = 0; omega)
  | ⟨1, _⟩ => exact Fin.ext (by show (i 1).val = 0; omega)

/-- The kernel's summand at (a, b), the masks read as words, is the specification's contribution of the pair
    (128 t + a, b): the squared distance is the square of its root because it is a non-negative real. -/
theorem summand_eq (x : SX.Idx → EReal) (lab : SLab.Idx → BitVec 32) (t : Fin 8)
    (hd : ∀ i j : Fin 1024, ∃ r : ℝ, 0 ≤ r ∧ dist2 x i j = (r : EReal))
    (v1 : BitVec 32) (hv1 : v1.toNat = 128 * t.val)
    (P3 P4 : FVec Ideal S128x1024 .f32)
    (hP3 : ∀ (a : Fin 128) (b : Fin 1024), P3 (ix2 a b) = dist2 x (⟨128 * t.val + a.val, by omega⟩ : Fin 1024) b)
    (hP4 : ∀ (a : Fin 128) (b : Fin 1024),
      P4 (ix2 a b) = 1 - Ideal.sqrt (dist2 x (⟨128 * t.val + a.val, by omega⟩ : Fin 1024) b))
    (v41 : Vec Ideal S128x1 .i32) (v43 : Vec Ideal S1x1024 .i32)
    (h41 : ∀ a : Fin 128, v41 (ix2 a (0 : Fin 1)) = lab (ix1 (⟨128 * t.val + a.val, by omega⟩ : Fin 1024)))
    (h43 : ∀ b : Fin 1024, v43 (ix2 (0 : Fin 1) b) = lab (ix1 b)) (a : Fin 128) (b : Fin 1024) :
    P3 (ix2 a b) *
          Scalar.select
            (IntOp.andi (IntOp.cmpi .eq (v41 (ix2 a (0 : Fin 1))) (v43 (ix2 (0 : Fin 1) b)))
              (IntOp.cmpi .ne (IntOp.addi v1 (BitVec.ofNat 32 a.val)) (BitVec.ofNat 32 b.val)))
            (Ideal.ofBits .f32 0x3F800000#32) (Ideal.ofBits .f32 0x00000000#32)
        + max (P4 (ix2 a b)) (Ideal.ofBits .f32 0x00000000#32) * max (P4 (ix2 a b)) (Ideal.ofBits .f32 0x00000000#32) *
          Scalar.select
            (IntOp.andi (IntOp.xori (IntOp.cmpi .eq (v41 (ix2 a (0 : Fin 1))) (v43 (ix2 (0 : Fin 1) b))) 1#1)
              (IntOp.cmpi .ne (IntOp.addi v1 (BitVec.ofNat 32 a.val)) (BitVec.ofNat 32 b.val)))
            (Ideal.ofBits .f32 0x3F800000#32) (Ideal.ofBits .f32 0x00000000#32)
      = pairLoss x lab (⟨128 * t.val + a.val, by omega⟩ : Fin 1024) b := by
  rw [h41, h43, hP3, hP4, same_weight_eq lab t v1 hv1 a b, diff_weight_eq lab t v1 hv1 a b, Ideal.ofBits_zero_f32]
  unfold pairLoss
  rw [sqrt_mul_self_of_real (hd _ _)]

/-! ## The accumulator update -/

/-- The new accumulator is the old one plus what the tile's 128 rows contribute against every row. -/
theorem pay1_eq (x : Cert.Spec.SX.Idx → EReal) (lab : Cert.Spec.SLab.Idx → BitVec 32) (t : Fin 8)
    (hd : ∀ i j : Fin 1024, ∃ r : ℝ, 0 ≤ r ∧ Cert.Spec.dist2 x i j = (r : EReal))
    (v1 : BitVec 32) (hv1 : v1.toNat = 128 * t.val)
    (P3 P4 : FVec Ideal S128x1024 .f32)
    (hP3 : ∀ (a : Fin 128) (b : Fin 1024),
      P3 (ix2 a b) = Cert.Spec.dist2 x (⟨128 * t.val + a.val, by omega⟩ : Fin 1024) b)
    (hP4 : ∀ (a : Fin 128) (b : Fin 1024),
      P4 (ix2 a b) = 1 - Ideal.sqrt (Cert.Spec.dist2 x (⟨128 * t.val + a.val, by omega⟩ : Fin 1024) b))
    (v41 : Vec Ideal S128x1 .i32) (v43 : Vec Ideal S1x1024 .i32) (v70 : Vec Ideal S1x1 .f32)
    (h41 : ∀ a : Fin 128, v41 (ix2 a (0 : Fin 1)) = lab (ix1 (⟨128 * t.val + a.val, by omega⟩ : Fin 1024)))
    (h43 : ∀ b : Fin 1024, v43 (ix2 (0 : Fin 1) b) = lab (ix1 b)) :
    k0_pay1 (F := Ideal) v1 P3 P4 (Scalar.ofBits .f32 0x00000000#32) v41 v43 v70
      = fun _ => v70 (ix2 (0 : Fin 1) (0 : Fin 1)) + Cert.Spec.tileLoss x lab t := by
  funext i
  show k0_pay1 (F := Ideal) v1 P3 P4 (Scalar.ofBits .f32 0x00000000#32) v41 v43 v70 i
    = v70 (ix2 (0 : Fin 1) (0 : Fin 1)) + tileLoss x lab t
  rw [idx11_eq i]
  unfold k0_pay1
  refine (total_eq _ v70 _ _ _ _ _ _ _).trans ?_
  refine congrArg (fun z => v70 (ix2 (0 : Fin 1) (0 : Fin 1)) + z) ?_
  unfold tileLoss
  refine Finset.sum_congr rfl fun a _ => Finset.sum_congr rfl fun b _ => ?_
  refine Eq.trans ?_ (summand_eq x lab t hd v1 hv1 P3 P4 hP3 hP4 v41 v43 h41 h43 a b)
  simp only [addf_apply, mulf_apply, maximumf_apply, select_apply, broadcast_apply, cmpi_apply, andi_apply,
    xori_apply, addi_apply, constantI_apply, shapeCast_self, bcast_col_apply, bcast_row_apply, scalar_ofBits_f32]
  rw [iota_row_apply iota_S128x1024_d0_w32 a b, iota_col_apply iota_S128x1024_d1_w32 a b]

end Cert.KernelIdeal.TileValue

end
-- ==== Proof.TileSum.lean ====
/-
  The eight tiles of 128 rows are the 1024 rows: the tiles' contributions add up to the sum over all ordered pairs,
  also when they are added one tile at a time from zero; and the denominator's word is the number of ordered pairs of distinct rows.
-/
import proofs.«175114_j50955491999905_1_alg».proof.Proof.Spec
import Idealize.ShloMosaic.PureOps.Ideal.Laws
import Mathlib.Algebra.BigOperators.Fin
import Mathlib.Algebra.BigOperators.Group.Finset.Basic
import Mathlib.Data.Fintype.BigOperators

noncomputable section

open scoped BigOperators

namespace Cert.KernelIdeal.TileSum

open Cert.Spec Idealize.ShloMosaic Idealize.ShloMosaic.ValueIdx

/-- A tile t and a row a inside it name the row 128 t + a; every row is named once (quotient and remainder by 128). -/
def tileRow : Fin 8 × Fin 128 ≃ Fin 1024 where
  toFun p := ⟨128 * p.1.val + p.2.val, by have := p.1.isLt; have := p.2.isLt; omega⟩
  invFun i := (⟨i.val / 128, by have := i.isLt; omega⟩, ⟨i.val % 128, by omega⟩)
  left_inv p := by
    have h1 := p.1.isLt
    have h2 := p.2.isLt
    refine Prod.ext (Fin.ext ?_) (Fin.ext ?_)
    · show (128 * p.1.val + p.2.val) / 128 = p.1.val
      omega
    · show (128 * p.1.val + p.2.val) % 128 = p.2.val
      omega
  right_inv i := Fin.ext (by
    show 128 * (i.val / 128) + i.val % 128 = i.val
    omega)

/-- The tiles' contributions add up to the sum over all ordered pairs. -/
theorem sum_tiles (x : Cert.Spec.SX.Idx → EReal) (lab : Cert.Spec.SLab.Idx → BitVec 32) :
    ∑ t : Fin 8, Cert.Spec.tileLoss x lab t = Cert.Spec.total x lab := by
  unfold total
  rw [← Equiv.sum_comp tileRow (fun i => ∑ j : Fin 1024, pairLoss x lab i j), Fintype.sum_prod_type]
  refine Finset.sum_congr rfl fun t _ => ?_
  unfold tileLoss
  exact Finset.sum_congr rfl fun a _ => rfl

/-- Added one tile at a time from zero, the tiles' contributions reach the sum over all ordered pairs at the eighth tile. -/
theorem acc_total (x : Cert.Spec.SX.Idx → EReal) (lab : Cert.Spec.SLab.Idx → BitVec 32) (f : ℕ → EReal)
    (h0 : f 0 = 0 + Cert.Spec.tileLoss x lab 0)
    (hs : ∀ n (hn : n + 1 < 8), f (n + 1) = f n + Cert.Spec.tileLoss x lab ⟨n + 1, hn⟩) :
    f 7 = Cert.Spec.total x lab := by
  have h1 : f 1 = f 0 + tileLoss x lab 1 := hs 0 (by omega)
  have h2 : f 2 = f 1 + tileLoss x lab 2 := hs 1 (by omega)
  have h3 : f 3 = f 2 + tileLoss x lab 3 := hs 2 (by omega)
  have h4 : f 4 = f 3 + tileLoss x lab 4 := hs 3 (by omega)
  have h5 : f 5 = f 4 + tileLoss x lab 5 := hs 4 (by omega)
  have h6 : f 6 = f 5 + tileLoss x lab 6 := hs 5 (by omega)
  have h7 : f 7 = f 6 + tileLoss x lab 7 := hs 6 (by omega)
  rw [← sum_tiles, Fin.sum_univ_eight, h7, h6, h5, h4, h3, h2, h1, h0, zero_add]

/-- The denominator's single-precision word is 1024 * 1023. -/
theorem den_eq : Idealize.ShloMosaic.Ideal.ofBits .f32 0x497FC000#32 = ((1047552 : ℝ) : EReal) := by
  simp [Ideal.ofBits, Ideal.ieee, -EReal.coe_mul]
  norm_num

end Cert.KernelIdeal.TileSum

end
-- ==== Proof.KernelValue.lean ====
/-
  The idealized kernel program's result is the specification.

  At each of the 8 grid points the body adds to its 1x1 accumulator the contributions of the point's 128 rows against all
  1024 rows (zeroing the accumulator first at point 0); at the last point it copies the accumulator into the 1x1 output
  block, which the pipeline writes back; the three host operations after the region reshape that entry to a scalar and
  divide it by 1024 * 1023. The per-point contribution is the specification's tileLoss because, for real entries,
  the kernel's expanded squared distance (sums of squares, a matrix product, row sums, and the two constants 2ε and
  256 ε²) is the specification's sum of squared shifted differences; the eight tiles are the 1024 rows.
-/
import proofs.«175114_j50955491999905_1_alg».proof.Proof.FrameRun
import proofs.«175114_j50955491999905_1_alg».proof.Proof.AccValue
import proofs.«175114_j50955491999905_1_alg».proof.Proof.BlockValue
import proofs.«175114_j50955491999905_1_alg».proof.Proof.OutValue
import proofs.«175114_j50955491999905_1_alg».proof.Proof.LabelRows
import proofs.«175114_j50955491999905_1_alg».proof.Proof.EntryValue
import proofs.«175114_j50955491999905_1_alg».proof.Proof.DistValue
import proofs.«175114_j50955491999905_1_alg».proof.Proof.TileValue
import proofs.«175114_j50955491999905_1_alg».proof.Proof.TileSum

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat BodyObligation)
open Cert.KernelIdeal.EntryValue (X Lab)

section AnyInstance

variable {F : FTy → Type} [FloatOps F] [Named F]
variable (m : (ℓ : Loc nD τ sig) → Buf (Elt F) ℓ)
variable (dats : (p : Fin 1) → (c : Dev nD) → Dat τ (Elt F) Unit ℕ (UR sig nD τ) ℕ (cfgs p) c)

/-- What the three host operations after the region leave in the result buffer: the output window's array, reshaped to a
    scalar, divided by the constant. -/
theorem endVal_result (c : Dev nD) :
    endVal m dats c (Proc.devRef .tc main_v9)
      = Host.divf (shapeCast S_ ((dats 0 c).arrAt 6 cfg0.N) shapeCasts_S1x1_S_) (constant S_ .f32 0x497FC000#32) := by
  unfold endVal
  simp only [hostOps1]
  after_results
  rw [exitVal_out]
  rfl

end AnyInstance

variable (m : (ℓ : Loc nD τ sig) → Buf (Elt Ideal) ℓ) (c : Dev nD)

/-- The tile of a grid point. -/
def tileOf (t : Fin cfg0.N) : Fin 8 := ⟨t.val, point_lt t⟩

/-- The accumulator's reset value is zero. -/
theorem pay2_zero : k0_pay2 (F := Ideal) (ix2 (0 : Fin 1) (0 : Fin 1)) = 0 := by
  unfold k0_pay2
  rw [shapeCast_self]
  exact Ideal.ofBits_zero_f32

/-- ONE POINT. With real entries, the body's update of the accumulator at grid point t adds the contributions of tile t. -/
theorem point_step (hx : ∀ i, ∃ r : ℝ, X m c i = (r : EReal)) (t : Fin cfg0.N) (prev : Vec Ideal S1x1 .f32) :
    k0_pay1 (F := Ideal) (Scalar.muli (BitVec.ofNat 32 ((grid0.coords t) 0).val) 128#32)
        (k0_pay3 (iblk m c 0 t) (iblk m c 1 t) (iblk m c 4 t) (iblk m c 5 t))
        (k0_pay4 (iblk m c 0 t) (iblk m c 1 t) (iblk m c 4 t) (iblk m c 5 t))
        (Scalar.ofBits .f32 0x00000000#32) (rowLabels (grid0.coords t) (iblk m c 2 t)) (iblk m c 3 t) prev
      = fun _ => prev (ix2 (0 : Fin 1) (0 : Fin 1)) + Cert.Spec.tileLoss (X m c) (Lab m c) (tileOf t) := by
  have h5 : ∀ (a : Fin 128) (k : Fin 256), (iblk m c 0 t : Vec Ideal S128x256 .f32) (ix2 a k)
      = X m c (ix2 (⟨128 * (tileOf t).val + a.val, by have := (tileOf t).isLt; omega⟩ : Fin 1024) k) :=
    fun a k => (blk0 m c t a k).trans (congrFun (V_main_arg0 m c) _)
  have h6 : ∀ (b : Fin 1024) (k : Fin 256), (iblk m c 1 t : Vec Ideal S1024x256 .f32) (ix2 b k) = X m c (ix2 b k) :=
    fun b k => (blk1 m c t b k).trans (congrFun (V_main_arg0 m c) _)
  have h12 : ∀ b : Fin 1024, (iblk m c 4 t : Vec Ideal S1x1024 .f32) (ix2 (0 : Fin 1) b) = ∑ k : Fin 256, X m c (ix2 b k) * X m c (ix2 b k) :=
    fun b => (blk4 m c t b).trans (Cert.KernelIdeal.EntryValue.V_sumsq m c b)
  have h14 : ∀ b : Fin 1024, (iblk m c 5 t : Vec Ideal S1x1024 .f32) (ix2 (0 : Fin 1) b) = ∑ k : Fin 256, X m c (ix2 b k) :=
    fun b => (blk5 m c t b).trans (Cert.KernelIdeal.EntryValue.V_rowsum m c b)
  have h41 : ∀ a : Fin 128, rowLabels (grid0.coords t) (iblk m c 2 t) (ix2 a (0 : Fin 1))
      = Lab m c (ix1 (⟨128 * (tileOf t).val + a.val, by have := (tileOf t).isLt; omega⟩ : Fin 1024)) :=
    fun a => (rowLabels_apply t (iblk m c 2 t) a).trans ((blk2 m c t _).trans (Cert.KernelIdeal.EntryValue.V_labcol m c _))
  have h43 : ∀ b : Fin 1024, (iblk m c 3 t : Vec Ideal S1x1024 .i32) (ix2 (0 : Fin 1) b) = Lab m c (ix1 b) :=
    fun b => (blk3 m c t b).trans (Cert.KernelIdeal.EntryValue.V_labrow m c b)
  have hP3 : ∀ (a : Fin 128) (b : Fin 1024), k0_pay3 (F := Ideal) (iblk m c 0 t) (iblk m c 1 t) (iblk m c 4 t) (iblk m c 5 t) (ix2 a b)
      = Cert.Spec.dist2 (X m c) (⟨128 * (tileOf t).val + a.val, by have := (tileOf t).isLt; omega⟩ : Fin 1024) b :=
    fun a b => Cert.KernelIdeal.DistValue.pay3_eq (X m c) hx (tileOf t) _ _ _ _ h5 h6 h12 h14 a b
  have hP4 : ∀ (a : Fin 128) (b : Fin 1024), k0_pay4 (F := Ideal) (iblk m c 0 t) (iblk m c 1 t) (iblk m c 4 t) (iblk m c 5 t) (ix2 a b)
      = 1 - Ideal.sqrt (Cert.Spec.dist2 (X m c) (⟨128 * (tileOf t).val + a.val, by have := (tileOf t).isLt; omega⟩ : Fin 1024) b) :=
    fun a b => by
      rw [← hP3 a b, ← Cert.KernelIdeal.TileValue.ofBits_one_f32]
      rfl
  exact Cert.KernelIdeal.TileValue.pay1_eq (X m c) (Lab m c) (tileOf t) (Cert.KernelIdeal.DistValue.dist2_real (X m c) hx)
    _ (v1_toNat t) _ _ hP3 hP4 _ _ prev h41 h43

/-- The accumulator after the last point holds the sum over all ordered pairs. -/
theorem acc_last_total (hx : ∀ i, ∃ r : ℝ, X m c i = (r : EReal)) (h7 : 7 < cfg0.N) :
    acc m c 7 h7 (ix2 (0 : Fin 1) (0 : Fin 1)) = Cert.Spec.total (X m c) (Lab m c) := by
  have hN : cfg0.N = 8 := N_0
  let f : ℕ → EReal := fun n => if h : n < cfg0.N then acc m c n h (ix2 (0 : Fin 1) (0 : Fin 1)) else 0
  have hf7 : f 7 = acc m c 7 h7 (ix2 (0 : Fin 1) (0 : Fin 1)) := dif_pos h7
  rw [← hf7]
  refine Cert.KernelIdeal.TileSum.acc_total (X m c) (Lab m c) f ?_ ?_
  · have h0 : 0 < cfg0.N := by omega
    show (if h : 0 < cfg0.N then acc m c 0 h (ix2 (0 : Fin 1) (0 : Fin 1)) else 0) = _
    rw [dif_pos h0, acc_zero m c h0, point_step m c hx ⟨0, h0⟩ (k0_pay2 (F := Ideal)), pay2_zero]
    rfl
  · intro n hn
    have h1 : n + 1 < cfg0.N := by omega
    have h0 : n < cfg0.N := by omega
    show (if h : n + 1 < cfg0.N then acc m c (n + 1) h (ix2 (0 : Fin 1) (0 : Fin 1)) else 0)
      = (if h : n < cfg0.N then acc m c n h (ix2 (0 : Fin 1) (0 : Fin 1)) else 0) + _
    rw [dif_pos h1, dif_pos h0, acc_succ m c n h1, point_step m c hx ⟨n + 1, h1⟩ (acc m c n (Nat.lt_of_succ_lt h1))]
    rfl

/-- THE KERNEL'S VALUE. With real entries the result buffer ends at the specification's loss. -/
theorem kernel_value (hx : ∀ i, ∃ r : ℝ, X m c i = (r : EReal)) :
    endVal m (dats m) c (Proc.devRef .tc main_v9) = fun _ => Cert.Spec.loss (X m c) (Lab m c) := by
  rw [endVal_result, out_final m c]
  funext i
  show Ideal.div (shapeCast S_ (fun _ => outAt m c ⟨7, outv_last_lt⟩ (ix2 (0 : Fin 1) (0 : Fin 1))) shapeCasts_S1x1_S_ i) (Ideal.ofBits .f32 0x497FC000#32) = _
  rw [Cert.KernelIdeal.TileSum.den_eq, ← after_6 m c ⟨7, outv_last_lt⟩, after6_last m c outv_last_lt, acc_last_total m c hx outv_last_lt]
  rfl

end Cert.KernelIdeal.Hand

end
-- ==== Proof.RefValue.lean ====
/-
  The reference program's result, at the exact (extended-real) reading of its float operations, is the
  specification `Cert.Spec.loss`: the mean, over the 1024 * 1023 ordered pairs of distinct rows, of the pair
  contributions.

  Three pieces.  (1) The integer count of the pairs of distinct rows is the word 1047552 = 1024 * 1023, by counting:
  the sum of a widened 0/1 mask is the number of its set entries, and row i differs from all but one row.
  (2) At a pair (i, j) the summand of the reference's double sum is `Cert.Spec.pairLoss` of that pair: the squared
  distance is the same sum over the 256 columns, and the two float masks are the 0/1 weights `sameW`, `diffW`.
  (3) The quotient of the double sum by the count, read as a real, is `Cert.Spec.loss`.
-/
import proofs.«175114_j50955491999905_1_alg».proof.Proof.Gen.ReferenceIdeal.Read
import proofs.«175114_j50955491999905_1_alg».proof.Proof.Spec
import Idealize.ShloMosaic.Lib.ReduceAll
import Idealize.ShloMosaic.Lib.StableHlo.Predicate
import Idealize.ShloMosaic.Lib.IdealHost
import Idealize.ShloMosaic.Lib.ValueIdx

noncomputable section

open scoped BigOperators

namespace Cert.ReferenceIdeal.RefValue

open Cert.ReferenceIdeal Cert.ReferenceIdeal.Read Idealize.ShloMosaic Idealize.ShloMosaic.ValueIdx
  Idealize.ShloMosaic.StableHlo

/-! ## The count of ordered pairs of distinct rows -/

/-- Two numbers below 1024 are equal 32-bit words exactly when they are equal. -/
theorem ofNat_eq_iff (a b : ℕ) (ha : a < 1024) (hb : b < 1024) : BitVec.ofNat 32 b = BitVec.ofNat 32 a ↔ b = a := by
  constructor
  · intro h
    have h' := congrArg BitVec.toNat h
    simp only [BitVec.toNat_ofNat] at h'
    omega
  · rintro rfl; rfl

/-- The "different rows" bit of the pair (i 0, i 1). -/
theorem v5_apply (i : S1024x1024.Idx) :
    val_main_v5 (F := Ideal) i = BitVec.ofBool (BitVec.ofNat 32 (i 1).val != BitVec.ofNat 32 (i 0).val) := by
  rw [val_main_v5_apply, val_main_v3_apply, val_main_v4_apply, val_main_v1_apply, val_main_v2_apply,
    val_main_v0_apply, val_main_v0_apply]
  rfl

/-- It is set exactly when the two rows differ. -/
theorem v5_eq_one_iff (i : S1024x1024.Idx) : val_main_v5 (F := Ideal) i = 1#1 ↔ (i 1).val ≠ (i 0).val := by
  rw [v5_apply, Predicate.ofBool_eq_one_iff, bne_iff_ne]
  exact not_congr (ofNat_eq_iff _ _ (idx2_lt0 i) (idx2_lt1 i))

/-- The widened bit, as a number. -/
theorem v36_toNat (i : S1024x1024.Idx) :
    (val_main_v36 (F := Ideal) i).toNat = if (i 1).val ≠ (i 0).val then 1 else 0 := by
  rw [val_main_v36_apply, Predicate.toNat_setWidth_bit]
  exact if_congr (v5_eq_one_iff i) rfl rfl

/-- Each row differs from 1023 rows, so the widened bits add up to 1024 * 1023. -/
theorem sum_v36 : ∑ i : S1024x1024.Idx, (val_main_v36 (F := Ideal) i).toNat = 1047552 := by
  rw [sum_idx2]
  have hrow : ∀ a : Fin 1024, ∑ b : Fin 1024, (val_main_v36 (F := Ideal) (ix2 a b)).toNat = 1023 := by
    intro a
    have h1 : ∀ b : Fin 1024, (val_main_v36 (F := Ideal) (ix2 a b)).toNat = if b ≠ a then 1 else 0 :=
      fun b => (v36_toNat _).trans (if_congr Fin.val_ne_iff rfl rfl)
    rw [Finset.sum_congr rfl fun b _ => h1 b, Finset.sum_boole, Finset.filter_ne' Finset.univ a,
      Finset.card_erase_of_mem (Finset.mem_univ a), Finset.card_univ, Fintype.card_fin]
    rfl
  rw [Finset.sum_congr rfl fun a _ => hrow a, Finset.sum_const, Finset.card_univ, Fintype.card_fin]
  rfl

/-- The integer count the reference divides by is the word 1047552 = 1024 * 1023. -/
theorem v37_eq (i : S_.Idx) : val_main_v37 (F := Ideal) i = 1047552#32 := by
  unfold val_main_v37
  rw [Host.reduce_eq_fold]
  rw [Finset.filter_true_of_mem fun j _ => funext fun b => b.elim0]
  apply BitVec.eq_of_toNat_eq
  show (Finset.fold IntOp.addi 0#32 (val_main_v36 (F := Ideal)) Finset.univ).toNat = _
  rw [Predicate.toNat_fold_addi _ _ (by rw [sum_v36]; decide), sum_v36]
  rfl

/-! ## The pair term -/

/-- The squared shifted difference at (row `j 0`, row `j 1`, column `j 2`). -/
theorem v23_at (x : Cert.Spec.SX.Idx → EReal) (j : S1024x1024x256.Idx) :
    val_main_v23 (F := Ideal) x j
      = (x (ix2 (n0 := 1024) (n1 := 256) (j 1) (j 2)) - x (ix2 (n0 := 1024) (n1 := 256) (j 0) (j 2)) + Cert.Spec.eps)
        * (x (ix2 (n0 := 1024) (n1 := 256) (j 1) (j 2)) - x (ix2 (n0 := 1024) (n1 := 256) (j 0) (j 2)) + Cert.Spec.eps) := by
  have e18 : idx_main_v16 (idx_main_v18 j) = ix2 (n0 := 1024) (n1 := 256) (j 1) (j 2) :=
    funext fun a => Fin.ext (by match a with | ⟨0, _⟩ => rfl | ⟨1, _⟩ => rfl)
  have e19 : idx_main_v17 (idx_main_v19 j) = ix2 (n0 := 1024) (n1 := 256) (j 0) (j 2) :=
    funext fun a => Fin.ext (by match a with | ⟨0, _⟩ => rfl | ⟨1, _⟩ => rfl)
  rw [val_main_v23_apply, val_main_v22_apply, val_main_v20_apply, val_main_v18_apply, val_main_v19_apply,
    val_main_v16_apply, val_main_v17_apply, val_main_v21_apply, val_main_cst_apply, e18, e19]
  rfl

/-- The sum over the columns is the squared shifted distance from row `i 0` to row `i 1`. -/
theorem v24_at (x : Cert.Spec.SX.Idx → EReal) (i : S1024x1024.Idx) :
    val_main_v24 (F := Ideal) x i = Cert.Spec.dist2 x (i 0) (i 1) := by
  rw [val_main_v24_apply, val_main_cst_0_apply]
  simp only [Ideal.ofBits_def, Ideal.ofBits_zero_f32, zero_add]
  unfold Cert.Spec.dist2
  exact Finset.sum_congr rfl fun k _ => v23_at x (idx_main_v24 i k)

/-- A comparison for equality, as a bit. -/
theorem cmpi_eq_ite (a b : BitVec 32) : IntOp.cmpi .eq a b = if a = b then 1#1 else 0#1 := by
  by_cases h : a = b
  · rw [if_pos h]; subst h
    show BitVec.ofBool (a == a) = 1#1
    rw [beq_self_eq_true]; rfl
  · rw [if_neg h]
    show BitVec.ofBool (a == b) = 0#1
    rw [beq_eq_false_iff_ne.2 h]; rfl

/-- The "different rows" bit at (a, b). -/
theorem v5_at (a b : Fin 1024) : val_main_v5 (F := Ideal) (ix2 a b) = if b ≠ a then 1#1 else 0#1 := by
  by_cases h : b ≠ a
  · rw [if_pos h]; exact (v5_eq_one_iff _).2 (Fin.val_ne_iff.2 h)
  · rw [if_neg h]
    rcases BitVec.eq_zero_or_eq_one (val_main_v5 (F := Ideal) (ix2 a b)) with h0 | h1
    · exact h0
    · exact absurd (Fin.val_ne_iff.1 ((v5_eq_one_iff _).1 h1)) h

/-- The "same label" bit at (a, b). -/
theorem v10_at (lab : Cert.Spec.SLab.Idx → BitVec 32) (a b : Fin 1024) :
    val_main_v10 (F := Ideal) lab (ix2 a b) = if lab (ix1 b) = lab (ix1 a) then 1#1 else 0#1 := by
  have e8 : idx_main_v6 (idx_main_v8 (ix2 a b)) = ix1 b := funext fun c => Fin.ext (by match c with | ⟨0, _⟩ => rfl)
  have e9 : idx_main_v7 (idx_main_v9 (ix2 a b)) = ix1 a := funext fun c => Fin.ext (by match c with | ⟨0, _⟩ => rfl)
  rw [val_main_v10_apply, val_main_v8_apply, val_main_v9_apply, val_main_v6_apply, val_main_v7_apply, e8, e9,
    cmpi_eq_ite]

/-- A one-bit word read as a float is the number 0 or 1 it holds. -/
theorem uitofp_bit (b : BitVec 1) : FloatOps.uitofp (F := Ideal) .f32 b = ((b.toNat : ℝ) : EReal) := rfl

/-- The float mask of pairs of distinct rows with equal labels is the weight `sameW`. -/
theorem v12_at (lab : Cert.Spec.SLab.Idx → BitVec 32) (a b : Fin 1024) :
    val_main_v12 (F := Ideal) lab (ix2 a b) = Cert.Spec.sameW lab a b := by
  rw [val_main_v12_apply, val_main_v11_apply, v5_at, v10_at, uitofp_bit]
  unfold Cert.Spec.sameW
  by_cases h1 : lab (ix1 b) = lab (ix1 a) <;> by_cases h2 : b = a <;> simp [h1, h2, IntOp.andi]

/-- The float mask of pairs of distinct rows with different labels is the weight `diffW`. -/
theorem v15_at (lab : Cert.Spec.SLab.Idx → BitVec 32) (a b : Fin 1024) :
    val_main_v15 (F := Ideal) lab (ix2 a b) = Cert.Spec.diffW lab a b := by
  rw [val_main_v15_apply, val_main_v14_apply, val_main_v13_apply, v5_at, v10_at, uitofp_bit]
  unfold Cert.Spec.diffW
  by_cases h1 : lab (ix1 b) = lab (ix1 a) <;> by_cases h2 : b = a <;> simp [h1, h2, IntOp.andi]

/-- The summand of the reference's double sum at the pair (a, b) is that pair's contribution. -/
theorem v34_at (x : Cert.Spec.SX.Idx → EReal) (lab : Cert.Spec.SLab.Idx → BitVec 32) (a b : Fin 1024) :
    val_main_v34 (F := Ideal) x lab (ix2 a b) = Cert.Spec.pairLoss x lab a b := by
  have h24 : val_main_v24 (F := Ideal) x (ix2 a b) = Cert.Spec.dist2 x a b := v24_at x _
  rw [val_main_v34_apply, val_main_v31_apply, val_main_v33_apply, val_main_v30_apply, val_main_v32_apply,
    val_main_v29_apply, val_main_v27_apply, val_main_v25_apply, val_main_v26_apply, val_main_v28_apply,
    val_main_cst_1_apply, val_main_cst_2_apply, h24, v12_at, v15_at]
  simp only [Ideal.ofBits_def, Ideal.ofBits_zero_f32, Ideal.ofBits_one_f32, Ideal.addf_def, Ideal.mulf_def,
    Ideal.subf_def, Ideal.maximumf_def, Ideal.hostUnary_sqrt_def]
  rfl

/-! ## The result -/

/-- The reference's double sum is the sum of the contributions of all ordered pairs. -/
theorem v35_eq (x : Cert.Spec.SX.Idx → EReal) (lab : Cert.Spec.SLab.Idx → BitVec 32) (i : S_.Idx) :
    val_main_v35 (F := Ideal) x lab i = Cert.Spec.total x lab := by
  rw [val_main_v35_apply, val_main_cst_3_apply, sum_idx2]
  simp only [Ideal.ofBits_def, Ideal.ofBits_zero_f32, zero_add]
  unfold Cert.Spec.total
  exact Finset.sum_congr rfl fun a _ => Finset.sum_congr rfl fun b _ => v34_at x lab a b

/-- The count, read as a float, is the real number 1047552. -/
theorem v38_eq (i : S_.Idx) : val_main_v38 (F := Ideal) i = ((1047552 : ℝ) : EReal) := by
  rw [val_main_v38_apply, v37_eq]
  show ((((1047552#32 : BitVec 32).toInt : ℤ) : ℝ) : EReal) = _
  rw [show (1047552#32 : BitVec 32).toInt = 1047552 by decide]
  norm_num

/-- The reference program's result is the specification. -/
theorem ref_eq (x0 : (⟨Cert.ReferenceIdeal.S1024x256, .f32⟩ : BufTy).Contents (Elt Ideal))
    (x1 : (⟨Cert.ReferenceIdeal.S1024, .i32⟩ : BufTy).Contents (Elt Ideal)) :
    Cert.ReferenceIdeal.Read.val_main_v39 (F := Ideal) x0 x1 = fun _ => Cert.Spec.loss x0 x1 := by
  funext i
  rw [val_main_v39_apply, v38_eq]
  exact congrArg (fun t => Ideal.div t ((1047552 : ℝ) : EReal)) (v35_eq x0 x1 i)

end Cert.ReferenceIdeal.RefValue

end
-- ==== Proof.lean ====
/-
  A contrastive pairwise-distance loss over 1024 rows of 256 entries with integer labels: the Pallas kernel against its
  jnp reference, over the extended reals.

  Both programs compute the mean, over the 1024 * 1023 ordered pairs (i, j) of distinct rows, of d(i,j)^2 when the labels
  agree and of max(1 - d(i,j), 0)^2 when they differ, d(i,j) the Euclidean norm of row j minus row i with ε added to every
  coordinate (Proof/Spec.lean). The reference forms the 1024 x 1024 x 256 array of shifted differences and sums its squares;
  the kernel walks 8 tiles of 128 rows, gets the squared distances of a tile against all rows from the expansion
    Σ_c (x_j - x_i + ε)^2 = Σ x_i^2 + Σ x_j^2 - 2 Σ x_i x_j + 2ε (Σ x_j - Σ x_i) + 256 ε^2
  (the cross term a matrix product, the row sums computed once before the kernel), and accumulates the tiles' sums in a
  1x1 scratch buffer that it writes out at the last tile. The expansion is an identity of real numbers, so the
  precondition (every entry finite) is used; 2ε is the kernel's own literal exactly, and 256 ε^2 is the value the
  certificate's table gives the kernel's last literal (the one rewrite of the idealization, restated as `preserves`).

  The frames of the two kernel programs (Proof/FrameRun.lean and its word-level counterpart Proof/Word/FrameRun.lean) run
  the pipeline with two of its windows reading one array, each holding half of it; the reference's frame is its run with the
  result dropped.
-/
import proofs.«175114_j50955491999905_1_alg».proof.Defs
import proofs.«175114_j50955491999905_1_alg».proof.Proof.Gen.Kernel
import proofs.«175114_j50955491999905_1_alg».proof.Proof.Gen.KernelIdeal
import proofs.«175114_j50955491999905_1_alg».proof.Proof.Gen.ReferenceIdeal
import proofs.«175114_j50955491999905_1_alg».proof.Proof.Gen.Pre_finite_inputs
import proofs.«175114_j50955491999905_1_alg».proof.Proof.Gen.ReferenceIdeal.Run
import proofs.«175114_j50955491999905_1_alg».proof.Proof.Gen.ReferenceIdeal.Read
import proofs.«175114_j50955491999905_1_alg».proof.Proof.Word.FrameRun
import proofs.«175114_j50955491999905_1_alg».proof.Proof.FrameRun
import proofs.«175114_j50955491999905_1_alg».proof.Proof.KernelValue
import proofs.«175114_j50955491999905_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments unchanged. -/
theorem frame_kernel : Cert.frame_Kernel := fun m ρ _ => Cert.Kernel.Hand.frame m ρ

/-- So does the idealized one. -/
theorem frame_kernelIdeal : Cert.frame_KernelIdeal := fun m ρ _ => Cert.KernelIdeal.Hand.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: the kernel's last literal is named, and the table gives the name the value
    256 ε^2, ε the exact value of the reference's own literal. -/
theorem preserves : Cert.preserves_Kernel_KernelIdeal :=
  IdealRules.named_const.statement Cert.KernelIdeal.κ "c_eps_sq" .f32 0x2F8CBCCC#32
    ((77371252064649 / 302231454903657293676544 : ℝ) : EReal) rfl

/-- From memories agreeing on the arguments, finite in every entry, both idealized programs end at the specification's
    loss of the arguments. -/
theorem algebraic : Cert.algebraic_KernelIdeal_ReferenceIdeal := by
  intro m ρ m' ρ' hpre hagree
  have hx : ∀ c i, ∃ r : ℝ, Cert.KernelIdeal.EntryValue.X m c i = (r : EReal) := fun c =>
    Cert.KernelIdeal.EntryValue.finite_of_pre _ _ (hpre c)
  refine ⟨fun c => fun _ => Cert.Spec.loss (Cert.KernelIdeal.EntryValue.X m c) (Cert.KernelIdeal.EntryValue.Lab m c), ?_, ?_⟩
  · exact (θ_run Cert.KernelIdeal.defs _ _).mono (fun _ h c =>
      ⟨(h c).2.2.trans (Cert.KernelIdeal.Hand.kernel_value m c (hx c)),
        ((h c).1 0).trans (((Cert.KernelIdeal.Hand.dats m 0 c).arrAt_in 0 rfl _).trans
          ((Cert.KernelIdeal.Hand.A_eq m c 0).trans (Cert.KernelIdeal.Hand.V_main_arg0 m c))),
        (h c).2.1⟩) (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v39_eq, Cert.ReferenceIdeal.RefValue.ref_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
